-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x1 : Shape := ⟨2, ![1600000, 1]⟩
abbrev S2000000 : Shape := ⟨1, ![2000000]⟩
abbrev S100000 : Shape := ⟨1, ![100000]⟩
abbrev S10x512 : Shape := ⟨2, ![10, 512]⟩
abbrev S10 : Shape := ⟨1, ![10]⟩
abbrev S2x2000000 : Shape := ⟨2, ![2, 2000000]⟩
abbrev S512 : Shape := ⟨1, ![512]⟩
abbrev S_ : Shape := ⟨0, ![]⟩
abbrev S1x2000000 : Shape := ⟨2, ![1, 2000000]⟩

class Facts : Prop where
  bcast_S_S1600000x1 : S_.BroadcastsInDim S1600000x1 (![] : Fin 0 → Fin S1600000x1.rank)
  reducesTo_S1600000x1_S_d0_1 : S1600000x1.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S100000 : S_.BroadcastsInDim S100000 (![] : Fin 0 → Fin S100000.rank)
  reducesTo_S100000_S_d0 : S100000.ReducesTo [0] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_
  slices_S2x2000000_S1x2000000_0_0 : S2x2000000.Slices ![0, 0] S1x2000000
  shapeCasts_S1x2000000_S2000000 : S1x2000000.ShapeCasts S2000000
  bcast_S_S512 : S_.BroadcastsInDim S512 (![] : Fin 0 → Fin S512.rank)
  reducesTo_S512_S_d0 : S512.ReducesTo [0] S_

variable [Facts]

def fn_part2 {F : FTy → Type} [FloatOps F] (main_arg7 : IVec S512 32) (main_v28 : IVec S_ 1) (main_v32 : IVec S2000000 1) (main_v34 : IVec S2000000 32) : IVec S_ 1 :=
  let main_c_11 : IVec S_ 32 := constantI S_ 32 100000#32
  let main_v35 : IVec S2000000 32 := broadcastInDim S2000000 ![] bcast_S_S2000000 main_c_11
  let main_v36 : IVec S2000000 1 := cmpi .slt main_v34 main_v35
  let main_v37 : IVec S2000000 1 := andi main_v32 main_v36
  let main_c_12 : IVec S_ 1 := constantI S_ 1 1#1
  let main_v38 : IVec S_ 1 := (fun x v => Host.reduce IntOp.andi x v reducesTo_S2000000_S_d0 h_S_) main_v37 main_c_12
  let main_v39 : IVec S_ 1 := andi main_v28 main_v38
  let main_c_13 : IVec S_ 32 := constantI S_ 32 4294867296#32
  let main_v40 : IVec S512 32 := broadcastInDim S512 ![] bcast_S_S512 main_c_13
  let main_v41 : IVec S512 1 := cmpi .sge main_arg7 main_v40
  let main_c_14 : IVec S_ 32 := constantI S_ 32 100000#32
  let main_v42 : IVec S512 32 := broadcastInDim S512 ![] bcast_S_S512 main_c_14
  let main_v43 : IVec S512 1 := cmpi .slt main_arg7 main_v42
  let main_v44 : IVec S512 1 := andi main_v41 main_v43
  let main_c_15 : IVec S_ 1 := constantI S_ 1 1#1
  let main_v45 : IVec S_ 1 := (fun x v => Host.reduce IntOp.andi x v reducesTo_S512_S_d0 h_S_) main_v44 main_c_15
  let main_v46 : IVec S_ 1 := andi main_v39 main_v45
  main_v46

def fn_part1 {F : FTy → Type} [FloatOps F] (main_arg4 : FVec F S10x512 .f32) (main_arg5 : FVec F S10 .f32) (main_arg6 : IVec S2x2000000 32) (main_arg7 : IVec S512 32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S10x512 .f32 := Host.absf main_arg4
  let main_cst_6 : FVec F S_ .f32 := constant S_ .f32 0x7F800000#32
  let main_v20 : FVec F S10x512 .f32 := broadcastInDim S10x512 ![] bcast_S_S10x512 main_cst_6
  let main_v21 : IVec S10x512 1 := cmpf .olt main_v19 main_v20
  let main_c_7 : IVec S_ 1 := constantI S_ 1 1#1
  let main_v22 : IVec S_ 1 := (fun x v => Host.reduce IntOp.andi x v reducesTo_S10x512_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : IVec S1x2000000 32 := (extractStridedSlice S1x2000000 ![0, 0] · slices_S2x2000000_S1x2000000_0_0) main_arg6
  let main_v30 : IVec S2000000 32 := shapeCast S2000000 main_v29 shapeCasts_S1x2000000_S2000000
  let main_c_10 : IVec S_ 32 := constantI S_ 32 4294867296#32
  let main_v31 : IVec S2000000 32 := broadcastInDim S2000000 ![] bcast_S_S2000000 main_c_10
  let main_v32 : IVec S2000000 1 := cmpi .sge main_v30 main_v31
  let main_v33 : IVec S1x2000000 32 := (extractStridedSlice S1x2000000 ![0, 0] · slices_S2x2000000_S1x2000000_0_0) main_arg6
  let main_v34 : IVec S2000000 32 := shapeCast S2000000 main_v33 shapeCasts_S1x2000000_S2000000
  fn_part2 (F := F) main_arg7 main_v28 main_v32 main_v34

def fn {F : FTy → Type} [FloatOps F] (main_arg0 : FVec F S1600000x1 .f32) (main_arg1 : FVec F S2000000 .f32) (main_arg2 : FVec F S2000000 .f32) (main_arg3 : FVec F S100000 .f32) (main_arg4 : FVec F S10x512 .f32) (main_arg5 : FVec F S10 .f32) (main_arg6 : IVec S2x2000000 32) (main_arg7 : IVec S512 32) : IVec S_ 1 :=
  let main_v0 : FVec F S1600000x1 .f32 := Host.absf main_arg0
  let main_cst : FVec F S_ .f32 := constant S_ .f32 0x7F800000#32
  let main_v1 : FVec F S1600000x1 .f32 := broadcastInDim S1600000x1 ![] bcast_S_S1600000x1 main_cst
  let main_v2 : IVec S1600000x1 1 := cmpf .olt main_v0 main_v1
  let main_c : IVec S_ 1 := constantI S_ 1 1#1
  let main_v3 : IVec S_ 1 := (fun x v => Host.reduce IntOp.andi x v reducesTo_S1600000x1_S_d0_1 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg4 main_arg5 main_arg6 main_arg7 main_v13 main_v16
-- ==== Kernel.lean ====
abbrev S1600000x1 : Shape := ⟨2, ![1600000, 1]⟩
abbrev S2000000 : Shape := ⟨1, ![2000000]⟩
abbrev S100000 : Shape := ⟨1, ![100000]⟩
abbrev S10x512 : Shape := ⟨2, ![10, 512]⟩
abbrev S10 : Shape := ⟨1, ![10]⟩
abbrev S2x2000000 : Shape := ⟨2, ![2, 2000000]⟩
abbrev S512 : Shape := ⟨1, ![512]⟩
abbrev S16x100000 : Shape := ⟨2, ![16, 100000]⟩
abbrev S1x2000000 : Shape := ⟨2, ![1, 2000000]⟩
abbrev S1x80000 : Shape := ⟨2, ![1, 80000]⟩
abbrev S1x100000 : Shape := ⟨2, ![1, 100000]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S16x2000000 : Shape := ⟨2, ![16, 2000000]⟩
abbrev S16x80000 : Shape := ⟨2, ![16, 80000]⟩
abbrev S512x1 : Shape := ⟨2, ![512, 1]⟩
abbrev S16x512 : Shape := ⟨2, ![16, 512]⟩
abbrev S512x10 : Shape := ⟨2, ![512, 10]⟩
abbrev S1x10 : Shape := ⟨2, ![1, 10]⟩
abbrev S16x10 : Shape := ⟨2, ![16, 10]⟩

abbrev nBuf : Space → Nat
  | .hbm => 212
  | .vmem => 54
  | .smem => 0
  | _ => 0

abbrev hbmTy0_0 (i : Nat) : BufTy := match i % 128 with
  | 0 => ⟨S1600000x1, .f32⟩
  | 1 => ⟨S2000000, .f32⟩
  | 2 => ⟨S2000000, .f32⟩
  | 3 => ⟨S100000, .f32⟩
  | 4 => ⟨S10x512, .f32⟩
  | 5 => ⟨S10, .f32⟩
  | 6 => ⟨S2x2000000, .i32⟩
  | 7 => ⟨S512, .i32⟩
  | 8 => ⟨S16x100000, .f32⟩
  | 9 => ⟨S1x2000000, .i32⟩
  | 10 => ⟨S2000000, .i32⟩
  | 11 => ⟨S1x2000000, .i32⟩
  | 12 => ⟨S2000000, .i32⟩
  | 13 => ⟨S1x2000000, .f32⟩
  | 14 => ⟨S1x2000000, .f32⟩
  | 15 => ⟨S1x2000000, .f32⟩
  | 16 => ⟨S100000, .f32⟩
  | 17 => ⟨S1x100000, .f32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S1, .i32⟩
  | 27 => ⟨S_, .i32⟩
  | 28 => ⟨S2000000x1, .i32⟩
  | 29 => ⟨S2000000x1, .i1⟩
  | 30 => ⟨S1x1, .i32⟩
  | 31 => ⟨S2000000x1, .i32⟩
  | 32 => ⟨S2000000x1, .i1⟩
  | 33 => ⟨S2000000x1, .i1⟩
  | 34 => ⟨S_, .i1⟩
  | 35 => ⟨S2000000, .i1⟩
  | 36 => ⟨S16x2000000, .f32⟩
  | 37 => ⟨S16x2000000, .i1⟩
  | 38 => ⟨S_, .f32⟩
  | 39 => ⟨S16x2000000, .f32⟩
  | 40 => ⟨S16x2000000, .f32⟩
  | 41 => ⟨S16x2000000, .f32⟩
  | 42 => ⟨S_, .f32⟩
  | 43 => ⟨S16x100000, .f32⟩
  | 44 => ⟨S_, .i32⟩
  | 45 => ⟨S2000000, .i32⟩
  | 46 => ⟨S2000000, .i1⟩
  | 47 => ⟨S_, .i32⟩
  | 48 => ⟨S2000000, .i32⟩
  | 49 => ⟨S2000000, .i32⟩
  | 50 => ⟨S2000000, .i32⟩
  | 51 => ⟨S2000000x1, .i32⟩
  | 52 => ⟨S16x100000, .f32⟩
  | 53 => ⟨S_, .f32⟩
  | 54 => ⟨S_, .f32⟩
  | 55 => ⟨S1x1, .f32⟩
  | 56 => ⟨S_, .f32⟩
  | 57 => ⟨S_, .f32⟩
  | 58 => ⟨S1x1, .f32⟩
  | 59 => ⟨S16x100000, .f32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S2000000x1, .i32⟩
  | 68 => ⟨S1, .i32⟩
  | 69 => ⟨S_, .i32⟩
  | 70 => ⟨S2000000x1, .i32⟩
  | 71 => ⟨S2000000x1, .i1⟩
  | 72 => ⟨S1x1, .i32⟩
  | 73 => ⟨S2000000x1, .i32⟩
  | 74 => ⟨S2000000x1, .i1⟩
  | 75 => ⟨S2000000x1, .i1⟩
  | 76 => ⟨S_, .i1⟩
  | 77 => ⟨S2000000, .i1⟩
  | 78 => ⟨S16x2000000, .f32⟩
  | 79 => ⟨S16x2000000, .i1⟩
  | 80 => ⟨S_, .f32⟩
  | 81 => ⟨S16x2000000, .f32⟩
  | 82 => ⟨S16x2000000, .f32⟩
  | 83 => ⟨S16x2000000, .f32⟩
  | 84 => ⟨S_, .f32⟩
  | 85 => ⟨S16x100000, .f32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S2000000x1, .i32⟩
  | 94 => ⟨S16x100000, .f32⟩
  | 95 => ⟨S_, .f32⟩
  | 96 => ⟨S_, .f32⟩
  | 97 => ⟨S1x1, .f32⟩
  | 98 => ⟨S_, .f32⟩
  | 99 => ⟨S_, .f32⟩
  | 100 => ⟨S1x1, .f32⟩
  | 101 => ⟨S16x100000, .f32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S1, .i32⟩
  | 111 => ⟨S_, .i32⟩
  | 112 => ⟨S2000000x1, .i32⟩
  | 113 => ⟨S2000000x1, .i1⟩
  | 114 => ⟨S1x1, .i32⟩
  | 115 => ⟨S2000000x1, .i32⟩
  | 116 => ⟨S2000000x1, .i1⟩
  | 117 => ⟨S2000000x1, .i1⟩
  | 118 => ⟨S_, .i1⟩
  | 119 => ⟨S2000000, .i1⟩
  | 120 => ⟨S16x2000000, .f32⟩
  | 121 => ⟨S16x2000000, .i1⟩
  | 122 => ⟨S_, .f32⟩
  | 123 => ⟨S16x2000000, .f32⟩
  | 124 => ⟨S16x2000000, .f32⟩
  | 125 => ⟨S16x2000000, .f32⟩
  | 126 => ⟨S_, .f32⟩
  | 127 => ⟨S16x100000, .f32⟩
  | _ => ⟨S1600000x1, .f32⟩

abbrev hbmTy0_1 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i32⟩
  | 6 => ⟨S2000000, .i32⟩
  | 7 => ⟨S2000000x1, .i32⟩
  | 8 => ⟨S16x100000, .f32⟩
  | 9 => ⟨S_, .f32⟩
  | 10 => ⟨S_, .f32⟩
  | 11 => ⟨S1x1, .f32⟩
  | 12 => ⟨S_, .f32⟩
  | 13 => ⟨S_, .f32⟩
  | 14 => ⟨S1x1, .f32⟩
  | 15 => ⟨S16x100000, .f32⟩
  | 16 => ⟨S_, .i32⟩
  | 17 => ⟨S2000000, .i32⟩
  | 18 => ⟨S2000000, .i1⟩
  | 19 => ⟨S_, .i32⟩
  | 20 => ⟨S2000000, .i32⟩
  | 21 => ⟨S2000000, .i32⟩
  | 22 => ⟨S2000000, .i32⟩
  | 23 => ⟨S2000000x1, .i32⟩
  | 24 => ⟨S1, .i32⟩
  | 25 => ⟨S_, .i32⟩
  | 26 => ⟨S2000000x1, .i32⟩
  | 27 => ⟨S2000000x1, .i1⟩
  | 28 => ⟨S1x1, .i32⟩
  | 29 => ⟨S2000000x1, .i32⟩
  | 30 => ⟨S2000000x1, .i1⟩
  | 31 => ⟨S2000000x1, .i1⟩
  | 32 => ⟨S_, .i1⟩
  | 33 => ⟨S2000000, .i1⟩
  | 34 => ⟨S16x2000000, .f32⟩
  | 35 => ⟨S16x2000000, .i1⟩
  | 36 => ⟨S_, .f32⟩
  | 37 => ⟨S16x2000000, .f32⟩
  | 38 => ⟨S16x2000000, .f32⟩
  | 39 => ⟨S16x2000000, .f32⟩
  | 40 => ⟨S_, .f32⟩
  | 41 => ⟨S16x100000, .f32⟩
  | 42 => ⟨S_, .i32⟩
  | 43 => ⟨S2000000, .i32⟩
  | 44 => ⟨S2000000, .i1⟩
  | 45 => ⟨S_, .i32⟩
  | 46 => ⟨S2000000, .i32⟩
  | 47 => ⟨S2000000, .i32⟩
  | 48 => ⟨S2000000, .i32⟩
  | 49 => ⟨S2000000x1, .i32⟩
  | 50 => ⟨S16x100000, .f32⟩
  | 51 => ⟨S_, .f32⟩
  | 52 => ⟨S_, .f32⟩
  | 53 => ⟨S1x1, .f32⟩
  | 54 => ⟨S_, .f32⟩
  | 55 => ⟨S_, .f32⟩
  | 56 => ⟨S1x1, .f32⟩
  | 57 => ⟨S16x100000, .f32⟩
  | 58 => ⟨S_, .i32⟩
  | 59 => ⟨S512, .i32⟩
  | 60 => ⟨S512, .i1⟩
  | 61 => ⟨S_, .i32⟩
  | 62 => ⟨S512, .i32⟩
  | 63 => ⟨S512, .i32⟩
  | 64 => ⟨S512, .i32⟩
  | 65 => ⟨S512x1, .i32⟩
  | 66 => ⟨S1, .i32⟩
  | 67 => ⟨S_, .i32⟩
  | 68 => ⟨S512x1, .i32⟩
  | 69 => ⟨S512x1, .i1⟩
  | 70 => ⟨S1x1, .i32⟩
  | 71 => ⟨S512x1, .i32⟩
  | 72 => ⟨S512x1, .i1⟩
  | 73 => ⟨S512x1, .i1⟩
  | 74 => ⟨S_, .i1⟩
  | 75 => ⟨S512, .i1⟩
  | 76 => ⟨S16x512, .f32⟩
  | 77 => ⟨S16x512, .i1⟩
  | 78 => ⟨S_, .f32⟩
  | 79 => ⟨S16x512, .f32⟩
  | 80 => ⟨S16x512, .f32⟩
  | 81 => ⟨S512x10, .f32⟩
  | 82 => ⟨S1x10, .f32⟩
  | 83 => ⟨S16x10, .f32⟩
  | _ => ⟨S1600000x1, .f32⟩

abbrev hbmTy (i : Nat) : BufTy := match i / 128 with
  | 0 => hbmTy0_0 i
  | 1 => hbmTy0_1 i
  | _ => ⟨S1600000x1, .f32⟩

abbrev bufTy : (tb : Table) → Fin (tcTables nBuf tb) → BufTy
  | .hbm, ⟨i, _⟩ => hbmTy i
  | .local _ .vmem, ⟨0, _⟩ => ⟨S1x80000, .f32⟩
  | .local _ .vmem, ⟨1, _⟩ => ⟨S1x80000, .f32⟩
  | .local _ .vmem, ⟨2, _⟩ => ⟨S1x80000, .f32⟩
  | .local _ .vmem, ⟨3, _⟩ => ⟨S1x80000, .f32⟩
  | .local _ .vmem, ⟨4, _⟩ => ⟨S1x80000, .f32⟩
  | .local _ .vmem, ⟨5, _⟩ => ⟨S1x80000, .f32⟩
  | .local _ .vmem, ⟨6, _⟩ => ⟨S16x80000, .f32⟩
  | .local _ .vmem, ⟨7, _⟩ => ⟨S16x80000, .f32⟩
  | .local _ .vmem, ⟨8, _⟩ => ⟨S1x80000, .f32⟩
  | .local _ .vmem, ⟨9, _⟩ => ⟨S1x80000, .f32⟩
  | .local _ .vmem, ⟨10, _⟩ => ⟨S16x80000, .f32⟩
  | .local _ .vmem, ⟨11, _⟩ => ⟨S16x80000, .f32⟩
  | .local _ .vmem, ⟨12, _⟩ => ⟨S16x100000, .f32⟩
  | .local _ .vmem, ⟨13, _⟩ => ⟨S1x100000, .f32⟩
  | .local _ .vmem, ⟨14, _⟩ => ⟨S1x1, .f32⟩
  | .local _ .vmem, ⟨15, _⟩ => ⟨S1x1, .f32⟩
  | .local _ .vmem, ⟨16, _⟩ => ⟨S16x100000, .f32⟩
  | .local _ .vmem, ⟨17, _⟩ => ⟨S16x80000, .f32⟩
  | .local _ .vmem, ⟨18, _⟩ => ⟨S16x80000, .f32⟩
  | .local _ .vmem, ⟨19, _⟩ => ⟨S1x80000, .f32⟩
  | .local _ .vmem, ⟨20, _⟩ => ⟨S1x80000, .f32⟩
  | .local _ .vmem, ⟨21, _⟩ => ⟨S16x80000, .f32⟩
  | .local _ .vmem, ⟨22, _⟩ => ⟨S16x80000, .f32⟩
  | .local _ .vmem, ⟨23, _⟩ => ⟨S16x100000, .f32⟩
  | .local _ .vmem, ⟨24, _⟩ => ⟨S1x100000, .f32⟩
  | .local _ .vmem, ⟨25, _⟩ => ⟨S1x1, .f32⟩
  | .local _ .vmem, ⟨26, _⟩ => ⟨S1x1, .f32⟩
  | .local _ .vmem, ⟨27, _⟩ => ⟨S16x100000, .f32⟩
  | .local _ .vmem, ⟨28, _⟩ => ⟨S16x80000, .f32⟩
  | .local _ .vmem, ⟨29, _⟩ => ⟨S16x80000, .f32⟩
  | .local _ .vmem, ⟨30, _⟩ => ⟨S1x80000, .f32⟩
  | .local _ .vmem, ⟨31, _⟩ => ⟨S1x80000, .f32⟩
  | .local _ .vmem, ⟨32, _⟩ => ⟨S16x80000, .f32⟩
  | .local _ .vmem, ⟨33, _⟩ => ⟨S16x80000, .f32⟩
  | .local _ .vmem, ⟨34, _⟩ => ⟨S16x100000, .f32⟩
  | .local _ .vmem, ⟨35, _⟩ => ⟨S1x100000, .f32⟩
  | .local _ .vmem, ⟨36, _⟩ => ⟨S1x1, .f32⟩
  | .local _ .vmem, ⟨37, _⟩ => ⟨S1x1, .f32⟩
  | .local _ .vmem, ⟨38, _⟩ => ⟨S16x100000, .f32⟩
  | .local _ .vmem, ⟨39, _⟩ => ⟨S16x80000, .f32⟩
  | .local _ .vmem, ⟨40, _⟩ => ⟨S16x80000, .f32⟩
  | .local _ .vmem, ⟨41, _⟩ => ⟨S1x80000, .f32⟩
  | .local _ .vmem, ⟨42, _⟩ => ⟨S1x80000, .f32⟩
  | .local _ .vmem, ⟨43, _⟩ => ⟨S16x80000, .f32⟩
  | .local _ .vmem, ⟨44, _⟩ => ⟨S16x80000, .f32⟩
  | .local _ .vmem, ⟨45, _⟩ => ⟨S16x100000, .f32⟩
  | .local _ .vmem, ⟨46, _⟩ => ⟨S1x100000, .f32⟩
  | .local _ .vmem, ⟨47, _⟩ => ⟨S1x1, .f32⟩
  | .local _ .vmem, ⟨48, _⟩ => ⟨S1x1, .f32⟩
  | .local _ .vmem, ⟨49, _⟩ => ⟨S16x100000, .f32⟩
  | .local _ .vmem, ⟨50, _⟩ => ⟨S16x512, .f32⟩
  | .local _ .vmem, ⟨51, _⟩ => ⟨S512x10, .f32⟩
  | .local _ .vmem, ⟨52, _⟩ => ⟨S1x10, .f32⟩
  | .local _ .vmem, ⟨53, _⟩ => ⟨S16x10, .f32⟩
  | _, _ => ⟨S1600000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v10 : Ref sig .tc := ⟨.hbm, 40, rfl⟩
abbrev main_v11 : Ref sig .tc := ⟨.hbm, 41, rfl⟩
abbrev main_cst : Ref sig .tc := ⟨.hbm, 42, rfl⟩
abbrev main_v12 : Ref sig .tc := ⟨.hbm, 43, rfl⟩
abbrev main_c : Ref sig .tc := ⟨.hbm, 44, rfl⟩
abbrev main_v13 : Ref sig .tc := ⟨.hbm, 45, rfl⟩
abbrev main_v14 : Ref sig .tc := ⟨.hbm, 46, rfl⟩
abbrev main_c_0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_1 : Ref sig .tc := ⟨.hbm, 53, rfl⟩
abbrev main_v20 : Ref sig .tc := ⟨.hbm, 54, rfl⟩
abbrev main_v21 : Ref sig .tc := ⟨.hbm, 55, rfl⟩
abbrev main_cst_2 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v25 : Ref sig .tc := ⟨.hbm, 82, rfl⟩
abbrev main_v26 : Ref sig .tc := ⟨.hbm, 83, rfl⟩
abbrev main_cst_3 : Ref sig .tc := ⟨.hbm, 84, rfl⟩
abbrev main_v27 : Ref sig .tc := ⟨.hbm, 85, rfl⟩
abbrev main_c_4 : Ref sig .tc := ⟨.hbm, 86, rfl⟩
abbrev main_v28 : Ref sig .tc := ⟨.hbm, 87, rfl⟩
abbrev main_v29 : Ref sig .tc := ⟨.hbm, 88, rfl⟩
abbrev main_c_5 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_cst_6 : Ref sig .tc := ⟨.hbm, 95, rfl⟩
abbrev main_v35 : Ref sig .tc := ⟨.hbm, 96, rfl⟩
abbrev main_v36 : Ref sig .tc := ⟨.hbm, 97, rfl⟩
abbrev main_cst_7 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_call2_c : Ref sig .tc := ⟨.hbm, 102, rfl⟩
abbrev main_call2_v0 : Ref sig .tc := ⟨.hbm, 103, rfl⟩
abbrev main_call2_v1 : Ref sig .tc := ⟨.hbm, 104, rfl⟩
abbrev main_call2_c_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_c_1 : Ref sig .tc := ⟨.hbm, 110, rfl⟩
abbrev main_call2_c_2 : Ref sig .tc := ⟨.hbm, 111, rfl⟩
abbrev main_call2_v6 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_c_3 : Ref sig .tc := ⟨.hbm, 118, rfl⟩
abbrev main_call2_v12 : Ref sig .tc := ⟨.hbm, 119, rfl⟩
abbrev main_call2_v13 : Ref sig .tc := ⟨.hbm, 120, rfl⟩
abbrev main_call2_v14 : Ref sig .tc := ⟨.hbm, 121, rfl⟩
abbrev main_call2_cst : Ref sig .tc := ⟨.hbm, 122, rfl⟩
abbrev main_call2_v15 : Ref sig .tc := ⟨.hbm, 123, rfl⟩
abbrev main_v40 : Ref sig .tc := ⟨.hbm, 124, rfl⟩
abbrev main_v41 : Ref sig .tc := ⟨.hbm, 125, rfl⟩
abbrev main_cst_8 : Ref sig .tc := ⟨.hbm, 126, rfl⟩
abbrev main_v42 : Ref sig .tc := ⟨.hbm, 127, rfl⟩
abbrev main_c_9 : Ref sig .tc := ⟨.hbm, 128, rfl⟩
abbrev main_v43 : Ref sig .tc := ⟨.hbm, 129, rfl⟩
abbrev main_v44 : Ref sig .tc := ⟨.hbm, 130, rfl⟩
abbrev main_c_10 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_cst_11 : Ref sig .tc := ⟨.hbm, 137, rfl⟩
abbrev main_v50 : Ref sig .tc := ⟨.hbm, 138, rfl⟩
abbrev main_v51 : Ref sig .tc := ⟨.hbm, 139, rfl⟩
abbrev main_cst_12 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_call3_c : Ref sig .tc := ⟨.hbm, 144, rfl⟩
abbrev main_call3_v0 : Ref sig .tc := ⟨.hbm, 145, rfl⟩
abbrev main_call3_v1 : Ref sig .tc := ⟨.hbm, 146, rfl⟩
abbrev main_call3_c_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_c_1 : Ref sig .tc := ⟨.hbm, 152, rfl⟩
abbrev main_call3_c_2 : Ref sig .tc := ⟨.hbm, 153, rfl⟩
abbrev main_call3_v6 : Ref sig .tc := ⟨.hbm, 154, rfl⟩
abbrev main_call3_v7 : Ref sig .tc := ⟨.hbm, 155, rfl⟩
abbrev main_call3_v8 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_c_3 : Ref sig .tc := ⟨.hbm, 160, rfl⟩
abbrev main_call3_v12 : Ref sig .tc := ⟨.hbm, 161, rfl⟩
abbrev main_call3_v13 : Ref sig .tc := ⟨.hbm, 162, rfl⟩
abbrev main_call3_v14 : Ref sig .tc := ⟨.hbm, 163, rfl⟩
abbrev main_call3_cst : Ref sig .tc := ⟨.hbm, 164, rfl⟩
abbrev main_call3_v15 : Ref sig .tc := ⟨.hbm, 165, rfl⟩
abbrev main_v55 : Ref sig .tc := ⟨.hbm, 166, rfl⟩
abbrev main_v56 : Ref sig .tc := ⟨.hbm, 167, rfl⟩
abbrev main_cst_13 : Ref sig .tc := ⟨.hbm, 168, rfl⟩
abbrev main_v57 : Ref sig .tc := ⟨.hbm, 169, rfl⟩
abbrev main_c_14 : Ref sig .tc := ⟨.hbm, 170, rfl⟩
abbrev main_v58 : Ref sig .tc := ⟨.hbm, 171, rfl⟩
abbrev main_v59 : Ref sig .tc := ⟨.hbm, 172, rfl⟩
abbrev main_c_15 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_cst_16 : Ref sig .tc := ⟨.hbm, 179, rfl⟩
abbrev main_v65 : Ref sig .tc := ⟨.hbm, 180, rfl⟩
abbrev main_v66 : Ref sig .tc := ⟨.hbm, 181, rfl⟩
abbrev main_cst_17 : Ref sig .tc := ⟨.hbm, 182, rfl⟩
abbrev main_v67 : Ref sig .tc := ⟨.hbm, 183, rfl⟩
abbrev main_v68 : Ref sig .tc := ⟨.hbm, 184, rfl⟩
abbrev main_v69 : Ref sig .tc := ⟨.hbm, 185, rfl⟩
abbrev main_call4_c : Ref sig .tc := ⟨.hbm, 186, rfl⟩
abbrev main_call4_v0 : Ref sig .tc := ⟨.hbm, 187, rfl⟩
abbrev main_call4_v1 : Ref sig .tc := ⟨.hbm, 188, rfl⟩
abbrev main_call4_c_0 : Ref sig .tc := ⟨.hbm, 189, rfl⟩
abbrev main_call4_v2 : Ref sig .tc := ⟨.hbm, 190, rfl⟩
abbrev main_call4_v3 : Ref sig .tc := ⟨.hbm, 191, rfl⟩
abbrev main_call4_v4 : Ref sig .tc := ⟨.hbm, 192, rfl⟩
abbrev main_call4_v5 : Ref sig .tc := ⟨.hbm, 193, rfl⟩
abbrev main_call4_c_1 : Ref sig .tc := ⟨.hbm, 194, rfl⟩
abbrev main_call4_c_2 : Ref sig .tc := ⟨.hbm, 195, rfl⟩
abbrev main_call4_v6 : Ref sig .tc := ⟨.hbm, 196, rfl⟩
abbrev main_call4_v7 : Ref sig .tc := ⟨.hbm, 197, rfl⟩
abbrev main_call4_v8 : Ref sig .tc := ⟨.hbm, 198, rfl⟩
abbrev main_call4_v9 : Ref sig .tc := ⟨.hbm, 199, rfl⟩
abbrev main_call4_v10 : Ref sig .tc := ⟨.hbm, 200, rfl⟩
abbrev main_call4_v11 : Ref sig .tc := ⟨.hbm, 201, rfl⟩
abbrev main_call4_c_3 : Ref sig .tc := ⟨.hbm, 202, rfl⟩
abbrev main_call4_v12 : Ref sig .tc := ⟨.hbm, 203, rfl⟩
abbrev main_call4_v13 : Ref sig .tc := ⟨.hbm, 204, rfl⟩
abbrev main_call4_v14 : Ref sig .tc := ⟨.hbm, 205, rfl⟩
abbrev main_call4_cst : Ref sig .tc := ⟨.hbm, 206, rfl⟩
abbrev main_call4_v15 : Ref sig .tc := ⟨.hbm, 207, rfl⟩
abbrev main_v70 : Ref sig .tc := ⟨.hbm, 208, rfl⟩
abbrev main_v71 : Ref sig .tc := ⟨.hbm, 209, rfl⟩
abbrev main_v72 : Ref sig .tc := ⟨.hbm, 210, rfl⟩
abbrev main_v73 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg4_0 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg3_0 : Ref sig .tc := ⟨.vmem, 48, rfl⟩
abbrev cc8_stg4_0 : Ref sig .tc := ⟨.vmem, 49, rfl⟩
abbrev cc9_stg0_0 : Ref sig .tc := ⟨.vmem, 50, rfl⟩
abbrev cc9_stg1_0 : Ref sig .tc := ⟨.vmem, 51, rfl⟩
abbrev cc9_stg2_0 : Ref sig .tc := ⟨.vmem, 52, rfl⟩
abbrev cc9_stg3_0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem1_0 : DmaSem sig := 24
abbrev cc4_sem2_0 : DmaSem sig := 25
abbrev cc4_sem3_0 : DmaSem sig := 26
abbrev cc4_sem4_0 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem1_0 : DmaSem sig := 35
abbrev cc6_sem2_0 : DmaSem sig := 36
abbrev cc6_sem3_0 : DmaSem sig := 37
abbrev cc6_sem4_0 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc7_sem2_1 : DmaSem sig := 44
abbrev cc8_sem0_0 : DmaSem sig := 45
abbrev cc8_sem1_0 : DmaSem sig := 46
abbrev cc8_sem2_0 : DmaSem sig := 47
abbrev cc8_sem3_0 : DmaSem sig := 48
abbrev cc8_sem4_0 : DmaSem sig := 49
abbrev cc9_sem0_0 : DmaSem sig := 50
abbrev cc9_sem1_0 : DmaSem sig := 51
abbrev cc9_sem2_0 : DmaSem sig := 52
abbrev cc9_sem3_0 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x80000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x80000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x80000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S16x100000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x100000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x100000 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S16x80000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x80000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16x80000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S16x100000 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x100000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S16x100000 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S16x80000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x80000 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S16x80000 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S16x100000 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S1x100000 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S16x100000 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S16x80000 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x80000 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S16x80000 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S16x100000 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S1x100000 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S16x100000 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S16x512 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S512x10 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x10 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S16x10 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  shapeCasts_S1600000x1_S16x100000 : S1600000x1.ShapeCasts S16x100000
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  shapeCasts_S2000000_S1x2000000 : S2000000.ShapeCasts S1x2000000
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  shapeCasts_S100000_S1x100000 : S100000.ShapeCasts S1x100000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S16x2000000_1 : S2000000.BroadcastsInDim S16x2000000 (![1] : Fin 1 → Fin S16x2000000.rank)
  bcast_S_S16x2000000 : S_.BroadcastsInDim S16x2000000 (![] : Fin 0 → Fin S16x2000000.rank)
  inb_S16x80000_S16x80000_0_0 : ∀ a, (![0, 0] : Fin 2 → Nat) a + S16x80000.size a ≤ S16x80000.size a
  h_S16x80000 : 0 < S16x80000.numel
  shapeCasts_S16x80000_S16x80000 : S16x80000.ShapeCasts S16x80000
  broadcasts_S1x80000_S16x80000 : S1x80000.Broadcasts S16x80000
  bcast_S_S16x100000 : S_.BroadcastsInDim S16x100000 (![] : Fin 0 → Fin S16x100000.rank)
  reducesTo_S16x100000_S_d0_1 : S16x100000.ReducesTo [0, 1] S_
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S16x100000_S16x100000_0_0 : ∀ a, (![0, 0] : Fin 2 → Nat) a + S16x100000.size a ≤ S16x100000.size a
  h_S16x100000 : 0 < S16x100000.numel
  shapeCasts_S16x100000_S16x100000 : S16x100000.ShapeCasts S16x100000
  inb_S1x100000_S1x100000_0_0 : ∀ a, (![0, 0] : Fin 2 → Nat) a + S1x100000.size a ≤ S1x100000.size a
  h_S1x100000 : 0 < S1x100000.numel
  shapeCasts_S1x100000_S1x100000 : S1x100000.ShapeCasts S1x100000
  broadcasts_S1x100000_S16x100000 : S1x100000.Broadcasts S16x100000
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1x1_S512x1_0_1 : S1x1.BroadcastsInDim S512x1 (![0, 1] : Fin 2 → Fin S512x1.rank)
  reducesTo_S512x1_S512_d1 : S512x1.ReducesTo [1] S512
  bcast_S512_S16x512_1 : S512.BroadcastsInDim S16x512 (![1] : Fin 1 → Fin S16x512.rank)
  bcast_S_S16x512 : S_.BroadcastsInDim S16x512 (![] : Fin 0 → Fin S16x512.rank)
  transposes_S10x512_S512x10_1_0 : S10x512.Transposes [1, 0] S512x10
  shapeCasts_S10_S1x10 : S10.ShapeCasts S1x10
  inb_S16x512_S16x512_0_0 : ∀ a, (![0, 0] : Fin 2 → Nat) a + S16x512.size a ≤ S16x512.size a
  h_S16x512 : 0 < S16x512.numel
  shapeCasts_S16x512_S16x512 : S16x512.ShapeCasts S16x512
  bitsLt_bf16_f32 : FTy.bits .bf16 < FTy.bits .f32
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S16x10 : S1x10.Broadcasts S16x10
  inb_S16x10_S16x10_0_0 : ∀ a, (![0, 0] : Fin 2 → Nat) a + S16x10.size a ≤ S16x10.size a
  h_S16x10 : 0 < S16x10.numel
  gather_S16x100000_S2000000x1_S16x2000000_0_1_n_n_1_1_161_wf : GatherDims.WF S16x100000 S2000000x1 S16x2000000 [0] [1] [] [1] [] 1 ![16, 1]
  scatter_S16x100000_S2000000x1_S16x2000000_0_1_1_1_wf : ScatterDims.WF S16x100000 S2000000x1 S16x2000000 [0] [1] [1] 1
  gather_S16x100000_S512x1_S16x512_0_1_n_n_1_1_161_wf : GatherDims.WF S16x100000 S512x1 S16x512 [0] [1] [] [1] [] 1 ![16, 1]
  dot_S16x512_S512x10_S16x10_1_0_0_1_n_n_wf : DotDims.WF S16x512 S512x10 S16x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80000.size a ≤ S1x2000000.size a
  hwx0_0 : ∀ i : grid0.Coords, EltTy.bits .f32 = 32 ∨ (Rect.block (s := S1x2000000) S1x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80000.size a ≤ S1x2000000.size a
  hwx0_1 : ∀ i : grid0.Coords, EltTy.bits .f32 = 32 ∨ (Rect.block (s := S1x2000000) S1x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80000.size a ≤ S1x2000000.size a
  hwx0_2 : ∀ i : grid0.Coords, EltTy.bits .f32 = 32 ∨ (Rect.block (s := S1x2000000) S1x80000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x80000.size a ≤ S16x2000000.size a
  hwx1_0 : ∀ i : grid1.Coords, EltTy.bits .f32 = 32 ∨ (Rect.block (s := S16x2000000) S16x80000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x80000.size a ≤ S1x2000000.size a
  hwx1_1 : ∀ i : grid1.Coords, EltTy.bits .f32 = 32 ∨ (Rect.block (s := S1x2000000) S1x80000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x80000.size a ≤ S16x2000000.size a
  hwx1_2 : ∀ i : grid1.Coords, EltTy.bits .f32 = 32 ∨ (Rect.block (s := S16x2000000) S16x80000.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16x100000.size a ≤ S16x100000.size a
  hwx2_0 : ∀ i : grid2.Coords, EltTy.bits .f32 = 32 ∨ (Rect.block (s := S16x100000) S16x100000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x100000.size a ≤ S1x100000.size a
  hwx2_1 : ∀ i : grid2.Coords, EltTy.bits .f32 = 32 ∨ (Rect.block (s := S1x100000) S1x100000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x100000.size a ≤ S16x100000.size a
  hwx2_4 : ∀ i : grid2.Coords, EltTy.bits .f32 = 32 ∨ (Rect.block (s := S16x100000) S16x100000.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16x80000.size a ≤ S16x2000000.size a
  hwx3_0 : ∀ i : grid3.Coords, EltTy.bits .f32 = 32 ∨ (Rect.block (s := S16x2000000) S16x80000.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x80000.size a ≤ S1x2000000.size a
  hwx3_1 : ∀ i : grid3.Coords, EltTy.bits .f32 = 32 ∨ (Rect.block (s := S1x2000000) S1x80000.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16x80000.size a ≤ S16x2000000.size a
  hwx3_2 : ∀ i : grid3.Coords, EltTy.bits .f32 = 32 ∨ (Rect.block (s := S16x2000000) S16x80000.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S16x100000.size a ≤ S16x100000.size a
  hwx4_0 : ∀ i : grid4.Coords, EltTy.bits .f32 = 32 ∨ (Rect.block (s := S16x100000) S16x100000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x100000.size a ≤ S1x100000.size a
  hwx4_1 : ∀ i : grid4.Coords, EltTy.bits .f32 = 32 ∨ (Rect.block (s := S1x100000) S1x100000.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S16x100000.size a ≤ S16x100000.size a
  hwx4_4 : ∀ i : grid4.Coords, EltTy.bits .f32 = 32 ∨ (Rect.block (s := S16x100000) S16x100000.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16x80000.size a ≤ S16x2000000.size a
  hwx5_0 : ∀ i : grid5.Coords, EltTy.bits .f32 = 32 ∨ (Rect.block (s := S16x2000000) S16x80000.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x80000.size a ≤ S1x2000000.size a
  hwx5_1 : ∀ i : grid5.Coords, EltTy.bits .f32 = 32 ∨ (Rect.block (s := S1x2000000) S1x80000.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S16x80000.size a ≤ S16x2000000.size a
  hwx5_2 : ∀ i : grid5.Coords, EltTy.bits .f32 = 32 ∨ (Rect.block (s := S16x2000000) S16x80000.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S16x100000.size a ≤ S16x100000.size a
  hwx6_0 : ∀ i : grid6.Coords, EltTy.bits .f32 = 32 ∨ (Rect.block (s := S16x100000) S16x100000.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x100000.size a ≤ S1x100000.size a
  hwx6_1 : ∀ i : grid6.Coords, EltTy.bits .f32 = 32 ∨ (Rect.block (s := S1x100000) S1x100000.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S16x100000.size a ≤ S16x100000.size a
  hwx6_4 : ∀ i : grid6.Coords, EltTy.bits .f32 = 32 ∨ (Rect.block (s := S16x100000) S16x100000.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S16x80000.size a ≤ S16x2000000.size a
  hwx7_0 : ∀ i : grid7.Coords, EltTy.bits .f32 = 32 ∨ (Rect.block (s := S16x2000000) S16x80000.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x80000.size a ≤ S1x2000000.size a
  hwx7_1 : ∀ i : grid7.Coords, EltTy.bits .f32 = 32 ∨ (Rect.block (s := S1x2000000) S1x80000.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S16x80000.size a ≤ S16x2000000.size a
  hwx7_2 : ∀ i : grid7.Coords, EltTy.bits .f32 = 32 ∨ (Rect.block (s := S16x2000000) S16x80000.size (cc7_transform_2 i) (hinb7_2 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S16x100000.size a ≤ S16x100000.size a
  hwx8_0 : ∀ i : grid8.Coords, EltTy.bits .f32 = 32 ∨ (Rect.block (s := S16x100000) S16x100000.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x100000.size a ≤ S1x100000.size a
  hwx8_1 : ∀ i : grid8.Coords, EltTy.bits .f32 = 32 ∨ (Rect.block (s := S1x100000) S1x100000.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1.size a ≤ S1x1.size a
  hwx8_3 : ∀ i : grid8.Coords, EltTy.bits .f32 = 32 ∨ (Rect.block (s := S1x1) S1x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S16x100000.size a ≤ S16x100000.size a
  hwx8_4 : ∀ i : grid8.Coords, EltTy.bits .f32 = 32 ∨ (Rect.block (s := S16x100000) S16x100000.size (cc8_transform_4 i) (hinb8_4 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S16x512.size a ≤ S16x512.size a
  hwx9_0 : ∀ i : grid9.Coords, EltTy.bits .f32 = 32 ∨ (Rect.block (s := S16x512) S16x512.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S512x10.size a ≤ S512x10.size a
  hwx9_1 : ∀ i : grid9.Coords, EltTy.bits .f32 = 32 ∨ (Rect.block (s := S512x10) S512x10.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x10.size a ≤ S1x10.size a
  hwx9_2 : ∀ i : grid9.Coords, EltTy.bits .f32 = 32 ∨ (Rect.block (s := S1x10) S1x10.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S16x10.size a ≤ S16x10.size a
  hwx9_3 : ∀ i : grid9.Coords, EltTy.bits .f32 = 32 ∨ (Rect.block (s := S16x10) S16x10.size (cc9_transform_3 i) (hinb9_3 i)).WholeWords (EltTy.packing .f32)

variable [Facts₀]

def gather_S16x100000_S2000000x1_S16x2000000_0_1_n_n_1_1_161 : GatherDims S16x100000 S2000000x1 S16x2000000 where
  offsetDims := [0]
  collapsedSliceDims := [1]
  operandBatchingDims := []
  startIndicesBatchingDims := []
  startIndexMap := [1]
  indexVectorDim := 1
  sliceSizes := ![16, 1]
  wf := gather_S16x100000_S2000000x1_S16x2000000_0_1_n_n_1_1_161_wf
def scatter_S16x100000_S2000000x1_S16x2000000_0_1_1_1 : ScatterDims S16x100000 S2000000x1 S16x2000000 where
  updateWindowDims := [0]
  insertedWindowDims := [1]
  scatterDimsToOperandDims := [1]
  indexVectorDim := 1
  wf := scatter_S16x100000_S2000000x1_S16x2000000_0_1_1_1_wf
def gather_S16x100000_S512x1_S16x512_0_1_n_n_1_1_161 : GatherDims S16x100000 S512x1 S16x512 where
  offsetDims := [0]
  collapsedSliceDims := [1]
  operandBatchingDims := []
  startIndicesBatchingDims := []
  startIndexMap := [1]
  indexVectorDim := 1
  sliceSizes := ![16, 1]
  wf := gather_S16x100000_S512x1_S16x512_0_1_n_n_1_1_161_wf
def dot_S16x512_S512x10_S16x10_1_0_0_1_n_n : DotDims S16x512 S512x10 S16x10 where
  lhsContracting := [1]
  rhsContracting := [0]
  lhsNonContracting := [0]
  rhsNonContracting := [1]
  lhsBatch := []
  rhsBatch := []
  wf := dot_S16x512_S512x10_S16x10_1_0_0_1_n_n_wf

abbrev win0_0 : Pipeline.Window sig grid0 :=
  Pipeline.Window.ofSpec (Memref.whole main_v5) S1x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x80000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S16x80000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x80000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S16x80000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S16x100000.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x100000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S16x100000.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v25) S16x80000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S1x80000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S16x80000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v34) S16x100000.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v9) S1x100000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v39) S16x100000.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v40) S16x80000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S1x80000.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v41) S16x80000.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v49) S16x100000.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v9) S1x100000.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v51) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v53) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v54) S16x100000.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v55) S16x80000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v7) S1x80000.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v56) S16x80000.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v64) S16x100000.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v9) S1x100000.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v66) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v68) S1x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v69) S16x100000.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v70) S16x512.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v71) S512x10.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v72) S1x10.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v73) S16x10.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S1600000x1 : Shape := ⟨2, ![1600000, 1]⟩
abbrev S2000000 : Shape := ⟨1, ![2000000]⟩
abbrev S100000 : Shape := ⟨1, ![100000]⟩
abbrev S10x512 : Shape := ⟨2, ![10, 512]⟩
abbrev S10 : Shape := ⟨1, ![10]⟩
abbrev S2x2000000 : Shape := ⟨2, ![2, 2000000]⟩
abbrev S512 : Shape := ⟨1, ![512]⟩
abbrev S16x100000 : Shape := ⟨2, ![16, 100000]⟩
abbrev S1x2000000 : Shape := ⟨2, ![1, 2000000]⟩
abbrev S_ : Shape := ⟨0, ![]⟩
abbrev S2000000x1 : Shape := ⟨2, ![2000000, 1]⟩
abbrev S16x2000000 : Shape := ⟨2, ![16, 2000000]⟩
abbrev S1x100000 : Shape := ⟨2, ![1, 100000]⟩
abbrev S512x1 : Shape := ⟨2, ![512, 1]⟩
abbrev S16x512 : Shape := ⟨2, ![16, 512]⟩
abbrev S512x10 : Shape := ⟨2, ![512, 10]⟩
abbrev S16x10 : Shape := ⟨2, ![16, 10]⟩
abbrev S1x10 : Shape := ⟨2, ![1, 10]⟩

abbrev nBuf : Space → Nat
  | .hbm => 202
  | .vmem => 0
  | .smem => 0
  | _ => 0

abbrev hbmTy0_0 (i : Nat) : BufTy := match i % 128 with
  | 0 => ⟨S1600000x1, .f32⟩
  | 1 => ⟨S2000000, .f32⟩
  | 2 => ⟨S2000000, .f32⟩
  | 3 => ⟨S100000, .f32⟩
  | 4 => ⟨S10x512, .f32⟩
  | 5 => ⟨S10, .f32⟩
  | 6 => ⟨S2x2000000, .i32⟩
  | 7 => ⟨S512, .i32⟩
  | 8 => ⟨S16x100000, .f32⟩
  | 9 => ⟨S1x2000000, .i32⟩
  | 10 => ⟨S2000000, .i32⟩
  | 11 => ⟨S1x2000000, .i32⟩
  | 12 => ⟨S2000000, .i32⟩
  | 13 => ⟨S2000000, .f32⟩
  | 14 => ⟨S2000000, .f32⟩
  | 15 => ⟨S100000, .f32⟩
  | 16 => ⟨S_, .i32⟩
  | 17 => ⟨S2000000, .i32⟩
  | 18 => ⟨S2000000, .i1⟩
  | 19 => ⟨S_, .i32⟩
  | 20 => ⟨S2000000, .i32⟩
  | 21 => ⟨S2000000, .i32⟩
  | 22 => ⟨S2000000, .i32⟩
  | 23 => ⟨S2000000x1, .i32⟩
  | 24 => ⟨S16x2000000, .f32⟩
  | 25 => ⟨S1x2000000, .f32⟩
  | 26 => ⟨S16x2000000, .f32⟩
  | 27 => ⟨S16x2000000, .f32⟩
  | 28 => ⟨S_, .f32⟩
  | 29 => ⟨S16x100000, .f32⟩
  | 30 => ⟨S_, .i32⟩
  | 31 => ⟨S2000000, .i32⟩
  | 32 => ⟨S2000000, .i1⟩
  | 33 => ⟨S_, .i32⟩
  | 34 => ⟨S2000000, .i32⟩
  | 35 => ⟨S2000000, .i32⟩
  | 36 => ⟨S2000000, .i32⟩
  | 37 => ⟨S2000000x1, .i32⟩
  | 38 => ⟨S16x100000, .f32⟩
  | 39 => ⟨S_, .f32⟩
  | 40 => ⟨S_, .f32⟩
  | 41 => ⟨S_, .f32⟩
  | 42 => ⟨S_, .f32⟩
  | 43 => ⟨S16x100000, .f32⟩
  | 44 => ⟨S16x100000, .f32⟩
  | 45 => ⟨S_, .f32⟩
  | 46 => ⟨S16x100000, .f32⟩
  | 47 => ⟨S16x100000, .f32⟩
  | 48 => ⟨S1x100000, .f32⟩
  | 49 => ⟨S16x100000, .f32⟩
  | 50 => ⟨S16x100000, .f32⟩
  | 51 => ⟨S16x100000, .f32⟩
  | 52 => ⟨S16x100000, .f32⟩
  | 53 => ⟨S_, .f32⟩
  | 54 => ⟨S16x100000, .f32⟩
  | 55 => ⟨S16x100000, .f32⟩
  | 56 => ⟨S_, .f32⟩
  | 57 => ⟨S16x100000, .f32⟩
  | 58 => ⟨S16x100000, .f32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S16x2000000, .f32⟩
  | 68 => ⟨S1x2000000, .f32⟩
  | 69 => ⟨S16x2000000, .f32⟩
  | 70 => ⟨S16x2000000, .f32⟩
  | 71 => ⟨S_, .f32⟩
  | 72 => ⟨S16x100000, .f32⟩
  | 73 => ⟨S_, .i32⟩
  | 74 => ⟨S2000000, .i32⟩
  | 75 => ⟨S2000000, .i1⟩
  | 76 => ⟨S_, .i32⟩
  | 77 => ⟨S2000000, .i32⟩
  | 78 => ⟨S2000000, .i32⟩
  | 79 => ⟨S2000000, .i32⟩
  | 80 => ⟨S2000000x1, .i32⟩
  | 81 => ⟨S16x100000, .f32⟩
  | 82 => ⟨S_, .f32⟩
  | 83 => ⟨S_, .f32⟩
  | 84 => ⟨S_, .f32⟩
  | 85 => ⟨S_, .f32⟩
  | 86 => ⟨S16x100000, .f32⟩
  | 87 => ⟨S16x100000, .f32⟩
  | 88 => ⟨S_, .f32⟩
  | 89 => ⟨S16x100000, .f32⟩
  | 90 => ⟨S16x100000, .f32⟩
  | 91 => ⟨S1x100000, .f32⟩
  | 92 => ⟨S16x100000, .f32⟩
  | 93 => ⟨S16x100000, .f32⟩
  | 94 => ⟨S16x100000, .f32⟩
  | 95 => ⟨S16x100000, .f32⟩
  | 96 => ⟨S_, .f32⟩
  | 97 => ⟨S16x100000, .f32⟩
  | 98 => ⟨S16x100000, .f32⟩
  | 99 => ⟨S_, .f32⟩
  | 100 => ⟨S16x100000, .f32⟩
  | 101 => ⟨S16x100000, .f32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S16x2000000, .f32⟩
  | 111 => ⟨S1x2000000, .f32⟩
  | 112 => ⟨S16x2000000, .f32⟩
  | 113 => ⟨S16x2000000, .f32⟩
  | 114 => ⟨S_, .f32⟩
  | 115 => ⟨S16x100000, .f32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S2000000x1, .i32⟩
  | 124 => ⟨S16x100000, .f32⟩
  | 125 => ⟨S_, .f32⟩
  | 126 => ⟨S_, .f32⟩
  | 127 => ⟨S_, .f32⟩
  | _ => ⟨S1600000x1, .f32⟩

abbrev hbmTy0_1 (i : Nat) : BufTy := match i % 128 with
  | 0 => ⟨S_, .f32⟩
  | 1 => ⟨S16x100000, .f32⟩
  | 2 => ⟨S16x100000, .f32⟩
  | 3 => ⟨S_, .f32⟩
  | 4 => ⟨S16x100000, .f32⟩
  | 5 => ⟨S16x100000, .f32⟩
  | 6 => ⟨S1x100000, .f32⟩
  | 7 => ⟨S16x100000, .f32⟩
  | 8 => ⟨S16x100000, .f32⟩
  | 9 => ⟨S16x100000, .f32⟩
  | 10 => ⟨S16x100000, .f32⟩
  | 11 => ⟨S_, .f32⟩
  | 12 => ⟨S16x100000, .f32⟩
  | 13 => ⟨S16x100000, .f32⟩
  | 14 => ⟨S_, .f32⟩
  | 15 => ⟨S16x100000, .f32⟩
  | 16 => ⟨S16x100000, .f32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S16x2000000, .f32⟩
  | 26 => ⟨S1x2000000, .f32⟩
  | 27 => ⟨S16x2000000, .f32⟩
  | 28 => ⟨S16x2000000, .f32⟩
  | 29 => ⟨S_, .f32⟩
  | 30 => ⟨S16x100000, .f32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S2000000x1, .i32⟩
  | 39 => ⟨S16x100000, .f32⟩
  | 40 => ⟨S_, .f32⟩
  | 41 => ⟨S_, .f32⟩
  | 42 => ⟨S_, .f32⟩
  | 43 => ⟨S_, .f32⟩
  | 44 => ⟨S16x100000, .f32⟩
  | 45 => ⟨S16x100000, .f32⟩
  | 46 => ⟨S_, .f32⟩
  | 47 => ⟨S16x100000, .f32⟩
  | 48 => ⟨S16x100000, .f32⟩
  | 49 => ⟨S1x100000, .f32⟩
  | 50 => ⟨S16x100000, .f32⟩
  | 51 => ⟨S16x100000, .f32⟩
  | 52 => ⟨S16x100000, .f32⟩
  | 53 => ⟨S16x100000, .f32⟩
  | 54 => ⟨S_, .f32⟩
  | 55 => ⟨S16x100000, .f32⟩
  | 56 => ⟨S16x100000, .f32⟩
  | 57 => ⟨S_, .f32⟩
  | 58 => ⟨S16x100000, .f32⟩
  | 59 => ⟨S16x100000, .f32⟩
  | 60 => ⟨S_, .i32⟩
  | 61 => ⟨S512, .i32⟩
  | 62 => ⟨S512, .i1⟩
  | 63 => ⟨S_, .i32⟩
  | 64 => ⟨S512, .i32⟩
  | 65 => ⟨S512, .i32⟩
  | 66 => ⟨S512, .i32⟩
  | 67 => ⟨S512x1, .i32⟩
  | 68 => ⟨S16x512, .f32⟩
  | 69 => ⟨S512x10, .f32⟩
  | 70 => ⟨S16x10, .f32⟩
  | 71 => ⟨S1x10, .f32⟩
  | 72 => ⟨S16x10, .f32⟩
  | 73 => ⟨S16x10, .f32⟩
  | _ => ⟨S1600000x1, .f32⟩

abbrev hbmTy (i : Nat) : BufTy := match i / 128 with
  | 0 => hbmTy0_0 i
  | 1 => hbmTy0_1 i
  | _ => ⟨S1600000x1, .f32⟩

abbrev bufTy : (tb : Table) → Fin (tcTables nBuf tb) → BufTy
  | .hbm, ⟨i, _⟩ => hbmTy i
  | _, _ => ⟨S1600000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_c_16 : Ref sig .tc := ⟨.hbm, 102, rfl⟩
abbrev main_v76 : Ref sig .tc := ⟨.hbm, 103, rfl⟩
abbrev main_v77 : Ref sig .tc := ⟨.hbm, 104, rfl⟩
abbrev main_c_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_c_19 : Ref sig .tc := ⟨.hbm, 116, rfl⟩
abbrev main_v87 : Ref sig .tc := ⟨.hbm, 117, rfl⟩
abbrev main_v88 : Ref sig .tc := ⟨.hbm, 118, rfl⟩
abbrev main_c_20 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_21 : Ref sig .tc := ⟨.hbm, 125, rfl⟩
abbrev main_v94 : Ref sig .tc := ⟨.hbm, 126, rfl⟩
abbrev main_cst_22 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_23 : Ref sig .tc := ⟨.hbm, 139, rfl⟩
abbrev main_v106 : Ref sig .tc := ⟨.hbm, 140, rfl⟩
abbrev main_v107 : Ref sig .tc := ⟨.hbm, 141, rfl⟩
abbrev main_cst_24 : Ref sig .tc := ⟨.hbm, 142, rfl⟩
abbrev main_v108 : Ref sig .tc := ⟨.hbm, 143, rfl⟩
abbrev main_v109 : Ref sig .tc := ⟨.hbm, 144, rfl⟩
abbrev main_c_25 : Ref sig .tc := ⟨.hbm, 145, rfl⟩
abbrev main_v110 : Ref sig .tc := ⟨.hbm, 146, rfl⟩
abbrev main_v111 : Ref sig .tc := ⟨.hbm, 147, rfl⟩
abbrev main_c_26 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_27 : Ref sig .tc := ⟨.hbm, 157, rfl⟩
abbrev main_v120 : Ref sig .tc := ⟨.hbm, 158, rfl⟩
abbrev main_c_28 : Ref sig .tc := ⟨.hbm, 159, rfl⟩
abbrev main_v121 : Ref sig .tc := ⟨.hbm, 160, rfl⟩
abbrev main_v122 : Ref sig .tc := ⟨.hbm, 161, rfl⟩
abbrev main_c_29 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_30 : Ref sig .tc := ⟨.hbm, 168, rfl⟩
abbrev main_v128 : Ref sig .tc := ⟨.hbm, 169, rfl⟩
abbrev main_cst_31 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_32 : Ref sig .tc := ⟨.hbm, 182, rfl⟩
abbrev main_v140 : Ref sig .tc := ⟨.hbm, 183, rfl⟩
abbrev main_v141 : Ref sig .tc := ⟨.hbm, 184, rfl⟩
abbrev main_cst_33 : Ref sig .tc := ⟨.hbm, 185, rfl⟩
abbrev main_v142 : Ref sig .tc := ⟨.hbm, 186, rfl⟩
abbrev main_v143 : Ref sig .tc := ⟨.hbm, 187, rfl⟩
abbrev main_c_34 : Ref sig .tc := ⟨.hbm, 188, rfl⟩
abbrev main_v144 : Ref sig .tc := ⟨.hbm, 189, rfl⟩
abbrev main_v145 : Ref sig .tc := ⟨.hbm, 190, rfl⟩
abbrev main_c_35 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩

abbrev nD : Nat := 1
abbrev τ : Topo := Topo.v7x

variable {F : FTy → Type} [FloatOps F]

class Facts₀ : Prop where
  shapeCasts_S1600000x1_S16x100000 : S1600000x1.ShapeCasts S16x100000
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000_S1x2000000_1 : S2000000.BroadcastsInDim S1x2000000 (![1] : Fin 1 → Fin S1x2000000.rank)
  bcast_S1x2000000_S16x2000000_0_1 : S1x2000000.BroadcastsInDim S16x2000000 (![0, 1] : Fin 2 → Fin S16x2000000.rank)
  bcast_S_S16x100000 : S_.BroadcastsInDim S16x100000 (![] : Fin 0 → Fin S16x100000.rank)
  reducesTo_S16x100000_S_d0_1 : S16x100000.ReducesTo [0, 1] S_
  h_S_ : 0 < S_.numel
  bcast_S100000_S1x100000_1 : S100000.BroadcastsInDim S1x100000 (![1] : Fin 1 → Fin S1x100000.rank)
  bcast_S1x100000_S16x100000_0_1 : S1x100000.BroadcastsInDim S16x100000 (![0, 1] : Fin 2 → Fin S16x100000.rank)
  bcast_S_S512 : S_.BroadcastsInDim S512 (![] : Fin 0 → Fin S512.rank)
  bcast_S512_S512x1_0 : S512.BroadcastsInDim S512x1 (![0] : Fin 1 → Fin S512x1.rank)
  transposes_S10x512_S512x10_1_0 : S10x512.Transposes [1, 0] S512x10
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  gather_S16x100000_S2000000x1_S16x2000000_0_1_n_n_1_1_161_wf : GatherDims.WF S16x100000 S2000000x1 S16x2000000 [0] [1] [] [1] [] 1 ![16, 1]
  scatter_S16x100000_S2000000x1_S16x2000000_0_1_1_1_wf : ScatterDims.WF S16x100000 S2000000x1 S16x2000000 [0] [1] [1] 1
  gather_S16x100000_S512x1_S16x512_0_1_n_n_1_1_161_wf : GatherDims.WF S16x100000 S512x1 S16x512 [0] [1] [] [1] [] 1 ![16, 1]
  dot_S16x512_S512x10_S16x10_1_0_0_1_n_n_wf : DotDims.WF S16x512 S512x10 S16x10 [1] [0] [0] [1] [] []

variable [Facts₀]

def gather_S16x100000_S2000000x1_S16x2000000_0_1_n_n_1_1_161 : GatherDims S16x100000 S2000000x1 S16x2000000 where
  offsetDims := [0]
  collapsedSliceDims := [1]
  operandBatchingDims := []
  startIndicesBatchingDims := []
  startIndexMap := [1]
  indexVectorDim := 1
  sliceSizes := ![16, 1]
  wf := gather_S16x100000_S2000000x1_S16x2000000_0_1_n_n_1_1_161_wf
def scatter_S16x100000_S2000000x1_S16x2000000_0_1_1_1 : ScatterDims S16x100000 S2000000x1 S16x2000000 where
  updateWindowDims := [0]
  insertedWindowDims := [1]
  scatterDimsToOperandDims := [1]
  indexVectorDim := 1
  wf := scatter_S16x100000_S2000000x1_S16x2000000_0_1_1_1_wf
def gather_S16x100000_S512x1_S16x512_0_1_n_n_1_1_161 : GatherDims S16x100000 S512x1 S16x512 where
  offsetDims := [0]
  collapsedSliceDims := [1]
  operandBatchingDims := []
  startIndicesBatchingDims := []
  startIndexMap := [1]
  indexVectorDim := 1
  sliceSizes := ![16, 1]
  wf := gather_S16x100000_S512x1_S16x512_0_1_n_n_1_1_161_wf
def dot_S16x512_S512x10_S16x10_1_0_0_1_n_n : DotDims S16x512 S512x10 S16x10 where
  lhsContracting := [1]
  rhsContracting := [0]
  lhsNonContracting := [0]
  rhsNonContracting := [1]
  lhsBatch := []
  rhsBatch := []
  wf := dot_S16x512_S512x10_S16x10_1_0_0_1_n_n_wf

class Facts : Prop extends Facts₀ where

variable [Facts]
-- ==== Proof.Stages.lean ====
/-
  THE STAGES OF THE KERNEL'S PROGRAM, each named once as a function of the arrays it reads.

  The program updates a [16 × 100000] array of activations four times and then takes a small matrix product:
    * the weight row   w = ew · tanh(mult), a [1 × 2000000] row (a pallas_call over 25 column blocks);
    * the threshold row  |thr| as a [1 × 100000] row;
    * `src`, `dst`: rows 0 and 1 of the [2 × 2000000] integer array;
    * one PASS from activations `xb`:  gathered = take(xb, src) (columns of `xb`, out-of-range columns filled),
      msg = gathered · w (a pallas_call), aggr = scatter-add of msg's columns into the columns `dst` of zeros,
      amin / amax its least and greatest entries as [1 × 1] arrays, and the new activations
      1 / (1 + exp(0 − ((aggr − amin)/(amax − amin) − |thr|)))   (a pallas_call over the whole array);
    * at the end  take(xb, di) · fc_wᵀ + fc_b  (a pallas_call over whole arrays).
  Every definition below is the printed operations' own term, so that reading a buffer back through a stretch of
  host operations lands on it by unfolding, and a pallas_call's array on `gmArr` / the body's payload.
-/
import proofs.«410575_j292057776280_1_alg».proof.Proof.Gen.KernelIdeal
import proofs.«410575_j292057776280_1_alg».proof.Proof.Gen.KernelIdeal.Skeleton
import Idealize.ShloMosaic.Lib.ValueIdx

noncomputable section

namespace Cert.KernelIdeal.Stage

open Idealize.ShloMosaic Idealize.ShloMosaic.TcCoe Cert.KernelIdeal
open Cert.KernelIdeal.Facts₀ Cert.KernelIdeal.Facts

variable {F : FTy → Type} [FloatOps F]

/-- A flat float array of 2000000 entries as a [1 × 2000000] row. -/
def row2M (a : FVec F S2000000 .f32) : FVec F S1x2000000 .f32 := shapeCast S1x2000000 a shapeCasts_S2000000_S1x2000000

/-- The weight row `ew · tanh(mult)` from the two rows, entry by entry. -/
def wRow (ew mult : FVec F S1x2000000 .f32) : FVec F S1x2000000 .f32 := fun i => FloatOps.mulf (ew i) (FloatOps.tanh (mult i))

/-- The threshold row `|thr|` as a [1 × 100000] row. -/
def thrRow (t : FVec F S100000 .f32) : FVec F S1x100000 .f32 := shapeCast S1x100000 (Host.absf t) shapeCasts_S100000_S1x100000

/-- The activations as launched: the [1600000 × 1] column as a [16 × 100000] array. -/
def xb0 (x : FVec F S1600000x1 .f32) : FVec F S16x100000 .f32 := shapeCast S16x100000 x shapeCasts_S1600000x1_S16x100000

/-- Row 0 of the index array, flat. -/
def srcOf (ei : IVec S2x2000000 32) : IVec S2000000 32 :=
  shapeCast S2000000 (extractStridedSlice S1x2000000 ![0, 0] ei slices_S2x2000000_S1x2000000_0_0) shapeCasts_S1x2000000_S2000000
/-- Row 1 of the index array, flat. -/
def dstOf (ei : IVec S2x2000000 32) : IVec S2000000 32 :=
  shapeCast S2000000 (extractStridedSlice S1x2000000 ![1, 0] ei slices_S2x2000000_S1x2000000_1_0) shapeCasts_S1x2000000_S2000000

/-- An index wrapped the NumPy way (`idx + 100000` where negative), flat. -/
def wrap (idx : IVec S2000000 32) : IVec S2000000 32 :=
  select (cmpi .slt idx (broadcastInDim S2000000 ![] bcast_S_S2000000 (constantI S_ 32 0#32)))
    (addi idx (broadcastInDim S2000000 ![] bcast_S_S2000000 (constantI S_ 32 100000#32))) idx
/-- The wrapped indices as the [2000000 × 1] column of start indices a gather or scatter reads. -/
def wrapCol (idx : IVec S2000000 32) : IVec S2000000x1 32 := broadcastInDim S2000000x1 ![0] bcast_S2000000_S2000000x1_0 (wrap idx)

/-- Which columns of a take are in range: the reduction by `and` of `0 ≤ col ≤ 99999` along the column's second axis. -/
def inRange (col : IVec S2000000x1 32) : IVec S2000000 1 :=
  Host.reduce IntOp.andi
    (andi (cmpi .sge col (broadcastInDim S2000000x1 ![] bcast_S_S2000000x1 (constantI S_ 32 0#32)))
      (cmpi .sle col (broadcastInDim S2000000x1 ![0, 1] bcast_S1x1_S2000000x1_0_1 (broadcastInDim S1x1 ![1] bcast_S1_S1x1_1 (constantI S1 32 99999#32)))))
    (constantI S_ 1 1#1) reducesTo_S2000000x1_S2000000_d1 h_S_

/-- The plain gather of the columns `col` of `xb`. -/
def gatherCols (xb : FVec F S16x100000 .f32) (col : IVec S2000000x1 32) : FVec F S16x2000000 .f32 :=
  Host.gather gather_S16x100000_S2000000x1_S16x2000000_0_1_n_n_1_1_161 xb col

/-- `take(xb, idx)` with out-of-range columns filled: the gather where the column is in range, the fill word elsewhere. -/
def takeFill (xb : FVec F S16x100000 .f32) (idx : IVec S2000000 32) : FVec F S16x2000000 .f32 :=
  select (broadcastInDim S16x2000000 ![1] bcast_S2000000_S16x2000000_1 (inRange (wrapCol idx)))
    (gatherCols xb (wrapCol idx))
    (broadcastInDim S16x2000000 ![] bcast_S_S16x2000000 (constant S_ .f32 0x7FC00000#32))

/-- The message array: the gathered activations times the weight under each column. -/
def gmArr (gx : FVec F S16x2000000 .f32) (w : FVec F S1x2000000 .f32) : FVec F S16x2000000 .f32 :=
  fun i => FloatOps.mulf (gx i) (w (ValueIdx.ix2 (0 : Fin 1) (i 1 : Fin 2000000)))

/-- The aggregate: the messages' columns added into the columns `dst` (wrapped) of a zero array. -/
def aggrOf (msg : FVec F S16x2000000 .f32) (dst : IVec S2000000 32) : FVec F S16x100000 .f32 :=
  Host.scatterAdd scatter_S16x100000_S2000000x1_S16x2000000_0_1_1_1
    (broadcastInDim S16x100000 ![] bcast_S_S16x100000 (constant S_ .f32 0x00000000#32)) (wrapCol dst) msg

/-- The aggregate's least entry, a scalar. -/
def minS (a : FVec F S16x100000 .f32) : FVec F S_ .f32 :=
  Host.reduce FloatOps.minimumf a (constant S_ .f32 0x7F800000#32) reducesTo_S16x100000_S_d0_1 h_S_
/-- The aggregate's greatest entry, a scalar. -/
def maxS (a : FVec F S16x100000 .f32) : FVec F S_ .f32 :=
  Host.reduce FloatOps.maximumf a (constant S_ .f32 0xFF800000#32) reducesTo_S16x100000_S_d0_1 h_S_
/-- A scalar as a [1 × 1] array. -/
def as11 (s : FVec F S_ .f32) : FVec F S1x1 .f32 := shapeCast S1x1 s shapeCasts_S_S1x1

/-- ONE PASS: the new activations from the old. -/
def pass (w : FVec F S1x2000000 .f32) (thr : FVec F S1x100000 .f32) (src dst : IVec S2000000 32)
    (xb : FVec F S16x100000 .f32) : FVec F S16x100000 .f32 :=
  Gen.k2_pay1 (as11 (minS (aggrOf (gmArr (takeFill xb src) w) dst))) (as11 (maxS (aggrOf (gmArr (takeFill xb src) w) dst)))
    (aggrOf (gmArr (takeFill xb src) w) dst) thr

/-- The 512 decision indices wrapped the NumPy way, flat. -/
def wrap512 (idx : IVec S512 32) : IVec S512 32 :=
  select (cmpi .slt idx (broadcastInDim S512 ![] bcast_S_S512 (constantI S_ 32 0#32)))
    (addi idx (broadcastInDim S512 ![] bcast_S_S512 (constantI S_ 32 100000#32))) idx
/-- They as the [512 × 1] column of start indices. -/
def wrapCol512 (idx : IVec S512 32) : IVec S512x1 32 := broadcastInDim S512x1 ![0] bcast_S512_S512x1_0 (wrap512 idx)
/-- Which of the 512 columns are in range. -/
def inRange512 (col : IVec S512x1 32) : IVec S512 1 :=
  Host.reduce IntOp.andi
    (andi (cmpi .sge col (broadcastInDim S512x1 ![] bcast_S_S512x1 (constantI S_ 32 0#32)))
      (cmpi .sle col (broadcastInDim S512x1 ![0, 1] bcast_S1x1_S512x1_0_1 (broadcastInDim S1x1 ![1] bcast_S1_S1x1_1 (constantI S1 32 99999#32)))))
    (constantI S_ 1 1#1) reducesTo_S512x1_S512_d1 h_S_
/-- The plain gather of 512 columns of `xb`. -/
def gatherCols512 (xb : FVec F S16x100000 .f32) (col : IVec S512x1 32) : FVec F S16x512 .f32 :=
  Host.gather gather_S16x100000_S512x1_S16x512_0_1_n_n_1_1_161 xb col
/-- `take(xb, di)` over the 512 decision columns, out-of-range columns filled. -/
def takeFill512 (xb : FVec F S16x100000 .f32) (idx : IVec S512 32) : FVec F S16x512 .f32 :=
  select (broadcastInDim S16x512 ![1] bcast_S512_S16x512_1 (inRange512 (wrapCol512 idx)))
    (gatherCols512 xb (wrapCol512 idx))
    (broadcastInDim S16x512 ![] bcast_S_S16x512 (constant S_ .f32 0x7FC00000#32))

/-- The decision layer's weights transposed to [512 × 10]. -/
def fcwT (w : FVec F S10x512 .f32) : FVec F S512x10 .f32 := transpose S512x10 [1, 0] w transposes_S10x512_S512x10_1_0
/-- The bias as a [1 × 10] row. -/
def fcbRow (b : FVec F S10 .f32) : FVec F S1x10 .f32 := shapeCast S1x10 b shapeCasts_S10_S1x10

/-- THE WHOLE PROGRAM's result as one function of its eight argument arrays: four passes from the launched
    activations, then the decision layer over the 512 taken columns. -/
def finalK (x : FVec F S1600000x1 .f32) (ew mult : FVec F S2000000 .f32) (t : FVec F S100000 .f32)
    (fcw : FVec F S10x512 .f32) (fcb : FVec F S10 .f32) (ei : IVec S2x2000000 32) (di : IVec S512 32) : FVec F S16x10 .f32 :=
  Gen.k9_pay1
    (takeFill512
      (pass (wRow (row2M ew) (row2M mult)) (thrRow t) (srcOf ei) (dstOf ei)
        (pass (wRow (row2M ew) (row2M mult)) (thrRow t) (srcOf ei) (dstOf ei)
          (pass (wRow (row2M ew) (row2M mult)) (thrRow t) (srcOf ei) (dstOf ei)
            (pass (wRow (row2M ew) (row2M mult)) (thrRow t) (srcOf ei) (dstOf ei) (xb0 x))))) di)
    (fcwT fcw) (fcbRow fcb)

end Cert.KernelIdeal.Stage

end
-- ==== Proof.RegEw.lean ====
/-
  The weight row's pallas_call (25 column blocks of a [1 × 2000000] row): after it the output array holds
  `ew · tanh(mult)` entry by entry, whatever the buffers held when the region was entered.
-/
import proofs.«410575_j292057776280_1_alg».proof.Proof.Gen.KernelIdeal.Frame
import proofs.«410575_j292057776280_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Stage

variable {F : FTy → Type} [FloatOps F]
variable (V : (c : Dev nD) → (b : Ref sig .tc) → Buf (Elt F) ((c : Thread nD τ).loc b))

/-- The body's one store starts at the block's origin, however the zeros are spelt. -/
theorem hz0 : (![0, 0] : Fin 2 → Nat) = fun _ => 0 :=
  funext fun a => match a with | ⟨0, _⟩ => rfl | ⟨1, _⟩ => rfl

/-- The body's payload is the product of the first block with the hyperbolic tangent of the second, entry by entry. -/
theorem pay0_eq (x0 x1 : Vec F S1x80000 .f32) : k0_pay1 x0 x1 = mulf x0 (tanh x1) := by
  unfold k0_pay1
  rw [shapeCast_self, shapeCast_self]

/-- The index maps over the 25 points: both input blocks sit where the output block sits; the output block at
    point `t` is in row block 0 and column block `t`. -/
theorem idx_facts0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = 0 ∧ win0_2.index t (1 : Fin 2) ≤ 24 :=
  (by decide +kernel : ∀ t : Fin grid0.N, _)

/-- Every one of the 25 column blocks is some point's. -/
theorem idx_onto0 : ∀ q : Fin 25, ∃ t : Fin cfg0.N, win0_2.index t = ![0, q.val] :=
  (by decide +kernel : ∀ q : Fin 25, ∃ t : Fin grid0.N, win0_2.index t = ![0, q.val])

/-- WHAT POINT `t` WRITES BACK is block `t` of `wRow` of the two input rows as the region finds them. -/
theorem flushed0_eq (c : Dev nD) (t : Fin cfg0.N) :
    (dat0 V c).flushed 2 t = ((cfg0.win 2).blk t).view.read (Elt F) (wRow (V c main_v5) (V c main_v6)) := by
  show (cfg0.win 2).cut (grid0.coords t) ((dat0 V c).after 2 t) = _
  rw [after0_2]
  unfold out0_2
  rw [View.canon_unit_zero hz0]
  simp only [View.ld_unit_zero (S := S1x80000) hz0]
  rw [pay0_eq]
  obtain ⟨e0, e1, e2, e3, e4, e5⟩ := idx_facts0 t
  funext j
  show FloatOps.mulf (V c main_v5 (((cfg0.win 0).blk t).view.emb j)) (FloatOps.tanh (V c main_v6 (((cfg0.win 1).blk t).view.emb j)))
     = FloatOps.mulf (V c main_v5 (((cfg0.win 2).blk t).view.emb j)) (FloatOps.tanh (V c main_v6 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 1 + 1 * (j 0).val = win0_2.index t (0 : Fin 2) * 1 + 1 * (j 0).val; omega
    | ⟨1, _⟩ => show win0_0.index t (1 : Fin 2) * 80000 + 1 * (j 1).val = win0_2.index t (1 : Fin 2) * 80000 + 1 * (j 1).val; omega
  have h1 : ((cfg0.win 1).blk t).view.emb j = ((cfg0.win 2).blk t).view.emb j := by
    funext a; apply Fin.ext
    match a with
    | ⟨0, _⟩ => show win0_1.index t (0 : Fin 2) * 1 + 1 * (j 0).val = win0_2.index t (0 : Fin 2) * 1 + 1 * (j 0).val; omega
    | ⟨1, _⟩ => show win0_1.index t (1 : Fin 2) * 80000 + 1 * (j 1).val = win0_2.index t (1 : Fin 2) * 80000 + 1 * (j 1).val; omega
  rw [h0, h1]

/-- An index of the array is in point `t`'s block iff each coordinate is in the block's range on its axis. -/
theorem mem_blk0 (t : Fin cfg0.N) (i : S1x2000000.Idx) :
    i ∈ ((cfg0.win 2).blk t).view.set ↔ ∀ a : Fin 2, win0_2.index t a * S1x80000.size a ≤ (i a).val ∧ (i a).val < win0_2.index t a * S1x80000.size a + S1x80000.size a := by
  show i ∈ ((View.whole main_v7).slice (win0_2.rect t)).set ↔ _
  rw [View.set_slice_whole, Rect.mem_set_unit]
  exact Iff.rfl

/-- The 25 blocks of 80000 columns cover the row: column `q` is in the block of point `q / 80000`. -/
theorem cover0 (i : S1x2000000.Idx) : ∃ t : Fin cfg0.N, (cfg0.win 2).flush t = true ∧ i ∈ ((cfg0.win 2).blk t).view.set := by
  have hi0 : (i 0).val < 1 := (i 0).isLt
  have hi1 : (i 1).val < 2000000 := (i 1).isLt
  obtain ⟨t, ht⟩ := idx_onto0 ⟨(i 1).val / 80000, by omega⟩
  have q0 : win0_2.index t (0 : Fin 2) = 0 := congrFun ht 0
  have q1 : win0_2.index t (1 : Fin 2) = (i 1).val / 80000 := congrFun ht 1
  refine ⟨t, flush0_2 t, ?_⟩
  rw [mem_blk0]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 80000 ≤ (i 1).val ∧ (i 1).val < win0_2.index t (1 : Fin 2) * 80000 + 80000; omega

/-- After the region the weight array is `wRow` of the two input rows as the region found them. -/
theorem arr0 (c : Dev nD) : (dat0 (F := F) V c).arrAt 2 cfg0.N = wRow (V c main_v5) (V c main_v6) :=
  (dat0 V c).arrAt_eq_of_cover 2 (wRow (V c main_v5) (V c main_v6)) (fun t _ => flushed0_eq V c t) cover0

end Cert.KernelIdeal.Gen

end
-- ==== Proof.ChainHead.lean ====
/-
  THE FOLD'S FIRST TWO BOUNDARIES: what the buffers hold once the first stretch of host operations (the reshapes and the
  two slices of the index array) and the weight row's pallas_call have run, as functions of the launch memory.
-/
import proofs.«410575_j292057776280_1_alg».proof.Proof.Gen.KernelIdeal.Frame
import proofs.«410575_j292057776280_1_alg».proof.Proof.Stages
import proofs.«410575_j292057776280_1_alg».proof.Proof.RegEw
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo
open Cert.KernelIdeal.Stage

variable {F : FTy → Type} [FloatOps F]
variable (m : (ℓ : Loc nD τ sig) → Buf (Elt F) ℓ) (ρ : Dev nD → PrngReg)

/-- No operation of the stretch has this reference as its result. -/
local macro "not_written" "[" ops:ident "]" : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The first input row of the weight row's pallas_call: the first flat argument as a row. -/
theorem V1_v5 (c : Dev nD) : V1 m ρ c main_v5 = row2M (m ((c : Thread nD τ).loc main_arg1)) := by
  show StableHlo.after hostOps0 (W0 m ρ c) (Proc.devRef .tc main_v5) = _
  after_results; rfl
/-- The second input row: the second flat argument as a row. -/
theorem V1_v6 (c : Dev nD) : V1 m ρ c main_v6 = row2M (m ((c : Thread nD τ).loc main_arg2)) := by
  show StableHlo.after hostOps0 (W0 m ρ c) (Proc.devRef .tc main_v6) = _
  after_results; rfl

/-- The weight row after its pallas_call. -/
theorem W2_v7 (c : Dev nD) : W2 m ρ c (Proc.devRef .tc main_v7) = wRow (row2M (m ((c : Thread nD τ).loc main_arg1))) (row2M (m ((c : Thread nD τ).loc main_arg2))) := by
  have h := W2_arr m ρ c 2
  rw [arr0 (V1 m ρ) c, V1_v5 m ρ c, V1_v6 m ρ c] at h
  exact h
/-- The launched activations as a [16 × 100000] array. -/
theorem W2_v0 (c : Dev nD) : W2 m ρ c (Proc.devRef .tc main_v0) = xb0 (m ((c : Thread nD τ).loc main_arg0)) := by
  rw [W2_of_ne m ρ c main_v0 (by decide)]
  show StableHlo.after hostOps0 (W0 m ρ c) (Proc.devRef .tc main_v0) = _
  after_results; rfl
/-- Row 0 of the index array. -/
theorem W2_v2 (c : Dev nD) : W2 m ρ c (Proc.devRef .tc main_v2) = srcOf (m ((c : Thread nD τ).loc main_arg6)) := by
  rw [W2_of_ne m ρ c main_v2 (by decide)]
  show StableHlo.after hostOps0 (W0 m ρ c) (Proc.devRef .tc main_v2) = _
  after_results; rfl
/-- Row 1 of the index array. -/
theorem W2_v4 (c : Dev nD) : W2 m ρ c (Proc.devRef .tc main_v4) = dstOf (m ((c : Thread nD τ).loc main_arg6)) := by
  rw [W2_of_ne m ρ c main_v4 (by decide)]
  show StableHlo.after hostOps0 (W0 m ρ c) (Proc.devRef .tc main_v4) = _
  after_results; rfl
/-- The arguments read later are still as launched. -/
theorem W2_arg (c : Dev nD) (b : Ref sig .tc) (hb : b ∈ [main_arg3, main_arg4, main_arg5, main_arg7]) :
    W2 m ρ c (Proc.devRef .tc b) = m ((c : Thread nD τ).loc b) := by
  simp only [List.mem_cons, List.mem_singleton, List.not_mem_nil, or_false] at hb
  rcases hb with rfl | rfl | rfl | rfl
  · calc W2 m ρ c (Proc.devRef .tc main_arg3)
      _ = W1 m ρ c (Proc.devRef .tc main_arg3) := W2_of_ne m ρ c main_arg3 (by decide)
      _ = W0 m ρ c (Proc.devRef .tc main_arg3) :=
          StableHlo.after_of_forall_not_mem (b := Proc.devRef .tc main_arg3) _ _ (by not_written [hostOps0])
      _ = m ((c : Thread nD τ).loc main_arg3) := rfl
  · calc W2 m ρ c (Proc.devRef .tc main_arg4)
      _ = W1 m ρ c (Proc.devRef .tc main_arg4) := W2_of_ne m ρ c main_arg4 (by decide)
      _ = W0 m ρ c (Proc.devRef .tc main_arg4) :=
          StableHlo.after_of_forall_not_mem (b := Proc.devRef .tc main_arg4) _ _ (by not_written [hostOps0])
      _ = m ((c : Thread nD τ).loc main_arg4) := rfl
  · calc W2 m ρ c (Proc.devRef .tc main_arg5)
      _ = W1 m ρ c (Proc.devRef .tc main_arg5) := W2_of_ne m ρ c main_arg5 (by decide)
      _ = W0 m ρ c (Proc.devRef .tc main_arg5) :=
          StableHlo.after_of_forall_not_mem (b := Proc.devRef .tc main_arg5) _ _ (by not_written [hostOps0])
      _ = m ((c : Thread nD τ).loc main_arg5) := rfl
  · calc W2 m ρ c (Proc.devRef .tc main_arg7)
      _ = W1 m ρ c (Proc.devRef .tc main_arg7) := W2_of_ne m ρ c main_arg7 (by decide)
      _ = W0 m ρ c (Proc.devRef .tc main_arg7) :=
          StableHlo.after_of_forall_not_mem (b := Proc.devRef .tc main_arg7) _ _ (by not_written [hostOps0])
      _ = m ((c : Thread nD τ).loc main_arg7) := rfl

end Cert.KernelIdeal.Gen

end
-- ==== Proof.RegGm1.lean ====
/-
  A message pallas_call (25 column blocks of [16 × 80000] and [1 × 80000]): after it the output array holds the
  gathered activations times the weight under each column.
-/
import proofs.«410575_j292057776280_1_alg».proof.Proof.Gen.KernelIdeal.Frame
import proofs.«410575_j292057776280_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Stage

variable {F : FTy → Type} [FloatOps F]
variable (V : (c : Dev nD) → (b : Ref sig .tc) → Buf (Elt F) ((c : Thread nD τ).loc b))

/-- The body's loads and its one store start at the blocks' origins, however the zeros are spelt. -/
theorem hz1 : (![0, 0] : Fin 2 → Nat) = fun _ => 0 :=
  funext fun a => match a with | ⟨0, _⟩ => rfl | ⟨1, _⟩ => rfl

/-- The weight block's one row broadcast over the 16 rows reads, at `(p, q)`, the row at `q`. -/
theorem bcast_row1 (x : Vec F S1x80000 .f32) (j : S16x80000.Idx) :
    broadcastTo S16x80000 x broadcasts_S1x80000_S16x80000 j = x (ValueIdx.ix2 (0 : Fin 1) (j 1)) := by
  refine broadcastTo_apply x broadcasts_S1x80000_S16x80000 j (ValueIdx.ix2 (0 : Fin 1) (j 1)) fun ax => ?_
  match ax with
  | ⟨0, _⟩ => rfl
  | ⟨1, _⟩ =>
    show (j 1).val = if (80000 : ℕ) = 1 then 0 else (j 1).val
    exact (if_neg (by decide)).symm

/-- The body's payload is the product of the activation block with the weight block's row under each column. -/
theorem pay1_eq (x0 : Vec F S16x80000 .f32) (x1 : Vec F S1x80000 .f32) :
    k1_pay1 x0 x1 = mulf x0 (broadcastTo S16x80000 x1 broadcasts_S1x80000_S16x80000) := by
  unfold k1_pay1
  rw [shapeCast_self, shapeCast_self]

/-- The index maps over the 25 points: the activation block sits where the output block sits; the weight block is in
    row block 0 at the output's column block; the output block at point `t` is in row block 0 and a column block
    below 25. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = win1_2.index t (1 : Fin 2)
    ∧ win1_2.index t (0 : Fin 2) = 0 ∧ win1_2.index t (1 : Fin 2) ≤ 24 :=
  (by decide +kernel : ∀ t : Fin grid1.N, _)

/-- Every one of the 25 column blocks is some point's. -/
theorem idx_onto1 : ∀ q : Fin 25, ∃ t : Fin cfg1.N, win1_2.index t = ![0, q.val] :=
  (by decide +kernel : ∀ q : Fin 25, ∃ t : Fin grid1.N, win1_2.index t = ![0, q.val])

/-- WHAT POINT `t` WRITES BACK is block `t` of `gmArr` of the gathered activations and the weight row as the
    region finds them. -/
theorem flushed1_eq (c : Dev nD) (t : Fin cfg1.N) :
    (dat1 V c).flushed 2 t = ((cfg1.win 2).blk t).view.read (Elt F) (gmArr (V c main_v10) (V c main_v7)) := by
  show (cfg1.win 2).cut (grid1.coords t) ((dat1 V c).after 2 t) = _
  rw [after1_2]
  unfold out1_2
  rw [View.canon_unit_zero hz1]
  simp only [View.ld_unit_zero (S := S16x80000) hz1, View.ld_unit_zero (S := S1x80000) hz1]
  rw [pay1_eq]
  obtain ⟨e0, e1, e2, e3, e4, e5⟩ := idx_facts1 t
  funext j
  show FloatOps.mulf (V c main_v10 (((cfg1.win 0).blk t).view.emb j))
        (broadcastTo S16x80000 (iblk1 V c 1 t) broadcasts_S1x80000_S16x80000 j)
     = FloatOps.mulf (V c main_v10 (((cfg1.win 2).blk t).view.emb j))
        (V c main_v7 (ValueIdx.ix2 (0 : Fin 1) ((((cfg1.win 2).blk t).view.emb j) 1 : Fin 2000000)))
  rw [bcast_row1]
  show FloatOps.mulf (V c main_v10 (((cfg1.win 0).blk t).view.emb j))
        (V c main_v7 (((cfg1.win 1).blk t).view.emb (ValueIdx.ix2 (0 : Fin 1) (j 1))))
     = FloatOps.mulf (V c main_v10 (((cfg1.win 2).blk t).view.emb j))
        (V c main_v7 (ValueIdx.ix2 (0 : Fin 1) ((((cfg1.win 2).blk t).view.emb j) 1 : Fin 2000000)))
  have h0 : ((cfg1.win 0).blk t).view.emb j = ((cfg1.win 2).blk t).view.emb j := by
    funext a; apply Fin.ext
    match a with
    | ⟨0, _⟩ => show win1_0.index t (0 : Fin 2) * 16 + 1 * (j 0).val = win1_2.index t (0 : Fin 2) * 16 + 1 * (j 0).val; omega
    | ⟨1, _⟩ => show win1_0.index t (1 : Fin 2) * 80000 + 1 * (j 1).val = win1_2.index t (1 : Fin 2) * 80000 + 1 * (j 1).val; omega
  have h1 : ((cfg1.win 1).blk t).view.emb (ValueIdx.ix2 (0 : Fin 1) (j 1))
      = ValueIdx.ix2 (0 : Fin 1) ((((cfg1.win 2).blk t).view.emb j) 1 : Fin 2000000) := by
    funext a; apply Fin.ext
    match a with
    | ⟨0, _⟩ => show win1_1.index t (0 : Fin 2) * 1 + 1 * 0 = 0; omega
    | ⟨1, _⟩ => show win1_1.index t (1 : Fin 2) * 80000 + 1 * (j 1).val = win1_2.index t (1 : Fin 2) * 80000 + 1 * (j 1).val; omega
  rw [h0, h1]
  rfl

/-- An index of the array is in point `t`'s block iff each coordinate is in the block's range on its axis. -/
theorem mem_blk1 (t : Fin cfg1.N) (i : S16x2000000.Idx) :
    i ∈ ((cfg1.win 2).blk t).view.set ↔ ∀ a : Fin 2, win1_2.index t a * S16x80000.size a ≤ (i a).val ∧ (i a).val < win1_2.index t a * S16x80000.size a + S16x80000.size a := by
  show i ∈ ((View.whole main_v11).slice (win1_2.rect t)).set ↔ _
  rw [View.set_slice_whole, Rect.mem_set_unit]
  exact Iff.rfl

/-- The 25 blocks of 80000 columns cover the array: column `q` is in the block of point `q / 80000`. -/
theorem cover1 (i : S16x2000000.Idx) : ∃ t : Fin cfg1.N, (cfg1.win 2).flush t = true ∧ i ∈ ((cfg1.win 2).blk t).view.set := by
  have hi0 : (i 0).val < 16 := (i 0).isLt
  have hi1 : (i 1).val < 2000000 := (i 1).isLt
  obtain ⟨t, ht⟩ := idx_onto1 ⟨(i 1).val / 80000, by omega⟩
  have q0 : win1_2.index t (0 : Fin 2) = 0 := congrFun ht 0
  have q1 : win1_2.index t (1 : Fin 2) = (i 1).val / 80000 := congrFun ht 1
  refine ⟨t, flush1_2 t, ?_⟩
  rw [mem_blk1]
  intro a
  match a with
  | ⟨0, _⟩ => show win1_2.index t (0 : Fin 2) * 16 ≤ (i 0).val ∧ (i 0).val < win1_2.index t (0 : Fin 2) * 16 + 16; omega
  | ⟨1, _⟩ => show win1_2.index t (1 : Fin 2) * 80000 ≤ (i 1).val ∧ (i 1).val < win1_2.index t (1 : Fin 2) * 80000 + 80000; omega

/-- After the region the message array is `gmArr` of the gathered activations and the weight row as the region found them. -/
theorem arr1 (c : Dev nD) : (dat1 (F := F) V c).arrAt 2 cfg1.N = gmArr (V c main_v10) (V c main_v7) :=
  (dat1 V c).arrAt_eq_of_cover 2 (gmArr (V c main_v10) (V c main_v7)) (fun t _ => flushed1_eq V c t) cover1

end Cert.KernelIdeal.Gen

end
-- ==== Proof.RegNorm2.lean ====
/-
  An update pallas_call (one grid point, every window its whole array): after it the output array is the body's
  payload of the four input arrays.

  The grid has one point and every window's block index there is (0, 0), so a window's block is its whole array: an
  element (y0, y1) of the block sits in the array at (0·size + y0, 0·size + y1) = (y0, y1). Hence the body reads the four
  arrays themselves, what it writes back is its payload of them read through the output's block, and that one block
  covers every index of the output array.
-/
import proofs.«410575_j292057776280_1_alg».proof.Proof.Gen.KernelIdeal.Frame
import proofs.«410575_j292057776280_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Stage

variable {F : FTy → Type} [FloatOps F]
variable (V : (c : Dev nD) → (b : Ref sig .tc) → Buf (Elt F) ((c : Thread nD τ).loc b))

/-- The zero offsets of a whole rectangle, however spelt. -/
theorem norm2_hz : (![0, 0] : Fin 2 → Nat) = fun _ => 0 :=
  funext fun a => match a with | ⟨0, _⟩ => rfl | ⟨1, _⟩ => rfl

/-- The printed index maps, decided over the one-point grid: every window's block index is 0 on both axes. -/
theorem norm2_idx : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Window 0's block is its whole array (the aggregate): block element (y0, y1) is array element (y0, y1). -/
theorem norm2_blk0 (c : Dev nD) (t : Fin cfg2.N) : iblk2 V c 0 t = V c main_v19 := by
  obtain ⟨e0, e1, -⟩ := norm2_idx t
  funext y
  show V c main_v19 (((cfg2.win 0).blk t).view.emb y) = V c main_v19 y
  refine congrArg (V c main_v19) ?_
  funext a; apply Fin.ext
  match a with
  | ⟨0, _⟩ => show win2_0.index t (0 : Fin 2) * 16 + 1 * (y 0).val = (y 0).val; omega
  | ⟨1, _⟩ => show win2_0.index t (1 : Fin 2) * 100000 + 1 * (y 1).val = (y 1).val; omega

/-- Window 1's block is its whole array (the threshold row). -/
theorem norm2_blk1 (c : Dev nD) (t : Fin cfg2.N) : iblk2 V c 1 t = V c main_v9 := by
  obtain ⟨-, -, e0, e1, -⟩ := norm2_idx t
  funext y
  show V c main_v9 (((cfg2.win 1).blk t).view.emb y) = V c main_v9 y
  refine congrArg (V c main_v9) ?_
  funext a; apply Fin.ext
  match a with
  | ⟨0, _⟩ => show win2_1.index t (0 : Fin 2) * 1 + 1 * (y 0).val = (y 0).val; omega
  | ⟨1, _⟩ => show win2_1.index t (1 : Fin 2) * 100000 + 1 * (y 1).val = (y 1).val; omega

/-- Window 2's block is its whole array (the least entry, [1 × 1]). -/
theorem norm2_blk2 (c : Dev nD) (t : Fin cfg2.N) : iblk2 V c 2 t = V c main_v21 := by
  obtain ⟨-, -, -, -, e0, e1, -⟩ := norm2_idx t
  funext y
  show V c main_v21 (((cfg2.win 2).blk t).view.emb y) = V c main_v21 y
  refine congrArg (V c main_v21) ?_
  funext a; apply Fin.ext
  match a with
  | ⟨0, _⟩ => show win2_2.index t (0 : Fin 2) * 1 + 1 * (y 0).val = (y 0).val; omega
  | ⟨1, _⟩ => show win2_2.index t (1 : Fin 2) * 1 + 1 * (y 1).val = (y 1).val; omega

/-- Window 3's block is its whole array (the greatest entry, [1 × 1]). -/
theorem norm2_blk3 (c : Dev nD) (t : Fin cfg2.N) : iblk2 V c 3 t = V c main_v23 := by
  obtain ⟨-, -, -, -, -, -, e0, e1, -⟩ := norm2_idx t
  funext y
  show V c main_v23 (((cfg2.win 3).blk t).view.emb y) = V c main_v23 y
  refine congrArg (V c main_v23) ?_
  funext a; apply Fin.ext
  match a with
  | ⟨0, _⟩ => show win2_3.index t (0 : Fin 2) * 1 + 1 * (y 0).val = (y 0).val; omega
  | ⟨1, _⟩ => show win2_3.index t (1 : Fin 2) * 1 + 1 * (y 1).val = (y 1).val; omega

/-- The part of a whole-block contents the write-back moves is those contents read through the output's block: both are
    the contents at (j0, j1), the block sitting at offset (0, 0) of the array. -/
theorem norm2_cut_read (G : Vec F S16x100000 .f32) (t : Fin cfg2.N) :
    (cfg2.win 4).cut (grid2.coords t) G = ((cfg2.win 4).blk t).view.read (Elt F) G := by
  obtain ⟨-, -, -, -, -, -, -, -, e0, e1⟩ := norm2_idx t
  funext j
  show G ((cfg2.win 4).xinj (grid2.coords t) j) = G (((cfg2.win 4).blk t).view.emb j)
  refine congrArg G ?_
  funext a; apply Fin.ext
  match a with
  | ⟨0, _⟩ => show (j 0).val = win2_4.index t (0 : Fin 2) * 16 + 1 * (j 0).val; omega
  | ⟨1, _⟩ => show (j 1).val = win2_4.index t (1 : Fin 2) * 100000 + 1 * (j 1).val; omega

/-- This region's body computes the update payload. -/
theorem norm2_pay_eq (v0 : Vec F S1x1 .f32) (v2 : Vec F S1x1 .f32) (v5 : Vec F S16x100000 .f32) (v11 : Vec F S1x100000 .f32) :
    Gen.k2_pay1 v0 v2 v5 v11 = k2_pay1 v0 v2 v5 v11 := rfl

/-- WHAT THE POINT WRITES BACK: the payload of the four whole arrays, read through the output's block. -/
theorem norm2_flushed (c : Dev nD) (t : Fin cfg2.N) :
    (dat2 V c).flushed 4 t
      = ((cfg2.win 4).blk t).view.read (Elt F) (Gen.k2_pay1 (V c main_v21) (V c main_v23) (V c main_v19) (V c main_v9)) := by
  show (cfg2.win 4).cut (grid2.coords t) ((dat2 V c).after 4 t) = _
  rw [after2_4]
  unfold out2_4
  rw [View.canon_unit_zero norm2_hz]
  simp only [View.ld_unit_zero (S := S16x100000) norm2_hz, View.ld_unit_zero (S := S1x100000) norm2_hz,
    View.ld_unit_zero (S := S1x1) norm2_hz]
  rw [norm2_blk0, norm2_blk1, norm2_blk2, norm2_blk3]
  exact norm2_cut_read _ t

/-- Every index of the output array is in the one point's block, which is written back. -/
theorem norm2_cover (i : S16x100000.Idx) :
    ∃ t : Fin cfg2.N, (cfg2.win 4).flush t = true ∧ i ∈ ((cfg2.win 4).blk t).view.set := by
  refine ⟨t2_0, flush2_4 t2_0, ?_⟩
  obtain ⟨-, -, -, -, -, -, -, -, e0, e1⟩ := norm2_idx t2_0
  show i ∈ ((View.whole main_v24).slice (win2_4.rect t2_0)).set
  rw [View.set_slice_whole, Rect.mem_set_unit]
  intro a
  match a with
  | ⟨0, _⟩ =>
    show win2_4.index t2_0 (0 : Fin 2) * 16 ≤ (i 0).val ∧ (i 0).val < win2_4.index t2_0 (0 : Fin 2) * 16 + 16
    have hi : (i 0).val < 16 := (i 0).isLt
    omega
  | ⟨1, _⟩ =>
    show win2_4.index t2_0 (1 : Fin 2) * 100000 ≤ (i 1).val ∧ (i 1).val < win2_4.index t2_0 (1 : Fin 2) * 100000 + 100000
    have hi : (i 1).val < 100000 := (i 1).isLt
    omega

/-- After the region the new activations are the body's payload of the whole arrays as the region found them. -/
theorem arr2 (c : Dev nD) : (dat2 (F := F) V c).arrAt 4 cfg2.N = k2_pay1 (V c main_v21) (V c main_v23) (V c main_v19) (V c main_v9) := by
  exact ((dat2 V c).arrAt_eq_of_cover 4 (Gen.k2_pay1 (V c main_v21) (V c main_v23) (V c main_v19) (V c main_v9))
    (fun t _ => norm2_flushed V c t) (fun i => norm2_cover i)).trans (norm2_pay_eq _ _ _ _)

end Cert.KernelIdeal.Gen

end
-- ==== Proof.ChainPass1.lean ====
/-
  THE FIRST PASS through the fold: from the weight row's exit to the first update's exit (the threshold row, the take,
  the message pallas_call, the scatter-add with its least and greatest entries, the update pallas_call).
-/
import proofs.«410575_j292057776280_1_alg».proof.Proof.Gen.KernelIdeal.Frame
import proofs.«410575_j292057776280_1_alg».proof.Proof.Stages
import proofs.«410575_j292057776280_1_alg».proof.Proof.RegGm1
import proofs.«410575_j292057776280_1_alg».proof.Proof.RegNorm2
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo
open Cert.KernelIdeal.Stage

variable {F : FTy → Type} [FloatOps F]
variable (m : (ℓ : Loc nD τ sig) → Buf (Elt F) ℓ) (ρ : Dev nD → PrngReg)

/-- No operation of the stretch has this reference as its result. -/
local macro "not_written" "[" ops:ident "]" : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

attribute [local irreducible] Host.reduce

/-! ### The three stretches of host operations, read from any contents `X` at their entry -/

/-- The absolute value and its reshape make the threshold row. -/
theorem h1_v9 (X : Valuation τ sig (Elt F)) :
    StableHlo.after hostOps1 X (Proc.devRef .tc main_v9) = thrRow (X (Proc.devRef .tc main_arg3)) := by
  after_results; rfl
/-- They write nothing a pass reads besides. -/
theorem h1_keep (X : Valuation τ sig (Elt F)) (b : Ref sig .tc)
    (hb : b ∈ [main_v0, main_v2, main_v4, main_v7, main_arg4, main_arg5, main_arg7]) :
    StableHlo.after hostOps1 X (Proc.devRef .tc b) = X (Proc.devRef .tc b) := by
  simp only [List.mem_cons, List.mem_singleton, List.not_mem_nil, or_false] at hb
  rcases hb with rfl | rfl | rfl | rfl | rfl | rfl | rfl <;>
    exact StableHlo.after_of_forall_not_mem (b := Proc.devRef .tc _) _ _ (by not_written [hostOps1])

/-! The take, operation by operation: each buffer of its body read after the whole stretch (no later operation
    writes it), in terms of the buffers it was made from. -/

/-- The wrapped source indices as a column of start indices. -/
theorem t_v5 (X : Valuation τ sig (Elt F)) :
    (StableHlo.after hostOps1_1 X (Proc.devRef .tc main_call0_v5)) = wrapCol (X (Proc.devRef .tc main_v2)) := by
  after_results_simp
  unfold wrapCol wrap
  rfl
/-- Which columns are in range. -/
theorem t_v12 (X : Valuation τ sig (Elt F)) :
    (StableHlo.after hostOps1_1 X (Proc.devRef .tc main_call0_v12)) = inRange (StableHlo.after hostOps1_1 X (Proc.devRef .tc main_call0_v5)) := by
  after_results_simp
  unfold inRange
  rfl
/-- The plain gather. -/
theorem t_v13 (X : Valuation τ sig (Elt F)) :
    (StableHlo.after hostOps1_1 X (Proc.devRef .tc main_call0_v13)) = gatherCols (X (Proc.devRef .tc main_v0)) (StableHlo.after hostOps1_1 X (Proc.devRef .tc main_call0_v5)) := by
  after_results_simp
  unfold gatherCols
  rfl
/-- The in-range mask under every row. -/
theorem t_v14 (X : Valuation τ sig (Elt F)) :
    (StableHlo.after hostOps1_1 X (Proc.devRef .tc main_call0_v14)) = broadcastInDim S16x2000000 ![1] bcast_S2000000_S16x2000000_1 (StableHlo.after hostOps1_1 X (Proc.devRef .tc main_call0_v12)) := by
  after_results_simp
  rfl
/-- The fill word everywhere. -/
theorem t_v15 (X : Valuation τ sig (Elt F)) :
    (StableHlo.after hostOps1_1 X (Proc.devRef .tc main_call0_v15)) = broadcastInDim S16x2000000 ![] bcast_S_S16x2000000 (constant S_ .f32 0x7FC00000#32) := by
  after_results_simp
  rfl
/-- The select that ends the take. -/
theorem t_v10 (X : Valuation τ sig (Elt F)) :
    (StableHlo.after hostOps1_1 X (Proc.devRef .tc main_v10)) = select (StableHlo.after hostOps1_1 X (Proc.devRef .tc main_call0_v14)) (StableHlo.after hostOps1_1 X (Proc.devRef .tc main_call0_v13)) (StableHlo.after hostOps1_1 X (Proc.devRef .tc main_call0_v15)) := by
  after_results_simp
  rfl
/-- The take's 23 operations make `takeFill` of the activations and the source indices. -/
theorem h11_v10 (X : Valuation τ sig (Elt F)) :
    StableHlo.after hostOps1_1 X (Proc.devRef .tc main_v10) = takeFill (X (Proc.devRef .tc main_v0)) (X (Proc.devRef .tc main_v2)) := by
  rw [t_v10 X, t_v14 X, t_v13 X, t_v15 X, t_v12 X, t_v5 X]
  rfl
/-- They write nothing else a pass reads. -/
theorem h11_keep (X : Valuation τ sig (Elt F)) (b : Ref sig .tc)
    (hb : b ∈ [main_v9, main_v2, main_v4, main_v7, main_arg4, main_arg5, main_arg7]) :
    StableHlo.after hostOps1_1 X (Proc.devRef .tc b) = X (Proc.devRef .tc b) := by
  simp only [List.mem_cons, List.mem_singleton, List.not_mem_nil, or_false] at hb
  rcases hb with rfl | rfl | rfl | rfl | rfl | rfl | rfl <;>
    exact StableHlo.after_of_forall_not_mem (b := Proc.devRef .tc _) _ _ (by not_written [hostOps1_1])

/-- The scatter-add into zeros at the wrapped destination columns is the aggregate. -/
theorem h2_v19 (X : Valuation τ sig (Elt F)) :
    StableHlo.after hostOps2 X (Proc.devRef .tc main_v19) = aggrOf (X (Proc.devRef .tc main_v11)) (X (Proc.devRef .tc main_v4)) := by
  after_results; rfl
/-- Its least entry as a [1 × 1] array. -/
theorem h2_v21 (X : Valuation τ sig (Elt F)) :
    StableHlo.after hostOps2 X (Proc.devRef .tc main_v21) = as11 (minS (aggrOf (X (Proc.devRef .tc main_v11)) (X (Proc.devRef .tc main_v4)))) := by
  after_results_simp
  unfold as11 minS aggrOf wrapCol wrap
  rfl
/-- Its greatest entry as a [1 × 1] array. -/
theorem h2_v23 (X : Valuation τ sig (Elt F)) :
    StableHlo.after hostOps2 X (Proc.devRef .tc main_v23) = as11 (maxS (aggrOf (X (Proc.devRef .tc main_v11)) (X (Proc.devRef .tc main_v4)))) := by
  after_results_simp
  unfold as11 maxS aggrOf wrapCol wrap
  rfl
/-- They write nothing else a pass reads. -/
theorem h2_keep (X : Valuation τ sig (Elt F)) (b : Ref sig .tc)
    (hb : b ∈ [main_v9, main_v2, main_v4, main_v7, main_arg4, main_arg5, main_arg7]) :
    StableHlo.after hostOps2 X (Proc.devRef .tc b) = X (Proc.devRef .tc b) := by
  simp only [List.mem_cons, List.mem_singleton, List.not_mem_nil, or_false] at hb
  rcases hb with rfl | rfl | rfl | rfl | rfl | rfl | rfl <;>
    exact StableHlo.after_of_forall_not_mem (b := Proc.devRef .tc _) _ _ (by not_written [hostOps2])

/-! ### The boundaries of the first pass, each buffer walked back to the weight row's exit -/

/-- What the stretches before the message pallas_call leave alone. -/
theorem W4_keep (c : Dev nD) (b : Ref sig .tc) (hb : b ∈ [main_v2, main_v4, main_v7, main_arg4, main_arg5, main_arg7]) :
    W4 m ρ c (Proc.devRef .tc b) = W2 m ρ c (Proc.devRef .tc b) := by
  simp only [List.mem_cons, List.mem_singleton, List.not_mem_nil, or_false] at hb
  rcases hb with rfl | rfl | rfl | rfl | rfl | rfl <;>
    exact (h11_keep (W3 m ρ c) _ (by decide)).trans (h1_keep (W2 m ρ c) _ (by decide))
/-- The gathered activations the message pallas_call reads. -/
theorem V4_v10 (c : Dev nD) :
    V4 m ρ c main_v10 = takeFill (W2 m ρ c (Proc.devRef .tc main_v0)) (W2 m ρ c (Proc.devRef .tc main_v2)) :=
  (h11_v10 (W3 m ρ c)).trans
    (congrArg₂ takeFill (h1_keep (W2 m ρ c) main_v0 (by decide)) (h1_keep (W2 m ρ c) main_v2 (by decide)))
/-- The weight row it reads. -/
theorem V4_v7 (c : Dev nD) : V4 m ρ c main_v7 = W2 m ρ c (Proc.devRef .tc main_v7) := W4_keep m ρ c main_v7 (by decide)
/-- The message array at the message pallas_call's exit. -/
theorem W5_v11 (c : Dev nD) :
    W5 m ρ c (Proc.devRef .tc main_v11) = gmArr (takeFill (W2 m ρ c (Proc.devRef .tc main_v0)) (W2 m ρ c (Proc.devRef .tc main_v2))) (W2 m ρ c (Proc.devRef .tc main_v7)) := by
  have g := W5_arr m ρ c 2
  rw [arr1 (V4 m ρ) c, V4_v10 m ρ c, V4_v7 m ρ c] at g
  exact g
/-- The weight row is an input of the message pallas_call: it leaves as it entered. -/
theorem W5_v7 (c : Dev nD) : W5 m ρ c (Proc.devRef .tc main_v7) = W2 m ρ c (Proc.devRef .tc main_v7) := by
  have g := W5_arr m ρ c 1
  rw [Pipeline.Dat.arrAt_in (dat1 (V4 m ρ) c) 1 rfl, A_eq1 (V4 m ρ) c 1] at g
  exact g.trans (V4_v7 m ρ c)
/-- What the message pallas_call does not window. -/
theorem W5_keep (c : Dev nD) (b : Ref sig .tc) (hb : b ∈ [main_v2, main_v4, main_arg4, main_arg5, main_arg7]) :
    W5 m ρ c (Proc.devRef .tc b) = W2 m ρ c (Proc.devRef .tc b) := by
  simp only [List.mem_cons, List.mem_singleton, List.not_mem_nil, or_false] at hb
  rcases hb with rfl | rfl | rfl | rfl | rfl <;>
    exact (W5_of_ne m ρ c _ (by decide)).trans (W4_keep m ρ c _ (by decide))
/-- The threshold row at the message pallas_call's exit. -/
theorem W5_v9 (c : Dev nD) : W5 m ρ c (Proc.devRef .tc main_v9) = thrRow (W2 m ρ c (Proc.devRef .tc main_arg3)) :=
  (W5_of_ne m ρ c main_v9 (by decide)).trans ((h11_keep (W3 m ρ c) main_v9 (by decide)).trans (h1_v9 (W2 m ρ c)))

/-- The aggregate the update reads. -/
theorem V6_v19 (c : Dev nD) :
    V6 m ρ c main_v19 = aggrOf (gmArr (takeFill (W2 m ρ c (Proc.devRef .tc main_v0)) (W2 m ρ c (Proc.devRef .tc main_v2))) (W2 m ρ c (Proc.devRef .tc main_v7))) (W2 m ρ c (Proc.devRef .tc main_v4)) :=
  (h2_v19 (W5 m ρ c)).trans (congrArg₂ aggrOf (W5_v11 m ρ c) (W5_keep m ρ c main_v4 (by decide)))
/-- Its least entry. -/
theorem V6_v21 (c : Dev nD) :
    V6 m ρ c main_v21 = as11 (minS (aggrOf (gmArr (takeFill (W2 m ρ c (Proc.devRef .tc main_v0)) (W2 m ρ c (Proc.devRef .tc main_v2))) (W2 m ρ c (Proc.devRef .tc main_v7))) (W2 m ρ c (Proc.devRef .tc main_v4)))) :=
  (h2_v21 (W5 m ρ c)).trans
    (congrArg (fun a => as11 (minS a)) (congrArg₂ aggrOf (W5_v11 m ρ c) (W5_keep m ρ c main_v4 (by decide))))
/-- Its greatest entry. -/
theorem V6_v23 (c : Dev nD) :
    V6 m ρ c main_v23 = as11 (maxS (aggrOf (gmArr (takeFill (W2 m ρ c (Proc.devRef .tc main_v0)) (W2 m ρ c (Proc.devRef .tc main_v2))) (W2 m ρ c (Proc.devRef .tc main_v7))) (W2 m ρ c (Proc.devRef .tc main_v4)))) :=
  (h2_v23 (W5 m ρ c)).trans
    (congrArg (fun a => as11 (maxS a)) (congrArg₂ aggrOf (W5_v11 m ρ c) (W5_keep m ρ c main_v4 (by decide))))
/-- The threshold row the update reads. -/
theorem V6_v9 (c : Dev nD) : V6 m ρ c main_v9 = thrRow (W2 m ρ c (Proc.devRef .tc main_arg3)) :=
  (h2_keep (W5 m ρ c) main_v9 (by decide)).trans (W5_v9 m ρ c)

/-- The threshold row, made on the way. -/
theorem W7_v9 (c : Dev nD) : W7 m ρ c (Proc.devRef .tc main_v9) = thrRow (W2 m ρ c (Proc.devRef .tc main_arg3)) := by
  have g := W7_arr m ρ c 1
  rw [Pipeline.Dat.arrAt_in (dat2 (V6 m ρ) c) 1 rfl, A_eq2 (V6 m ρ) c 1] at g
  exact g.trans (V6_v9 m ρ c)
/-- The activations after the first pass. -/
theorem W7_v24 (c : Dev nD) : W7 m ρ c (Proc.devRef .tc main_v24)
    = pass (W2 m ρ c (Proc.devRef .tc main_v7)) (thrRow (W2 m ρ c (Proc.devRef .tc main_arg3))) (W2 m ρ c (Proc.devRef .tc main_v2)) (W2 m ρ c (Proc.devRef .tc main_v4)) (W2 m ρ c (Proc.devRef .tc main_v0)) := by
  have g := W7_arr m ρ c 4
  rw [arr2 (V6 m ρ) c, V6_v21 m ρ c, V6_v23 m ρ c, V6_v19 m ρ c, V6_v9 m ρ c] at g
  unfold pass
  exact g
/-- What later passes read is untouched. -/
theorem W7_keep (c : Dev nD) (b : Ref sig .tc) (hb : b ∈ [main_v7, main_v2, main_v4, main_arg4, main_arg5, main_arg7]) :
    W7 m ρ c (Proc.devRef .tc b) = W2 m ρ c (Proc.devRef .tc b) := by
  simp only [List.mem_cons, List.mem_singleton, List.not_mem_nil, or_false] at hb
  rcases hb with rfl | rfl | rfl | rfl | rfl | rfl
  · exact (W7_of_ne m ρ c main_v7 (by decide)).trans ((h2_keep (W5 m ρ c) main_v7 (by decide)).trans (W5_v7 m ρ c))
  all_goals
    exact (W7_of_ne m ρ c _ (by decide)).trans ((h2_keep (W5 m ρ c) _ (by decide)).trans (W5_keep m ρ c _ (by decide)))

end Cert.KernelIdeal.Gen

end
-- ==== Proof.RegGm3.lean ====
/-
  A message pallas_call (25 column blocks of [16 × 80000] and [1 × 80000]): after it the output array holds the
  gathered activations times the weight under each column.
-/
import proofs.«410575_j292057776280_1_alg».proof.Proof.Gen.KernelIdeal.Frame
import proofs.«410575_j292057776280_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Stage

variable {F : FTy → Type} [FloatOps F]
variable (V : (c : Dev nD) → (b : Ref sig .tc) → Buf (Elt F) ((c : Thread nD τ).loc b))

/-- The body's loads and its one store start at the blocks' origins, however the zeros are spelt. -/
theorem hz3 : (![0, 0] : Fin 2 → Nat) = fun _ => 0 :=
  funext fun a => match a with | ⟨0, _⟩ => rfl | ⟨1, _⟩ => rfl

/-- The weight block's one row broadcast over the 16 rows reads, at `(p, q)`, the row at `q`. -/
theorem bcast_row3 (x : Vec F S1x80000 .f32) (j : S16x80000.Idx) :
    broadcastTo S16x80000 x broadcasts_S1x80000_S16x80000 j = x (ValueIdx.ix2 (0 : Fin 1) (j 1)) := by
  refine broadcastTo_apply x broadcasts_S1x80000_S16x80000 j (ValueIdx.ix2 (0 : Fin 1) (j 1)) fun ax => ?_
  match ax with
  | ⟨0, _⟩ => rfl
  | ⟨1, _⟩ =>
    show (j 1).val = if (80000 : ℕ) = 1 then 0 else (j 1).val
    exact (if_neg (by decide)).symm

/-- The body's payload is the product of the activation block with the weight block's row under each column. -/
theorem pay3_eq (x0 : Vec F S16x80000 .f32) (x1 : Vec F S1x80000 .f32) :
    k3_pay1 x0 x1 = mulf x0 (broadcastTo S16x80000 x1 broadcasts_S1x80000_S16x80000) := by
  unfold k3_pay1
  rw [shapeCast_self, shapeCast_self]

/-- The index maps over the 25 points: the activation block sits where the output block sits; the weight block is in
    row block 0 at the output's column block; the output block at point `t` is in row block 0 and a column block
    below 25. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = win3_2.index t (1 : Fin 2)
    ∧ win3_2.index t (0 : Fin 2) = 0 ∧ win3_2.index t (1 : Fin 2) ≤ 24 :=
  (by decide +kernel : ∀ t : Fin grid3.N, _)

/-- Every one of the 25 column blocks is some point's. -/
theorem idx_onto3 : ∀ q : Fin 25, ∃ t : Fin cfg3.N, win3_2.index t = ![0, q.val] :=
  (by decide +kernel : ∀ q : Fin 25, ∃ t : Fin grid3.N, win3_2.index t = ![0, q.val])

/-- WHAT POINT `t` WRITES BACK is block `t` of `gmArr` of the gathered activations and the weight row as the
    region finds them. -/
theorem flushed3_eq (c : Dev nD) (t : Fin cfg3.N) :
    (dat3 V c).flushed 2 t = ((cfg3.win 2).blk t).view.read (Elt F) (gmArr (V c main_v25) (V c main_v7)) := by
  show (cfg3.win 2).cut (grid3.coords t) ((dat3 V c).after 2 t) = _
  rw [after3_2]
  unfold out3_2
  rw [View.canon_unit_zero hz3]
  simp only [View.ld_unit_zero (S := S16x80000) hz3, View.ld_unit_zero (S := S1x80000) hz3]
  rw [pay3_eq]
  obtain ⟨e0, e1, e2, e3, e4, e5⟩ := idx_facts3 t
  funext j
  show FloatOps.mulf (V c main_v25 (((cfg3.win 0).blk t).view.emb j))
        (broadcastTo S16x80000 (iblk3 V c 1 t) broadcasts_S1x80000_S16x80000 j)
     = FloatOps.mulf (V c main_v25 (((cfg3.win 2).blk t).view.emb j))
        (V c main_v7 (ValueIdx.ix2 (0 : Fin 1) ((((cfg3.win 2).blk t).view.emb j) 1 : Fin 2000000)))
  rw [bcast_row3]
  show FloatOps.mulf (V c main_v25 (((cfg3.win 0).blk t).view.emb j))
        (V c main_v7 (((cfg3.win 1).blk t).view.emb (ValueIdx.ix2 (0 : Fin 1) (j 1))))
     = FloatOps.mulf (V c main_v25 (((cfg3.win 2).blk t).view.emb j))
        (V c main_v7 (ValueIdx.ix2 (0 : Fin 1) ((((cfg3.win 2).blk t).view.emb j) 1 : Fin 2000000)))
  have h0 : ((cfg3.win 0).blk t).view.emb j = ((cfg3.win 2).blk t).view.emb j := by
    funext a; apply Fin.ext
    match a with
    | ⟨0, _⟩ => show win3_0.index t (0 : Fin 2) * 16 + 1 * (j 0).val = win3_2.index t (0 : Fin 2) * 16 + 1 * (j 0).val; omega
    | ⟨1, _⟩ => show win3_0.index t (1 : Fin 2) * 80000 + 1 * (j 1).val = win3_2.index t (1 : Fin 2) * 80000 + 1 * (j 1).val; omega
  have h1 : ((cfg3.win 1).blk t).view.emb (ValueIdx.ix2 (0 : Fin 1) (j 1))
      = ValueIdx.ix2 (0 : Fin 1) ((((cfg3.win 2).blk t).view.emb j) 1 : Fin 2000000) := by
    funext a; apply Fin.ext
    match a with
    | ⟨0, _⟩ => show win3_1.index t (0 : Fin 2) * 1 + 1 * 0 = 0; omega
    | ⟨1, _⟩ => show win3_1.index t (1 : Fin 2) * 80000 + 1 * (j 1).val = win3_2.index t (1 : Fin 2) * 80000 + 1 * (j 1).val; omega
  rw [h0, h1]
  rfl

/-- An index of the array is in point `t`'s block iff each coordinate is in the block's range on its axis. -/
theorem mem_blk3 (t : Fin cfg3.N) (i : S16x2000000.Idx) :
    i ∈ ((cfg3.win 2).blk t).view.set ↔ ∀ a : Fin 2, win3_2.index t a * S16x80000.size a ≤ (i a).val ∧ (i a).val < win3_2.index t a * S16x80000.size a + S16x80000.size a := by
  show i ∈ ((View.whole main_v26).slice (win3_2.rect t)).set ↔ _
  rw [View.set_slice_whole, Rect.mem_set_unit]
  exact Iff.rfl

/-- The 25 blocks of 80000 columns cover the array: column `q` is in the block of point `q / 80000`. -/
theorem cover3 (i : S16x2000000.Idx) : ∃ t : Fin cfg3.N, (cfg3.win 2).flush t = true ∧ i ∈ ((cfg3.win 2).blk t).view.set := by
  have hi0 : (i 0).val < 16 := (i 0).isLt
  have hi1 : (i 1).val < 2000000 := (i 1).isLt
  obtain ⟨t, ht⟩ := idx_onto3 ⟨(i 1).val / 80000, by omega⟩
  have q0 : win3_2.index t (0 : Fin 2) = 0 := congrFun ht 0
  have q1 : win3_2.index t (1 : Fin 2) = (i 1).val / 80000 := congrFun ht 1
  refine ⟨t, flush3_2 t, ?_⟩
  rw [mem_blk3]
  intro a
  match a with
  | ⟨0, _⟩ => show win3_2.index t (0 : Fin 2) * 16 ≤ (i 0).val ∧ (i 0).val < win3_2.index t (0 : Fin 2) * 16 + 16; omega
  | ⟨1, _⟩ => show win3_2.index t (1 : Fin 2) * 80000 ≤ (i 1).val ∧ (i 1).val < win3_2.index t (1 : Fin 2) * 80000 + 80000; omega

/-- After the region the message array is `gmArr` of the gathered activations and the weight row as the region found them. -/
theorem arr3 (c : Dev nD) : (dat3 (F := F) V c).arrAt 2 cfg3.N = gmArr (V c main_v25) (V c main_v7) :=
  (dat3 V c).arrAt_eq_of_cover 2 (gmArr (V c main_v25) (V c main_v7)) (fun t _ => flushed3_eq V c t) cover3

end Cert.KernelIdeal.Gen

end
-- ==== Proof.RegNorm4.lean ====
/-
  An update pallas_call (one grid point, every window its whole array): after it the output array is the body's
  payload of the four input arrays.

  The grid has one point and every window's block index there is (0, 0), so a window's block is its whole array: an
  element (y0, y1) of the block sits in the array at (0·size + y0, 0·size + y1) = (y0, y1). Hence the body reads the four
  arrays themselves, what it writes back is its payload of them read through the output's block, and that one block
  covers every index of the output array.
-/
import proofs.«410575_j292057776280_1_alg».proof.Proof.Gen.KernelIdeal.Frame
import proofs.«410575_j292057776280_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Stage

variable {F : FTy → Type} [FloatOps F]
variable (V : (c : Dev nD) → (b : Ref sig .tc) → Buf (Elt F) ((c : Thread nD τ).loc b))

/-- The zero offsets of a whole rectangle, however spelt. -/
theorem norm4_hz : (![0, 0] : Fin 2 → Nat) = fun _ => 0 :=
  funext fun a => match a with | ⟨0, _⟩ => rfl | ⟨1, _⟩ => rfl

/-- The printed index maps, decided over the one-point grid: every window's block index is 0 on both axes. -/
theorem norm4_idx : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Window 0's block is its whole array (the aggregate): block element (y0, y1) is array element (y0, y1). -/
theorem norm4_blk0 (c : Dev nD) (t : Fin cfg4.N) : iblk4 V c 0 t = V c main_v34 := by
  obtain ⟨e0, e1, -⟩ := norm4_idx t
  funext y
  show V c main_v34 (((cfg4.win 0).blk t).view.emb y) = V c main_v34 y
  refine congrArg (V c main_v34) ?_
  funext a; apply Fin.ext
  match a with
  | ⟨0, _⟩ => show win4_0.index t (0 : Fin 2) * 16 + 1 * (y 0).val = (y 0).val; omega
  | ⟨1, _⟩ => show win4_0.index t (1 : Fin 2) * 100000 + 1 * (y 1).val = (y 1).val; omega

/-- Window 1's block is its whole array (the threshold row). -/
theorem norm4_blk1 (c : Dev nD) (t : Fin cfg4.N) : iblk4 V c 1 t = V c main_v9 := by
  obtain ⟨-, -, e0, e1, -⟩ := norm4_idx t
  funext y
  show V c main_v9 (((cfg4.win 1).blk t).view.emb y) = V c main_v9 y
  refine congrArg (V c main_v9) ?_
  funext a; apply Fin.ext
  match a with
  | ⟨0, _⟩ => show win4_1.index t (0 : Fin 2) * 1 + 1 * (y 0).val = (y 0).val; omega
  | ⟨1, _⟩ => show win4_1.index t (1 : Fin 2) * 100000 + 1 * (y 1).val = (y 1).val; omega

/-- Window 2's block is its whole array (the least entry, [1 × 1]). -/
theorem norm4_blk2 (c : Dev nD) (t : Fin cfg4.N) : iblk4 V c 2 t = V c main_v36 := by
  obtain ⟨-, -, -, -, e0, e1, -⟩ := norm4_idx t
  funext y
  show V c main_v36 (((cfg4.win 2).blk t).view.emb y) = V c main_v36 y
  refine congrArg (V c main_v36) ?_
  funext a; apply Fin.ext
  match a with
  | ⟨0, _⟩ => show win4_2.index t (0 : Fin 2) * 1 + 1 * (y 0).val = (y 0).val; omega
  | ⟨1, _⟩ => show win4_2.index t (1 : Fin 2) * 1 + 1 * (y 1).val = (y 1).val; omega

/-- Window 3's block is its whole array (the greatest entry, [1 × 1]). -/
theorem norm4_blk3 (c : Dev nD) (t : Fin cfg4.N) : iblk4 V c 3 t = V c main_v38 := by
  obtain ⟨-, -, -, -, -, -, e0, e1, -⟩ := norm4_idx t
  funext y
  show V c main_v38 (((cfg4.win 3).blk t).view.emb y) = V c main_v38 y
  refine congrArg (V c main_v38) ?_
  funext a; apply Fin.ext
  match a with
  | ⟨0, _⟩ => show win4_3.index t (0 : Fin 2) * 1 + 1 * (y 0).val = (y 0).val; omega
  | ⟨1, _⟩ => show win4_3.index t (1 : Fin 2) * 1 + 1 * (y 1).val = (y 1).val; omega

/-- The part of a whole-block contents the write-back moves is those contents read through the output's block: both are
    the contents at (j0, j1), the block sitting at offset (0, 0) of the array. -/
theorem norm4_cut_read (G : Vec F S16x100000 .f32) (t : Fin cfg4.N) :
    (cfg4.win 4).cut (grid4.coords t) G = ((cfg4.win 4).blk t).view.read (Elt F) G := by
  obtain ⟨-, -, -, -, -, -, -, -, e0, e1⟩ := norm4_idx t
  funext j
  show G ((cfg4.win 4).xinj (grid4.coords t) j) = G (((cfg4.win 4).blk t).view.emb j)
  refine congrArg G ?_
  funext a; apply Fin.ext
  match a with
  | ⟨0, _⟩ => show (j 0).val = win4_4.index t (0 : Fin 2) * 16 + 1 * (j 0).val; omega
  | ⟨1, _⟩ => show (j 1).val = win4_4.index t (1 : Fin 2) * 100000 + 1 * (j 1).val; omega

/-- This region's body computes the update payload. -/
theorem norm4_pay_eq (v0 : Vec F S1x1 .f32) (v2 : Vec F S1x1 .f32) (v5 : Vec F S16x100000 .f32) (v11 : Vec F S1x100000 .f32) :
    Gen.k4_pay1 v0 v2 v5 v11 = k2_pay1 v0 v2 v5 v11 := rfl

/-- WHAT THE POINT WRITES BACK: the payload of the four whole arrays, read through the output's block. -/
theorem norm4_flushed (c : Dev nD) (t : Fin cfg4.N) :
    (dat4 V c).flushed 4 t
      = ((cfg4.win 4).blk t).view.read (Elt F) (Gen.k4_pay1 (V c main_v36) (V c main_v38) (V c main_v34) (V c main_v9)) := by
  show (cfg4.win 4).cut (grid4.coords t) ((dat4 V c).after 4 t) = _
  rw [after4_4]
  unfold out4_4
  rw [View.canon_unit_zero norm4_hz]
  simp only [View.ld_unit_zero (S := S16x100000) norm4_hz, View.ld_unit_zero (S := S1x100000) norm4_hz,
    View.ld_unit_zero (S := S1x1) norm4_hz]
  rw [norm4_blk0, norm4_blk1, norm4_blk2, norm4_blk3]
  exact norm4_cut_read _ t

/-- Every index of the output array is in the one point's block, which is written back. -/
theorem norm4_cover (i : S16x100000.Idx) :
    ∃ t : Fin cfg4.N, (cfg4.win 4).flush t = true ∧ i ∈ ((cfg4.win 4).blk t).view.set := by
  refine ⟨t4_0, flush4_4 t4_0, ?_⟩
  obtain ⟨-, -, -, -, -, -, -, -, e0, e1⟩ := norm4_idx t4_0
  show i ∈ ((View.whole main_v39).slice (win4_4.rect t4_0)).set
  rw [View.set_slice_whole, Rect.mem_set_unit]
  intro a
  match a with
  | ⟨0, _⟩ =>
    show win4_4.index t4_0 (0 : Fin 2) * 16 ≤ (i 0).val ∧ (i 0).val < win4_4.index t4_0 (0 : Fin 2) * 16 + 16
    have hi : (i 0).val < 16 := (i 0).isLt
    omega
  | ⟨1, _⟩ =>
    show win4_4.index t4_0 (1 : Fin 2) * 100000 ≤ (i 1).val ∧ (i 1).val < win4_4.index t4_0 (1 : Fin 2) * 100000 + 100000
    have hi : (i 1).val < 100000 := (i 1).isLt
    omega

/-- After the region the new activations are the body's payload of the whole arrays as the region found them. -/
theorem arr4 (c : Dev nD) : (dat4 (F := F) V c).arrAt 4 cfg4.N = k2_pay1 (V c main_v36) (V c main_v38) (V c main_v34) (V c main_v9) := by
  exact ((dat4 V c).arrAt_eq_of_cover 4 (Gen.k4_pay1 (V c main_v36) (V c main_v38) (V c main_v34) (V c main_v9))
    (fun t _ => norm4_flushed V c t) (fun i => norm4_cover i)).trans (norm4_pay_eq _ _ _ _)

end Cert.KernelIdeal.Gen

end
-- ==== Proof.ChainPass2.lean ====
/-
  PASS 2 through the fold: from one update's exit to the next (the take, the message pallas_call, the scatter-add with
  its least and greatest entries, the update pallas_call).
-/
import proofs.«410575_j292057776280_1_alg».proof.Proof.Gen.KernelIdeal.Frame
import proofs.«410575_j292057776280_1_alg».proof.Proof.Stages
import proofs.«410575_j292057776280_1_alg».proof.Proof.RegGm3
import proofs.«410575_j292057776280_1_alg».proof.Proof.RegNorm4
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo
open Cert.KernelIdeal.Stage

variable {F : FTy → Type} [FloatOps F]
variable (m : (ℓ : Loc nD τ sig) → Buf (Elt F) ℓ) (ρ : Dev nD → PrngReg)

/-- A buffer none of a host stretch's operations writes keeps its contents: every operation's result buffer is
    told apart from it, reference by reference. -/
local macro "host_keep " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/- The reductions, the gather and the scatter-add are compared as they stand, never opened: the two sides of each
   equation below spell them with the same arguments. -/
attribute [local irreducible] Host.reduce Host.gather Host.scatterAdd

/-! ## The take: the 23 operations before the message pallas_call -/

set_option maxHeartbeats 1000000 in
/-- The taken columns: the stretch's last operation selects, column by column, between the gather of the wrapped
    indices and the fill word, under the in-range mask; each operand is the earlier operations' own term. The
    typed references' transports are identities (every reference is a literal whose type is the value's). -/
theorem W8_v25 (c : Dev nD) : W8 m ρ c (Proc.devRef .tc main_v25)
    = takeFill (W7 m ρ c (Proc.devRef .tc main_v24)) (W7 m ρ c (Proc.devRef .tc main_v2)) := by
  unfold W8
  after_results_simp
  simp only [TRef.ofBuf, TRef.toBuf]
  repeat rw [cast_eq]
  unfold takeFill gatherCols inRange wrapCol wrap
  rfl

/-- The take writes only its own intermediate values and its result. -/
theorem W8_keep (c : Dev nD) (b : Ref sig .tc) (hb : b ∈ [main_v7, main_v9, main_v2, main_v4, main_arg4, main_arg5, main_arg7]) :
    W8 m ρ c (Proc.devRef .tc b) = W7 m ρ c (Proc.devRef .tc b) := by
  simp only [List.mem_cons, List.mem_singleton, List.not_mem_nil, or_false] at hb
  rcases hb with rfl | rfl | rfl | rfl | rfl | rfl | rfl <;> host_keep hostOps3

/-! ## The message pallas_call -/

/-- Its output: the taken columns times the weight under each column. -/
theorem W9_v26 (c : Dev nD) : W9 m ρ c (Proc.devRef .tc main_v26)
    = gmArr (takeFill (W7 m ρ c (Proc.devRef .tc main_v24)) (W7 m ρ c (Proc.devRef .tc main_v2))) (W7 m ρ c (Proc.devRef .tc main_v7)) :=
  ((W9_arr m ρ c 2).trans (arr3 (V8 m ρ) c)).trans
    (congrArg₂ gmArr (W8_v25 m ρ c) (W8_keep m ρ c main_v7 (by decide)))

/-- It writes its output only: the weight row is one of its input windows (an input window's array is never written
    back), the other buffers are none of its arrays. -/
theorem W9_keep (c : Dev nD) (b : Ref sig .tc) (hb : b ∈ [main_v7, main_v9, main_v2, main_v4, main_arg4, main_arg5, main_arg7]) :
    W9 m ρ c (Proc.devRef .tc b) = W8 m ρ c (Proc.devRef .tc b) := by
  simp only [List.mem_cons, List.mem_singleton, List.not_mem_nil, or_false] at hb
  rcases hb with rfl | rfl | rfl | rfl | rfl | rfl | rfl
  · calc W9 m ρ c (Proc.devRef .tc main_v7)
      _ = (dat3 (V8 m ρ) c).arrAt 1 cfg3.N := W9_arr m ρ c 1
      _ = (dat3 (V8 m ρ) c).A 1 := Pipeline.Dat.arrAt_in _ 1 rfl _
      _ = W8 m ρ c (Proc.devRef .tc main_v7) := A_eq3 (V8 m ρ) c 1
  all_goals exact W9_of_ne m ρ c _ (by decide)

/-! ## The scatter-add with its least and greatest entries -/

/-- The aggregate: the message's columns added into the wrapped destination columns of a zero array. -/
theorem W10_v34 (c : Dev nD) : W10 m ρ c (Proc.devRef .tc main_v34)
    = aggrOf (W9 m ρ c (Proc.devRef .tc main_v26)) (W9 m ρ c (Proc.devRef .tc main_v4)) := by
  unfold W10
  after_results_simp
  unfold aggrOf wrapCol wrap
  rfl
/-- Its least entry as a [1 × 1] array. -/
theorem W10_v36 (c : Dev nD) : W10 m ρ c (Proc.devRef .tc main_v36)
    = as11 (minS (aggrOf (W9 m ρ c (Proc.devRef .tc main_v26)) (W9 m ρ c (Proc.devRef .tc main_v4)))) := by
  unfold W10
  after_results_simp
  unfold as11 minS aggrOf wrapCol wrap
  rfl
/-- Its greatest entry as a [1 × 1] array. -/
theorem W10_v38 (c : Dev nD) : W10 m ρ c (Proc.devRef .tc main_v38)
    = as11 (maxS (aggrOf (W9 m ρ c (Proc.devRef .tc main_v26)) (W9 m ρ c (Proc.devRef .tc main_v4)))) := by
  unfold W10
  after_results_simp
  unfold as11 maxS aggrOf wrapCol wrap
  rfl

/-- The stretch writes only its own values. -/
theorem W10_keep (c : Dev nD) (b : Ref sig .tc) (hb : b ∈ [main_v7, main_v9, main_v2, main_v4, main_arg4, main_arg5, main_arg7]) :
    W10 m ρ c (Proc.devRef .tc b) = W9 m ρ c (Proc.devRef .tc b) := by
  simp only [List.mem_cons, List.mem_singleton, List.not_mem_nil, or_false] at hb
  rcases hb with rfl | rfl | rfl | rfl | rfl | rfl | rfl <;> host_keep hostOps4

/-! ## The update pallas_call -/

/-- It writes its output only: the threshold row is one of its input windows, the other buffers are none of its arrays. -/
theorem W11_keep10 (c : Dev nD) (b : Ref sig .tc) (hb : b ∈ [main_v7, main_v9, main_v2, main_v4, main_arg4, main_arg5, main_arg7]) :
    W11 m ρ c (Proc.devRef .tc b) = W10 m ρ c (Proc.devRef .tc b) := by
  simp only [List.mem_cons, List.mem_singleton, List.not_mem_nil, or_false] at hb
  rcases hb with rfl | rfl | rfl | rfl | rfl | rfl | rfl
  rotate_left
  · calc W11 m ρ c (Proc.devRef .tc main_v9)
      _ = (dat4 (V10 m ρ) c).arrAt 1 cfg4.N := W11_arr m ρ c 1
      _ = (dat4 (V10 m ρ) c).A 1 := Pipeline.Dat.arrAt_in _ 1 rfl _
      _ = W10 m ρ c (Proc.devRef .tc main_v9) := A_eq4 (V10 m ρ) c 1
  all_goals exact W11_of_ne m ρ c _ (by decide)

/-- A kept buffer through the message pallas_call and the take. -/
theorem W9_keep7 (c : Dev nD) (b : Ref sig .tc) (hb : b ∈ [main_v7, main_v9, main_v2, main_v4, main_arg4, main_arg5, main_arg7]) :
    W9 m ρ c (Proc.devRef .tc b) = W7 m ρ c (Proc.devRef .tc b) :=
  (W9_keep m ρ c b hb).trans (W8_keep m ρ c b hb)

/-- The aggregate, from the buffers at the pass's start. -/
theorem W10_v34' (c : Dev nD) : W10 m ρ c (Proc.devRef .tc main_v34)
    = aggrOf (gmArr (takeFill (W7 m ρ c (Proc.devRef .tc main_v24)) (W7 m ρ c (Proc.devRef .tc main_v2))) (W7 m ρ c (Proc.devRef .tc main_v7)))
        (W7 m ρ c (Proc.devRef .tc main_v4)) :=
  (W10_v34 m ρ c).trans (congrArg₂ aggrOf (W9_v26 m ρ c) (W9_keep7 m ρ c main_v4 (by decide)))

/-- The activations after this pass, from the buffers at the pass's start. -/
theorem W11_v39 (c : Dev nD) : W11 m ρ c (Proc.devRef .tc main_v39)
    = pass (W7 m ρ c (Proc.devRef .tc main_v7)) (W7 m ρ c (Proc.devRef .tc main_v9)) (W7 m ρ c (Proc.devRef .tc main_v2)) (W7 m ρ c (Proc.devRef .tc main_v4)) (W7 m ρ c (Proc.devRef .tc main_v24)) := by
  have e34 := W10_v34' m ρ c
  have ea := congrArg₂ aggrOf (W9_v26 m ρ c) (W9_keep7 m ρ c main_v4 (by decide))
  have e36 := (W10_v36 m ρ c).trans (congrArg (fun a => as11 (minS a)) ea)
  have e38 := (W10_v38 m ρ c).trans (congrArg (fun a => as11 (maxS a)) ea)
  have e9 : W10 m ρ c (Proc.devRef .tc main_v9) = W7 m ρ c (Proc.devRef .tc main_v9) :=
    (W10_keep m ρ c main_v9 (by decide)).trans (W9_keep7 m ρ c main_v9 (by decide))
  refine ((W11_arr m ρ c 4).trans (arr4 (V10 m ρ) c)).trans ?_
  unfold pass
  exact congr (congr (congr (congrArg k2_pay1 e36) e38) e34) e9

/-- What later passes read is untouched. -/
theorem W11_keep (c : Dev nD) (b : Ref sig .tc) (hb : b ∈ [main_v7, main_v9, main_v2, main_v4, main_arg4, main_arg5, main_arg7]) :
    W11 m ρ c (Proc.devRef .tc b) = W7 m ρ c (Proc.devRef .tc b) :=
  ((W11_keep10 m ρ c b hb).trans (W10_keep m ρ c b hb)).trans (W9_keep7 m ρ c b hb)

end Cert.KernelIdeal.Gen

end
-- ==== Proof.RegGm5.lean ====
/-
  A message pallas_call (25 column blocks of [16 × 80000] and [1 × 80000]): after it the output array holds the
  gathered activations times the weight under each column.
-/
import proofs.«410575_j292057776280_1_alg».proof.Proof.Gen.KernelIdeal.Frame
import proofs.«410575_j292057776280_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Stage

variable {F : FTy → Type} [FloatOps F]
variable (V : (c : Dev nD) → (b : Ref sig .tc) → Buf (Elt F) ((c : Thread nD τ).loc b))

/-- The body's loads and its one store start at the blocks' origins, however the zeros are spelt. -/
theorem hz5 : (![0, 0] : Fin 2 → Nat) = fun _ => 0 :=
  funext fun a => match a with | ⟨0, _⟩ => rfl | ⟨1, _⟩ => rfl

/-- The weight block's one row broadcast over the 16 rows reads, at `(p, q)`, the row at `q`. -/
theorem bcast_row5 (x : Vec F S1x80000 .f32) (j : S16x80000.Idx) :
    broadcastTo S16x80000 x broadcasts_S1x80000_S16x80000 j = x (ValueIdx.ix2 (0 : Fin 1) (j 1)) := by
  refine broadcastTo_apply x broadcasts_S1x80000_S16x80000 j (ValueIdx.ix2 (0 : Fin 1) (j 1)) fun ax => ?_
  match ax with
  | ⟨0, _⟩ => rfl
  | ⟨1, _⟩ =>
    show (j 1).val = if (80000 : ℕ) = 1 then 0 else (j 1).val
    exact (if_neg (by decide)).symm

/-- The body's payload is the product of the activation block with the weight block's row under each column. -/
theorem pay5_eq (x0 : Vec F S16x80000 .f32) (x1 : Vec F S1x80000 .f32) :
    k5_pay1 x0 x1 = mulf x0 (broadcastTo S16x80000 x1 broadcasts_S1x80000_S16x80000) := by
  unfold k5_pay1
  rw [shapeCast_self, shapeCast_self]

/-- The index maps over the 25 points: the activation block sits where the output block sits; the weight block is in
    row block 0 at the output's column block; the output block at point `t` is in row block 0 and a column block
    below 25. -/
theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = win5_2.index t (1 : Fin 2)
    ∧ win5_2.index t (0 : Fin 2) = 0 ∧ win5_2.index t (1 : Fin 2) ≤ 24 :=
  (by decide +kernel : ∀ t : Fin grid5.N, _)

/-- Every one of the 25 column blocks is some point's. -/
theorem idx_onto5 : ∀ q : Fin 25, ∃ t : Fin cfg5.N, win5_2.index t = ![0, q.val] :=
  (by decide +kernel : ∀ q : Fin 25, ∃ t : Fin grid5.N, win5_2.index t = ![0, q.val])

/-- WHAT POINT `t` WRITES BACK is block `t` of `gmArr` of the gathered activations and the weight row as the
    region finds them. -/
theorem flushed5_eq (c : Dev nD) (t : Fin cfg5.N) :
    (dat5 V c).flushed 2 t = ((cfg5.win 2).blk t).view.read (Elt F) (gmArr (V c main_v40) (V c main_v7)) := by
  show (cfg5.win 2).cut (grid5.coords t) ((dat5 V c).after 2 t) = _
  rw [after5_2]
  unfold out5_2
  rw [View.canon_unit_zero hz5]
  simp only [View.ld_unit_zero (S := S16x80000) hz5, View.ld_unit_zero (S := S1x80000) hz5]
  rw [pay5_eq]
  obtain ⟨e0, e1, e2, e3, e4, e5⟩ := idx_facts5 t
  funext j
  show FloatOps.mulf (V c main_v40 (((cfg5.win 0).blk t).view.emb j))
        (broadcastTo S16x80000 (iblk5 V c 1 t) broadcasts_S1x80000_S16x80000 j)
     = FloatOps.mulf (V c main_v40 (((cfg5.win 2).blk t).view.emb j))
        (V c main_v7 (ValueIdx.ix2 (0 : Fin 1) ((((cfg5.win 2).blk t).view.emb j) 1 : Fin 2000000)))
  rw [bcast_row5]
  show FloatOps.mulf (V c main_v40 (((cfg5.win 0).blk t).view.emb j))
        (V c main_v7 (((cfg5.win 1).blk t).view.emb (ValueIdx.ix2 (0 : Fin 1) (j 1))))
     = FloatOps.mulf (V c main_v40 (((cfg5.win 2).blk t).view.emb j))
        (V c main_v7 (ValueIdx.ix2 (0 : Fin 1) ((((cfg5.win 2).blk t).view.emb j) 1 : Fin 2000000)))
  have h0 : ((cfg5.win 0).blk t).view.emb j = ((cfg5.win 2).blk t).view.emb j := by
    funext a; apply Fin.ext
    match a with
    | ⟨0, _⟩ => show win5_0.index t (0 : Fin 2) * 16 + 1 * (j 0).val = win5_2.index t (0 : Fin 2) * 16 + 1 * (j 0).val; omega
    | ⟨1, _⟩ => show win5_0.index t (1 : Fin 2) * 80000 + 1 * (j 1).val = win5_2.index t (1 : Fin 2) * 80000 + 1 * (j 1).val; omega
  have h1 : ((cfg5.win 1).blk t).view.emb (ValueIdx.ix2 (0 : Fin 1) (j 1))
      = ValueIdx.ix2 (0 : Fin 1) ((((cfg5.win 2).blk t).view.emb j) 1 : Fin 2000000) := by
    funext a; apply Fin.ext
    match a with
    | ⟨0, _⟩ => show win5_1.index t (0 : Fin 2) * 1 + 1 * 0 = 0; omega
    | ⟨1, _⟩ => show win5_1.index t (1 : Fin 2) * 80000 + 1 * (j 1).val = win5_2.index t (1 : Fin 2) * 80000 + 1 * (j 1).val; omega
  rw [h0, h1]
  rfl

/-- An index of the array is in point `t`'s block iff each coordinate is in the block's range on its axis. -/
theorem mem_blk5 (t : Fin cfg5.N) (i : S16x2000000.Idx) :
    i ∈ ((cfg5.win 2).blk t).view.set ↔ ∀ a : Fin 2, win5_2.index t a * S16x80000.size a ≤ (i a).val ∧ (i a).val < win5_2.index t a * S16x80000.size a + S16x80000.size a := by
  show i ∈ ((View.whole main_v41).slice (win5_2.rect t)).set ↔ _
  rw [View.set_slice_whole, Rect.mem_set_unit]
  exact Iff.rfl

/-- The 25 blocks of 80000 columns cover the array: column `q` is in the block of point `q / 80000`. -/
theorem cover5 (i : S16x2000000.Idx) : ∃ t : Fin cfg5.N, (cfg5.win 2).flush t = true ∧ i ∈ ((cfg5.win 2).blk t).view.set := by
  have hi0 : (i 0).val < 16 := (i 0).isLt
  have hi1 : (i 1).val < 2000000 := (i 1).isLt
  obtain ⟨t, ht⟩ := idx_onto5 ⟨(i 1).val / 80000, by omega⟩
  have q0 : win5_2.index t (0 : Fin 2) = 0 := congrFun ht 0
  have q1 : win5_2.index t (1 : Fin 2) = (i 1).val / 80000 := congrFun ht 1
  refine ⟨t, flush5_2 t, ?_⟩
  rw [mem_blk5]
  intro a
  match a with
  | ⟨0, _⟩ => show win5_2.index t (0 : Fin 2) * 16 ≤ (i 0).val ∧ (i 0).val < win5_2.index t (0 : Fin 2) * 16 + 16; omega
  | ⟨1, _⟩ => show win5_2.index t (1 : Fin 2) * 80000 ≤ (i 1).val ∧ (i 1).val < win5_2.index t (1 : Fin 2) * 80000 + 80000; omega

/-- After the region the message array is `gmArr` of the gathered activations and the weight row as the region found them. -/
theorem arr5 (c : Dev nD) : (dat5 (F := F) V c).arrAt 2 cfg5.N = gmArr (V c main_v40) (V c main_v7) :=
  (dat5 V c).arrAt_eq_of_cover 2 (gmArr (V c main_v40) (V c main_v7)) (fun t _ => flushed5_eq V c t) cover5

end Cert.KernelIdeal.Gen

end
-- ==== Proof.RegNorm6.lean ====
/-
  An update pallas_call (one grid point, every window its whole array): after it the output array is the body's
  payload of the four input arrays.

  The grid has one point and every window's block index there is (0, 0), so a window's block is its whole array: an
  element (y0, y1) of the block sits in the array at (0·size + y0, 0·size + y1) = (y0, y1). Hence the body reads the four
  arrays themselves, what it writes back is its payload of them read through the output's block, and that one block
  covers every index of the output array.
-/
import proofs.«410575_j292057776280_1_alg».proof.Proof.Gen.KernelIdeal.Frame
import proofs.«410575_j292057776280_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Stage

variable {F : FTy → Type} [FloatOps F]
variable (V : (c : Dev nD) → (b : Ref sig .tc) → Buf (Elt F) ((c : Thread nD τ).loc b))

/-- The zero offsets of a whole rectangle, however spelt. -/
theorem norm6_hz : (![0, 0] : Fin 2 → Nat) = fun _ => 0 :=
  funext fun a => match a with | ⟨0, _⟩ => rfl | ⟨1, _⟩ => rfl

/-- The printed index maps, decided over the one-point grid: every window's block index is 0 on both axes. -/
theorem norm6_idx : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- Window 0's block is its whole array (the aggregate): block element (y0, y1) is array element (y0, y1). -/
theorem norm6_blk0 (c : Dev nD) (t : Fin cfg6.N) : iblk6 V c 0 t = V c main_v49 := by
  obtain ⟨e0, e1, -⟩ := norm6_idx t
  funext y
  show V c main_v49 (((cfg6.win 0).blk t).view.emb y) = V c main_v49 y
  refine congrArg (V c main_v49) ?_
  funext a; apply Fin.ext
  match a with
  | ⟨0, _⟩ => show win6_0.index t (0 : Fin 2) * 16 + 1 * (y 0).val = (y 0).val; omega
  | ⟨1, _⟩ => show win6_0.index t (1 : Fin 2) * 100000 + 1 * (y 1).val = (y 1).val; omega

/-- Window 1's block is its whole array (the threshold row). -/
theorem norm6_blk1 (c : Dev nD) (t : Fin cfg6.N) : iblk6 V c 1 t = V c main_v9 := by
  obtain ⟨-, -, e0, e1, -⟩ := norm6_idx t
  funext y
  show V c main_v9 (((cfg6.win 1).blk t).view.emb y) = V c main_v9 y
  refine congrArg (V c main_v9) ?_
  funext a; apply Fin.ext
  match a with
  | ⟨0, _⟩ => show win6_1.index t (0 : Fin 2) * 1 + 1 * (y 0).val = (y 0).val; omega
  | ⟨1, _⟩ => show win6_1.index t (1 : Fin 2) * 100000 + 1 * (y 1).val = (y 1).val; omega

/-- Window 2's block is its whole array (the least entry, [1 × 1]). -/
theorem norm6_blk2 (c : Dev nD) (t : Fin cfg6.N) : iblk6 V c 2 t = V c main_v51 := by
  obtain ⟨-, -, -, -, e0, e1, -⟩ := norm6_idx t
  funext y
  show V c main_v51 (((cfg6.win 2).blk t).view.emb y) = V c main_v51 y
  refine congrArg (V c main_v51) ?_
  funext a; apply Fin.ext
  match a with
  | ⟨0, _⟩ => show win6_2.index t (0 : Fin 2) * 1 + 1 * (y 0).val = (y 0).val; omega
  | ⟨1, _⟩ => show win6_2.index t (1 : Fin 2) * 1 + 1 * (y 1).val = (y 1).val; omega

/-- Window 3's block is its whole array (the greatest entry, [1 × 1]). -/
theorem norm6_blk3 (c : Dev nD) (t : Fin cfg6.N) : iblk6 V c 3 t = V c main_v53 := by
  obtain ⟨-, -, -, -, -, -, e0, e1, -⟩ := norm6_idx t
  funext y
  show V c main_v53 (((cfg6.win 3).blk t).view.emb y) = V c main_v53 y
  refine congrArg (V c main_v53) ?_
  funext a; apply Fin.ext
  match a with
  | ⟨0, _⟩ => show win6_3.index t (0 : Fin 2) * 1 + 1 * (y 0).val = (y 0).val; omega
  | ⟨1, _⟩ => show win6_3.index t (1 : Fin 2) * 1 + 1 * (y 1).val = (y 1).val; omega

/-- The part of a whole-block contents the write-back moves is those contents read through the output's block: both are
    the contents at (j0, j1), the block sitting at offset (0, 0) of the array. -/
theorem norm6_cut_read (G : Vec F S16x100000 .f32) (t : Fin cfg6.N) :
    (cfg6.win 4).cut (grid6.coords t) G = ((cfg6.win 4).blk t).view.read (Elt F) G := by
  obtain ⟨-, -, -, -, -, -, -, -, e0, e1⟩ := norm6_idx t
  funext j
  show G ((cfg6.win 4).xinj (grid6.coords t) j) = G (((cfg6.win 4).blk t).view.emb j)
  refine congrArg G ?_
  funext a; apply Fin.ext
  match a with
  | ⟨0, _⟩ => show (j 0).val = win6_4.index t (0 : Fin 2) * 16 + 1 * (j 0).val; omega
  | ⟨1, _⟩ => show (j 1).val = win6_4.index t (1 : Fin 2) * 100000 + 1 * (j 1).val; omega

/-- This region's body computes the update payload. -/
theorem norm6_pay_eq (v0 : Vec F S1x1 .f32) (v2 : Vec F S1x1 .f32) (v5 : Vec F S16x100000 .f32) (v11 : Vec F S1x100000 .f32) :
    Gen.k6_pay1 v0 v2 v5 v11 = k2_pay1 v0 v2 v5 v11 := rfl

/-- WHAT THE POINT WRITES BACK: the payload of the four whole arrays, read through the output's block. -/
theorem norm6_flushed (c : Dev nD) (t : Fin cfg6.N) :
    (dat6 V c).flushed 4 t
      = ((cfg6.win 4).blk t).view.read (Elt F) (Gen.k6_pay1 (V c main_v51) (V c main_v53) (V c main_v49) (V c main_v9)) := by
  show (cfg6.win 4).cut (grid6.coords t) ((dat6 V c).after 4 t) = _
  rw [after6_4]
  unfold out6_4
  rw [View.canon_unit_zero norm6_hz]
  simp only [View.ld_unit_zero (S := S16x100000) norm6_hz, View.ld_unit_zero (S := S1x100000) norm6_hz,
    View.ld_unit_zero (S := S1x1) norm6_hz]
  rw [norm6_blk0, norm6_blk1, norm6_blk2, norm6_blk3]
  exact norm6_cut_read _ t

/-- Every index of the output array is in the one point's block, which is written back. -/
theorem norm6_cover (i : S16x100000.Idx) :
    ∃ t : Fin cfg6.N, (cfg6.win 4).flush t = true ∧ i ∈ ((cfg6.win 4).blk t).view.set := by
  refine ⟨t6_0, flush6_4 t6_0, ?_⟩
  obtain ⟨-, -, -, -, -, -, -, -, e0, e1⟩ := norm6_idx t6_0
  show i ∈ ((View.whole main_v54).slice (win6_4.rect t6_0)).set
  rw [View.set_slice_whole, Rect.mem_set_unit]
  intro a
  match a with
  | ⟨0, _⟩ =>
    show win6_4.index t6_0 (0 : Fin 2) * 16 ≤ (i 0).val ∧ (i 0).val < win6_4.index t6_0 (0 : Fin 2) * 16 + 16
    have hi : (i 0).val < 16 := (i 0).isLt
    omega
  | ⟨1, _⟩ =>
    show win6_4.index t6_0 (1 : Fin 2) * 100000 ≤ (i 1).val ∧ (i 1).val < win6_4.index t6_0 (1 : Fin 2) * 100000 + 100000
    have hi : (i 1).val < 100000 := (i 1).isLt
    omega

/-- After the region the new activations are the body's payload of the whole arrays as the region found them. -/
theorem arr6 (c : Dev nD) : (dat6 (F := F) V c).arrAt 4 cfg6.N = k2_pay1 (V c main_v51) (V c main_v53) (V c main_v49) (V c main_v9) := by
  exact ((dat6 V c).arrAt_eq_of_cover 4 (Gen.k6_pay1 (V c main_v51) (V c main_v53) (V c main_v49) (V c main_v9))
    (fun t _ => norm6_flushed V c t) (fun i => norm6_cover i)).trans (norm6_pay_eq _ _ _ _)

end Cert.KernelIdeal.Gen

end
-- ==== Proof.ChainPass3.lean ====
/-
  PASS 3 through the fold: from one update's exit to the next (the take, the message pallas_call, the scatter-add with
  its least and greatest entries, the update pallas_call).
-/
import proofs.«410575_j292057776280_1_alg».proof.Proof.Gen.KernelIdeal.Frame
import proofs.«410575_j292057776280_1_alg».proof.Proof.Stages
import proofs.«410575_j292057776280_1_alg».proof.Proof.RegGm5
import proofs.«410575_j292057776280_1_alg».proof.Proof.RegNorm6
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo
open Cert.KernelIdeal.Stage

variable {F : FTy → Type} [FloatOps F]
variable (m : (ℓ : Loc nD τ sig) → Buf (Elt F) ℓ) (ρ : Dev nD → PrngReg)

/-- A buffer none of a host stretch's operations writes keeps its contents: every operation's result buffer is
    told apart from it, reference by reference. -/
local macro "host_keep " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/- The reductions, the gather and the scatter-add are compared as they stand, never opened: the two sides of each
   equation below spell them with the same arguments. -/
attribute [local irreducible] Host.reduce Host.gather Host.scatterAdd

/-! ## The take: the 23 operations before the message pallas_call -/

set_option maxHeartbeats 1000000 in
/-- The taken columns: the stretch's last operation selects, column by column, between the gather of the wrapped
    indices and the fill word, under the in-range mask; each operand is the earlier operations' own term. The
    typed references' transports are identities (every reference is a literal whose type is the value's). -/
theorem W12_v40 (c : Dev nD) : W12 m ρ c (Proc.devRef .tc main_v40)
    = takeFill (W11 m ρ c (Proc.devRef .tc main_v39)) (W11 m ρ c (Proc.devRef .tc main_v2)) := by
  unfold W12
  after_results_simp
  simp only [TRef.ofBuf, TRef.toBuf]
  repeat rw [cast_eq]
  unfold takeFill gatherCols inRange wrapCol wrap
  rfl

/-- The take writes only its own intermediate values and its result. -/
theorem W12_keep (c : Dev nD) (b : Ref sig .tc) (hb : b ∈ [main_v7, main_v9, main_v2, main_v4, main_arg4, main_arg5, main_arg7]) :
    W12 m ρ c (Proc.devRef .tc b) = W11 m ρ c (Proc.devRef .tc b) := by
  simp only [List.mem_cons, List.mem_singleton, List.not_mem_nil, or_false] at hb
  rcases hb with rfl | rfl | rfl | rfl | rfl | rfl | rfl <;> host_keep hostOps5

/-! ## The message pallas_call -/

/-- Its output: the taken columns times the weight under each column. -/
theorem W13_v41 (c : Dev nD) : W13 m ρ c (Proc.devRef .tc main_v41)
    = gmArr (takeFill (W11 m ρ c (Proc.devRef .tc main_v39)) (W11 m ρ c (Proc.devRef .tc main_v2))) (W11 m ρ c (Proc.devRef .tc main_v7)) :=
  ((W13_arr m ρ c 2).trans (arr5 (V12 m ρ) c)).trans
    (congrArg₂ gmArr (W12_v40 m ρ c) (W12_keep m ρ c main_v7 (by decide)))

/-- It writes its output only: the weight row is one of its input windows (an input window's array is never written
    back), the other buffers are none of its arrays. -/
theorem W13_keep (c : Dev nD) (b : Ref sig .tc) (hb : b ∈ [main_v7, main_v9, main_v2, main_v4, main_arg4, main_arg5, main_arg7]) :
    W13 m ρ c (Proc.devRef .tc b) = W12 m ρ c (Proc.devRef .tc b) := by
  simp only [List.mem_cons, List.mem_singleton, List.not_mem_nil, or_false] at hb
  rcases hb with rfl | rfl | rfl | rfl | rfl | rfl | rfl
  · calc W13 m ρ c (Proc.devRef .tc main_v7)
      _ = (dat5 (V12 m ρ) c).arrAt 1 cfg5.N := W13_arr m ρ c 1
      _ = (dat5 (V12 m ρ) c).A 1 := Pipeline.Dat.arrAt_in _ 1 rfl _
      _ = W12 m ρ c (Proc.devRef .tc main_v7) := A_eq5 (V12 m ρ) c 1
  all_goals exact W13_of_ne m ρ c _ (by decide)

/-! ## The scatter-add with its least and greatest entries -/

/-- The aggregate: the message's columns added into the wrapped destination columns of a zero array. -/
theorem W14_v49 (c : Dev nD) : W14 m ρ c (Proc.devRef .tc main_v49)
    = aggrOf (W13 m ρ c (Proc.devRef .tc main_v41)) (W13 m ρ c (Proc.devRef .tc main_v4)) := by
  unfold W14
  after_results_simp
  unfold aggrOf wrapCol wrap
  rfl
/-- Its least entry as a [1 × 1] array. -/
theorem W14_v51 (c : Dev nD) : W14 m ρ c (Proc.devRef .tc main_v51)
    = as11 (minS (aggrOf (W13 m ρ c (Proc.devRef .tc main_v41)) (W13 m ρ c (Proc.devRef .tc main_v4)))) := by
  unfold W14
  after_results_simp
  unfold as11 minS aggrOf wrapCol wrap
  rfl
/-- Its greatest entry as a [1 × 1] array. -/
theorem W14_v53 (c : Dev nD) : W14 m ρ c (Proc.devRef .tc main_v53)
    = as11 (maxS (aggrOf (W13 m ρ c (Proc.devRef .tc main_v41)) (W13 m ρ c (Proc.devRef .tc main_v4)))) := by
  unfold W14
  after_results_simp
  unfold as11 maxS aggrOf wrapCol wrap
  rfl

/-- The stretch writes only its own values. -/
theorem W14_keep (c : Dev nD) (b : Ref sig .tc) (hb : b ∈ [main_v7, main_v9, main_v2, main_v4, main_arg4, main_arg5, main_arg7]) :
    W14 m ρ c (Proc.devRef .tc b) = W13 m ρ c (Proc.devRef .tc b) := by
  simp only [List.mem_cons, List.mem_singleton, List.not_mem_nil, or_false] at hb
  rcases hb with rfl | rfl | rfl | rfl | rfl | rfl | rfl <;> host_keep hostOps6

/-! ## The update pallas_call -/

/-- It writes its output only: the threshold row is one of its input windows, the other buffers are none of its arrays. -/
theorem W15_keep14 (c : Dev nD) (b : Ref sig .tc) (hb : b ∈ [main_v7, main_v9, main_v2, main_v4, main_arg4, main_arg5, main_arg7]) :
    W15 m ρ c (Proc.devRef .tc b) = W14 m ρ c (Proc.devRef .tc b) := by
  simp only [List.mem_cons, List.mem_singleton, List.not_mem_nil, or_false] at hb
  rcases hb with rfl | rfl | rfl | rfl | rfl | rfl | rfl
  rotate_left
  · calc W15 m ρ c (Proc.devRef .tc main_v9)
      _ = (dat6 (V14 m ρ) c).arrAt 1 cfg6.N := W15_arr m ρ c 1
      _ = (dat6 (V14 m ρ) c).A 1 := Pipeline.Dat.arrAt_in _ 1 rfl _
      _ = W14 m ρ c (Proc.devRef .tc main_v9) := A_eq6 (V14 m ρ) c 1
  all_goals exact W15_of_ne m ρ c _ (by decide)

/-- A kept buffer through the message pallas_call and the take. -/
theorem W13_keep7 (c : Dev nD) (b : Ref sig .tc) (hb : b ∈ [main_v7, main_v9, main_v2, main_v4, main_arg4, main_arg5, main_arg7]) :
    W13 m ρ c (Proc.devRef .tc b) = W11 m ρ c (Proc.devRef .tc b) :=
  (W13_keep m ρ c b hb).trans (W12_keep m ρ c b hb)

/-- The aggregate, from the buffers at the pass's start. -/
theorem W14_v49' (c : Dev nD) : W14 m ρ c (Proc.devRef .tc main_v49)
    = aggrOf (gmArr (takeFill (W11 m ρ c (Proc.devRef .tc main_v39)) (W11 m ρ c (Proc.devRef .tc main_v2))) (W11 m ρ c (Proc.devRef .tc main_v7)))
        (W11 m ρ c (Proc.devRef .tc main_v4)) :=
  (W14_v49 m ρ c).trans (congrArg₂ aggrOf (W13_v41 m ρ c) (W13_keep7 m ρ c main_v4 (by decide)))

/-- The activations after this pass, from the buffers at the pass's start. -/
theorem W15_v54 (c : Dev nD) : W15 m ρ c (Proc.devRef .tc main_v54)
    = pass (W11 m ρ c (Proc.devRef .tc main_v7)) (W11 m ρ c (Proc.devRef .tc main_v9)) (W11 m ρ c (Proc.devRef .tc main_v2)) (W11 m ρ c (Proc.devRef .tc main_v4)) (W11 m ρ c (Proc.devRef .tc main_v39)) := by
  have e34 := W14_v49' m ρ c
  have ea := congrArg₂ aggrOf (W13_v41 m ρ c) (W13_keep7 m ρ c main_v4 (by decide))
  have e36 := (W14_v51 m ρ c).trans (congrArg (fun a => as11 (minS a)) ea)
  have e38 := (W14_v53 m ρ c).trans (congrArg (fun a => as11 (maxS a)) ea)
  have e9 : W14 m ρ c (Proc.devRef .tc main_v9) = W11 m ρ c (Proc.devRef .tc main_v9) :=
    (W14_keep m ρ c main_v9 (by decide)).trans (W13_keep7 m ρ c main_v9 (by decide))
  refine ((W15_arr m ρ c 4).trans (arr6 (V14 m ρ) c)).trans ?_
  unfold pass
  exact congr (congr (congr (congrArg k2_pay1 e36) e38) e34) e9

/-- What later passes read is untouched. -/
theorem W15_keep (c : Dev nD) (b : Ref sig .tc) (hb : b ∈ [main_v7, main_v9, main_v2, main_v4, main_arg4, main_arg5, main_arg7]) :
    W15 m ρ c (Proc.devRef .tc b) = W11 m ρ c (Proc.devRef .tc b) :=
  ((W15_keep14 m ρ c b hb).trans (W14_keep m ρ c b hb)).trans (W13_keep7 m ρ c b hb)

end Cert.KernelIdeal.Gen

end
-- ==== Proof.RegGm7.lean ====
/-
  A message pallas_call (25 column blocks of [16 × 80000] and [1 × 80000]): after it the output array holds the
  gathered activations times the weight under each column.
-/
import proofs.«410575_j292057776280_1_alg».proof.Proof.Gen.KernelIdeal.Frame
import proofs.«410575_j292057776280_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Stage

variable {F : FTy → Type} [FloatOps F]
variable (V : (c : Dev nD) → (b : Ref sig .tc) → Buf (Elt F) ((c : Thread nD τ).loc b))

/-- The body's loads and its one store start at the blocks' origins, however the zeros are spelt. -/
theorem hz7 : (![0, 0] : Fin 2 → Nat) = fun _ => 0 :=
  funext fun a => match a with | ⟨0, _⟩ => rfl | ⟨1, _⟩ => rfl

/-- The weight block's one row broadcast over the 16 rows reads, at `(p, q)`, the row at `q`. -/
theorem bcast_row7 (x : Vec F S1x80000 .f32) (j : S16x80000.Idx) :
    broadcastTo S16x80000 x broadcasts_S1x80000_S16x80000 j = x (ValueIdx.ix2 (0 : Fin 1) (j 1)) := by
  refine broadcastTo_apply x broadcasts_S1x80000_S16x80000 j (ValueIdx.ix2 (0 : Fin 1) (j 1)) fun ax => ?_
  match ax with
  | ⟨0, _⟩ => rfl
  | ⟨1, _⟩ =>
    show (j 1).val = if (80000 : ℕ) = 1 then 0 else (j 1).val
    exact (if_neg (by decide)).symm

/-- The body's payload is the product of the activation block with the weight block's row under each column. -/
theorem pay7_eq (x0 : Vec F S16x80000 .f32) (x1 : Vec F S1x80000 .f32) :
    k7_pay1 x0 x1 = mulf x0 (broadcastTo S16x80000 x1 broadcasts_S1x80000_S16x80000) := by
  unfold k7_pay1
  rw [shapeCast_self, shapeCast_self]

/-- The index maps over the 25 points: the activation block sits where the output block sits; the weight block is in
    row block 0 at the output's column block; the output block at point `t` is in row block 0 and a column block
    below 25. -/
theorem idx_facts7 : ∀ t : Fin cfg7.N, win7_0.index t (0 : Fin 2) = win7_2.index t (0 : Fin 2)
    ∧ win7_0.index t (1 : Fin 2) = win7_2.index t (1 : Fin 2)
    ∧ win7_1.index t (0 : Fin 2) = 0
    ∧ win7_1.index t (1 : Fin 2) = win7_2.index t (1 : Fin 2)
    ∧ win7_2.index t (0 : Fin 2) = 0 ∧ win7_2.index t (1 : Fin 2) ≤ 24 :=
  (by decide +kernel : ∀ t : Fin grid7.N, _)

/-- Every one of the 25 column blocks is some point's. -/
theorem idx_onto7 : ∀ q : Fin 25, ∃ t : Fin cfg7.N, win7_2.index t = ![0, q.val] :=
  (by decide +kernel : ∀ q : Fin 25, ∃ t : Fin grid7.N, win7_2.index t = ![0, q.val])

/-- WHAT POINT `t` WRITES BACK is block `t` of `gmArr` of the gathered activations and the weight row as the
    region finds them. -/
theorem flushed7_eq (c : Dev nD) (t : Fin cfg7.N) :
    (dat7 V c).flushed 2 t = ((cfg7.win 2).blk t).view.read (Elt F) (gmArr (V c main_v55) (V c main_v7)) := by
  show (cfg7.win 2).cut (grid7.coords t) ((dat7 V c).after 2 t) = _
  rw [after7_2]
  unfold out7_2
  rw [View.canon_unit_zero hz7]
  simp only [View.ld_unit_zero (S := S16x80000) hz7, View.ld_unit_zero (S := S1x80000) hz7]
  rw [pay7_eq]
  obtain ⟨e0, e1, e2, e3, e4, e5⟩ := idx_facts7 t
  funext j
  show FloatOps.mulf (V c main_v55 (((cfg7.win 0).blk t).view.emb j))
        (broadcastTo S16x80000 (iblk7 V c 1 t) broadcasts_S1x80000_S16x80000 j)
     = FloatOps.mulf (V c main_v55 (((cfg7.win 2).blk t).view.emb j))
        (V c main_v7 (ValueIdx.ix2 (0 : Fin 1) ((((cfg7.win 2).blk t).view.emb j) 1 : Fin 2000000)))
  rw [bcast_row7]
  show FloatOps.mulf (V c main_v55 (((cfg7.win 0).blk t).view.emb j))
        (V c main_v7 (((cfg7.win 1).blk t).view.emb (ValueIdx.ix2 (0 : Fin 1) (j 1))))
     = FloatOps.mulf (V c main_v55 (((cfg7.win 2).blk t).view.emb j))
        (V c main_v7 (ValueIdx.ix2 (0 : Fin 1) ((((cfg7.win 2).blk t).view.emb j) 1 : Fin 2000000)))
  have h0 : ((cfg7.win 0).blk t).view.emb j = ((cfg7.win 2).blk t).view.emb j := by
    funext a; apply Fin.ext
    match a with
    | ⟨0, _⟩ => show win7_0.index t (0 : Fin 2) * 16 + 1 * (j 0).val = win7_2.index t (0 : Fin 2) * 16 + 1 * (j 0).val; omega
    | ⟨1, _⟩ => show win7_0.index t (1 : Fin 2) * 80000 + 1 * (j 1).val = win7_2.index t (1 : Fin 2) * 80000 + 1 * (j 1).val; omega
  have h1 : ((cfg7.win 1).blk t).view.emb (ValueIdx.ix2 (0 : Fin 1) (j 1))
      = ValueIdx.ix2 (0 : Fin 1) ((((cfg7.win 2).blk t).view.emb j) 1 : Fin 2000000) := by
    funext a; apply Fin.ext
    match a with
    | ⟨0, _⟩ => show win7_1.index t (0 : Fin 2) * 1 + 1 * 0 = 0; omega
    | ⟨1, _⟩ => show win7_1.index t (1 : Fin 2) * 80000 + 1 * (j 1).val = win7_2.index t (1 : Fin 2) * 80000 + 1 * (j 1).val; omega
  rw [h0, h1]
  rfl

/-- An index of the array is in point `t`'s block iff each coordinate is in the block's range on its axis. -/
theorem mem_blk7 (t : Fin cfg7.N) (i : S16x2000000.Idx) :
    i ∈ ((cfg7.win 2).blk t).view.set ↔ ∀ a : Fin 2, win7_2.index t a * S16x80000.size a ≤ (i a).val ∧ (i a).val < win7_2.index t a * S16x80000.size a + S16x80000.size a := by
  show i ∈ ((View.whole main_v56).slice (win7_2.rect t)).set ↔ _
  rw [View.set_slice_whole, Rect.mem_set_unit]
  exact Iff.rfl

/-- The 25 blocks of 80000 columns cover the array: column `q` is in the block of point `q / 80000`. -/
theorem cover7 (i : S16x2000000.Idx) : ∃ t : Fin cfg7.N, (cfg7.win 2).flush t = true ∧ i ∈ ((cfg7.win 2).blk t).view.set := by
  have hi0 : (i 0).val < 16 := (i 0).isLt
  have hi1 : (i 1).val < 2000000 := (i 1).isLt
  obtain ⟨t, ht⟩ := idx_onto7 ⟨(i 1).val / 80000, by omega⟩
  have q0 : win7_2.index t (0 : Fin 2) = 0 := congrFun ht 0
  have q1 : win7_2.index t (1 : Fin 2) = (i 1).val / 80000 := congrFun ht 1
  refine ⟨t, flush7_2 t, ?_⟩
  rw [mem_blk7]
  intro a
  match a with
  | ⟨0, _⟩ => show win7_2.index t (0 : Fin 2) * 16 ≤ (i 0).val ∧ (i 0).val < win7_2.index t (0 : Fin 2) * 16 + 16; omega
  | ⟨1, _⟩ => show win7_2.index t (1 : Fin 2) * 80000 ≤ (i 1).val ∧ (i 1).val < win7_2.index t (1 : Fin 2) * 80000 + 80000; omega

/-- After the region the message array is `gmArr` of the gathered activations and the weight row as the region found them. -/
theorem arr7 (c : Dev nD) : (dat7 (F := F) V c).arrAt 2 cfg7.N = gmArr (V c main_v55) (V c main_v7) :=
  (dat7 V c).arrAt_eq_of_cover 2 (gmArr (V c main_v55) (V c main_v7)) (fun t _ => flushed7_eq V c t) cover7

end Cert.KernelIdeal.Gen

end
-- ==== Proof.RegNorm8.lean ====
/-
  An update pallas_call (one grid point, every window its whole array): after it the output array is the body's
  payload of the four input arrays.

  The grid has one point and every window's block index there is (0, 0), so a window's block is its whole array: an
  element (y0, y1) of the block sits in the array at (0·size + y0, 0·size + y1) = (y0, y1). Hence the body reads the four
  arrays themselves, what it writes back is its payload of them read through the output's block, and that one block
  covers every index of the output array.
-/
import proofs.«410575_j292057776280_1_alg».proof.Proof.Gen.KernelIdeal.Frame
import proofs.«410575_j292057776280_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Stage

variable {F : FTy → Type} [FloatOps F]
variable (V : (c : Dev nD) → (b : Ref sig .tc) → Buf (Elt F) ((c : Thread nD τ).loc b))

/-- The zero offsets of a whole rectangle, however spelt. -/
theorem norm8_hz : (![0, 0] : Fin 2 → Nat) = fun _ => 0 :=
  funext fun a => match a with | ⟨0, _⟩ => rfl | ⟨1, _⟩ => rfl

/-- The printed index maps, decided over the one-point grid: every window's block index is 0 on both axes. -/
theorem norm8_idx : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Window 0's block is its whole array (the aggregate): block element (y0, y1) is array element (y0, y1). -/
theorem norm8_blk0 (c : Dev nD) (t : Fin cfg8.N) : iblk8 V c 0 t = V c main_v64 := by
  obtain ⟨e0, e1, -⟩ := norm8_idx t
  funext y
  show V c main_v64 (((cfg8.win 0).blk t).view.emb y) = V c main_v64 y
  refine congrArg (V c main_v64) ?_
  funext a; apply Fin.ext
  match a with
  | ⟨0, _⟩ => show win8_0.index t (0 : Fin 2) * 16 + 1 * (y 0).val = (y 0).val; omega
  | ⟨1, _⟩ => show win8_0.index t (1 : Fin 2) * 100000 + 1 * (y 1).val = (y 1).val; omega

/-- Window 1's block is its whole array (the threshold row). -/
theorem norm8_blk1 (c : Dev nD) (t : Fin cfg8.N) : iblk8 V c 1 t = V c main_v9 := by
  obtain ⟨-, -, e0, e1, -⟩ := norm8_idx t
  funext y
  show V c main_v9 (((cfg8.win 1).blk t).view.emb y) = V c main_v9 y
  refine congrArg (V c main_v9) ?_
  funext a; apply Fin.ext
  match a with
  | ⟨0, _⟩ => show win8_1.index t (0 : Fin 2) * 1 + 1 * (y 0).val = (y 0).val; omega
  | ⟨1, _⟩ => show win8_1.index t (1 : Fin 2) * 100000 + 1 * (y 1).val = (y 1).val; omega

/-- Window 2's block is its whole array (the least entry, [1 × 1]). -/
theorem norm8_blk2 (c : Dev nD) (t : Fin cfg8.N) : iblk8 V c 2 t = V c main_v66 := by
  obtain ⟨-, -, -, -, e0, e1, -⟩ := norm8_idx t
  funext y
  show V c main_v66 (((cfg8.win 2).blk t).view.emb y) = V c main_v66 y
  refine congrArg (V c main_v66) ?_
  funext a; apply Fin.ext
  match a with
  | ⟨0, _⟩ => show win8_2.index t (0 : Fin 2) * 1 + 1 * (y 0).val = (y 0).val; omega
  | ⟨1, _⟩ => show win8_2.index t (1 : Fin 2) * 1 + 1 * (y 1).val = (y 1).val; omega

/-- Window 3's block is its whole array (the greatest entry, [1 × 1]). -/
theorem norm8_blk3 (c : Dev nD) (t : Fin cfg8.N) : iblk8 V c 3 t = V c main_v68 := by
  obtain ⟨-, -, -, -, -, -, e0, e1, -⟩ := norm8_idx t
  funext y
  show V c main_v68 (((cfg8.win 3).blk t).view.emb y) = V c main_v68 y
  refine congrArg (V c main_v68) ?_
  funext a; apply Fin.ext
  match a with
  | ⟨0, _⟩ => show win8_3.index t (0 : Fin 2) * 1 + 1 * (y 0).val = (y 0).val; omega
  | ⟨1, _⟩ => show win8_3.index t (1 : Fin 2) * 1 + 1 * (y 1).val = (y 1).val; omega

/-- The part of a whole-block contents the write-back moves is those contents read through the output's block: both are
    the contents at (j0, j1), the block sitting at offset (0, 0) of the array. -/
theorem norm8_cut_read (G : Vec F S16x100000 .f32) (t : Fin cfg8.N) :
    (cfg8.win 4).cut (grid8.coords t) G = ((cfg8.win 4).blk t).view.read (Elt F) G := by
  obtain ⟨-, -, -, -, -, -, -, -, e0, e1⟩ := norm8_idx t
  funext j
  show G ((cfg8.win 4).xinj (grid8.coords t) j) = G (((cfg8.win 4).blk t).view.emb j)
  refine congrArg G ?_
  funext a; apply Fin.ext
  match a with
  | ⟨0, _⟩ => show (j 0).val = win8_4.index t (0 : Fin 2) * 16 + 1 * (j 0).val; omega
  | ⟨1, _⟩ => show (j 1).val = win8_4.index t (1 : Fin 2) * 100000 + 1 * (j 1).val; omega

/-- This region's body computes the update payload. -/
theorem norm8_pay_eq (v0 : Vec F S1x1 .f32) (v2 : Vec F S1x1 .f32) (v5 : Vec F S16x100000 .f32) (v11 : Vec F S1x100000 .f32) :
    Gen.k8_pay1 v0 v2 v5 v11 = k2_pay1 v0 v2 v5 v11 := rfl

/-- WHAT THE POINT WRITES BACK: the payload of the four whole arrays, read through the output's block. -/
theorem norm8_flushed (c : Dev nD) (t : Fin cfg8.N) :
    (dat8 V c).flushed 4 t
      = ((cfg8.win 4).blk t).view.read (Elt F) (Gen.k8_pay1 (V c main_v66) (V c main_v68) (V c main_v64) (V c main_v9)) := by
  show (cfg8.win 4).cut (grid8.coords t) ((dat8 V c).after 4 t) = _
  rw [after8_4]
  unfold out8_4
  rw [View.canon_unit_zero norm8_hz]
  simp only [View.ld_unit_zero (S := S16x100000) norm8_hz, View.ld_unit_zero (S := S1x100000) norm8_hz,
    View.ld_unit_zero (S := S1x1) norm8_hz]
  rw [norm8_blk0, norm8_blk1, norm8_blk2, norm8_blk3]
  exact norm8_cut_read _ t

/-- Every index of the output array is in the one point's block, which is written back. -/
theorem norm8_cover (i : S16x100000.Idx) :
    ∃ t : Fin cfg8.N, (cfg8.win 4).flush t = true ∧ i ∈ ((cfg8.win 4).blk t).view.set := by
  refine ⟨t8_0, flush8_4 t8_0, ?_⟩
  obtain ⟨-, -, -, -, -, -, -, -, e0, e1⟩ := norm8_idx t8_0
  show i ∈ ((View.whole main_v69).slice (win8_4.rect t8_0)).set
  rw [View.set_slice_whole, Rect.mem_set_unit]
  intro a
  match a with
  | ⟨0, _⟩ =>
    show win8_4.index t8_0 (0 : Fin 2) * 16 ≤ (i 0).val ∧ (i 0).val < win8_4.index t8_0 (0 : Fin 2) * 16 + 16
    have hi : (i 0).val < 16 := (i 0).isLt
    omega
  | ⟨1, _⟩ =>
    show win8_4.index t8_0 (1 : Fin 2) * 100000 ≤ (i 1).val ∧ (i 1).val < win8_4.index t8_0 (1 : Fin 2) * 100000 + 100000
    have hi : (i 1).val < 100000 := (i 1).isLt
    omega

/-- After the region the new activations are the body's payload of the whole arrays as the region found them. -/
theorem arr8 (c : Dev nD) : (dat8 (F := F) V c).arrAt 4 cfg8.N = k2_pay1 (V c main_v66) (V c main_v68) (V c main_v64) (V c main_v9) := by
  exact ((dat8 V c).arrAt_eq_of_cover 4 (Gen.k8_pay1 (V c main_v66) (V c main_v68) (V c main_v64) (V c main_v9))
    (fun t _ => norm8_flushed V c t) (fun i => norm8_cover i)).trans (norm8_pay_eq _ _ _ _)

end Cert.KernelIdeal.Gen

end
-- ==== Proof.ChainPass4.lean ====
/-
  PASS 4 through the fold: from one update's exit to the next (the take, the message pallas_call, the scatter-add with
  its least and greatest entries, the update pallas_call).
-/
import proofs.«410575_j292057776280_1_alg».proof.Proof.Gen.KernelIdeal.Frame
import proofs.«410575_j292057776280_1_alg».proof.Proof.Stages
import proofs.«410575_j292057776280_1_alg».proof.Proof.RegGm7
import proofs.«410575_j292057776280_1_alg».proof.Proof.RegNorm8
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo
open Cert.KernelIdeal.Stage

variable {F : FTy → Type} [FloatOps F]
variable (m : (ℓ : Loc nD τ sig) → Buf (Elt F) ℓ) (ρ : Dev nD → PrngReg)

/-- A buffer none of a host stretch's operations writes keeps its contents: every operation's result buffer is
    told apart from it, reference by reference. -/
local macro "host_keep " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/- The reductions, the gather and the scatter-add are compared as they stand, never opened: the two sides of each
   equation below spell them with the same arguments. -/
attribute [local irreducible] Host.reduce Host.gather Host.scatterAdd

/-! ## The take: the 23 operations before the message pallas_call -/

set_option maxHeartbeats 1000000 in
/-- The taken columns: the stretch's last operation selects, column by column, between the gather of the wrapped
    indices and the fill word, under the in-range mask; each operand is the earlier operations' own term. The
    typed references' transports are identities (every reference is a literal whose type is the value's). -/
theorem W16_v55 (c : Dev nD) : W16 m ρ c (Proc.devRef .tc main_v55)
    = takeFill (W15 m ρ c (Proc.devRef .tc main_v54)) (W15 m ρ c (Proc.devRef .tc main_v2)) := by
  unfold W16
  after_results_simp
  simp only [TRef.ofBuf, TRef.toBuf]
  repeat rw [cast_eq]
  unfold takeFill gatherCols inRange wrapCol wrap
  rfl

/-- The take writes only its own intermediate values and its result. -/
theorem W16_keep (c : Dev nD) (b : Ref sig .tc) (hb : b ∈ [main_v7, main_v9, main_v2, main_v4, main_arg4, main_arg5, main_arg7]) :
    W16 m ρ c (Proc.devRef .tc b) = W15 m ρ c (Proc.devRef .tc b) := by
  simp only [List.mem_cons, List.mem_singleton, List.not_mem_nil, or_false] at hb
  rcases hb with rfl | rfl | rfl | rfl | rfl | rfl | rfl <;> host_keep hostOps7

/-! ## The message pallas_call -/

/-- Its output: the taken columns times the weight under each column. -/
theorem W17_v56 (c : Dev nD) : W17 m ρ c (Proc.devRef .tc main_v56)
    = gmArr (takeFill (W15 m ρ c (Proc.devRef .tc main_v54)) (W15 m ρ c (Proc.devRef .tc main_v2))) (W15 m ρ c (Proc.devRef .tc main_v7)) :=
  ((W17_arr m ρ c 2).trans (arr7 (V16 m ρ) c)).trans
    (congrArg₂ gmArr (W16_v55 m ρ c) (W16_keep m ρ c main_v7 (by decide)))

/-- It writes its output only: the weight row is one of its input windows (an input window's array is never written
    back), the other buffers are none of its arrays. -/
theorem W17_keep (c : Dev nD) (b : Ref sig .tc) (hb : b ∈ [main_v7, main_v9, main_v2, main_v4, main_arg4, main_arg5, main_arg7]) :
    W17 m ρ c (Proc.devRef .tc b) = W16 m ρ c (Proc.devRef .tc b) := by
  simp only [List.mem_cons, List.mem_singleton, List.not_mem_nil, or_false] at hb
  rcases hb with rfl | rfl | rfl | rfl | rfl | rfl | rfl
  · calc W17 m ρ c (Proc.devRef .tc main_v7)
      _ = (dat7 (V16 m ρ) c).arrAt 1 cfg7.N := W17_arr m ρ c 1
      _ = (dat7 (V16 m ρ) c).A 1 := Pipeline.Dat.arrAt_in _ 1 rfl _
      _ = W16 m ρ c (Proc.devRef .tc main_v7) := A_eq7 (V16 m ρ) c 1
  all_goals exact W17_of_ne m ρ c _ (by decide)

/-! ## The scatter-add with its least and greatest entries -/

/-- The aggregate: the message's columns added into the wrapped destination columns of a zero array. -/
theorem W18_v64 (c : Dev nD) : W18 m ρ c (Proc.devRef .tc main_v64)
    = aggrOf (W17 m ρ c (Proc.devRef .tc main_v56)) (W17 m ρ c (Proc.devRef .tc main_v4)) := by
  unfold W18
  after_results_simp
  unfold aggrOf wrapCol wrap
  rfl
/-- Its least entry as a [1 × 1] array. -/
theorem W18_v66 (c : Dev nD) : W18 m ρ c (Proc.devRef .tc main_v66)
    = as11 (minS (aggrOf (W17 m ρ c (Proc.devRef .tc main_v56)) (W17 m ρ c (Proc.devRef .tc main_v4)))) := by
  unfold W18
  after_results_simp
  unfold as11 minS aggrOf wrapCol wrap
  rfl
/-- Its greatest entry as a [1 × 1] array. -/
theorem W18_v68 (c : Dev nD) : W18 m ρ c (Proc.devRef .tc main_v68)
    = as11 (maxS (aggrOf (W17 m ρ c (Proc.devRef .tc main_v56)) (W17 m ρ c (Proc.devRef .tc main_v4)))) := by
  unfold W18
  after_results_simp
  unfold as11 maxS aggrOf wrapCol wrap
  rfl

/-- The stretch writes only its own values. -/
theorem W18_keep (c : Dev nD) (b : Ref sig .tc) (hb : b ∈ [main_v7, main_v9, main_v2, main_v4, main_arg4, main_arg5, main_arg7]) :
    W18 m ρ c (Proc.devRef .tc b) = W17 m ρ c (Proc.devRef .tc b) := by
  simp only [List.mem_cons, List.mem_singleton, List.not_mem_nil, or_false] at hb
  rcases hb with rfl | rfl | rfl | rfl | rfl | rfl | rfl <;> host_keep hostOps8

/-! ## The update pallas_call -/

/-- It writes its output only: the threshold row is one of its input windows, the other buffers are none of its arrays. -/
theorem W19_keep18 (c : Dev nD) (b : Ref sig .tc) (hb : b ∈ [main_v7, main_v9, main_v2, main_v4, main_arg4, main_arg5, main_arg7]) :
    W19 m ρ c (Proc.devRef .tc b) = W18 m ρ c (Proc.devRef .tc b) := by
  simp only [List.mem_cons, List.mem_singleton, List.not_mem_nil, or_false] at hb
  rcases hb with rfl | rfl | rfl | rfl | rfl | rfl | rfl
  rotate_left
  · calc W19 m ρ c (Proc.devRef .tc main_v9)
      _ = (dat8 (V18 m ρ) c).arrAt 1 cfg8.N := W19_arr m ρ c 1
      _ = (dat8 (V18 m ρ) c).A 1 := Pipeline.Dat.arrAt_in _ 1 rfl _
      _ = W18 m ρ c (Proc.devRef .tc main_v9) := A_eq8 (V18 m ρ) c 1
  all_goals exact W19_of_ne m ρ c _ (by decide)

/-- A kept buffer through the message pallas_call and the take. -/
theorem W17_keep7 (c : Dev nD) (b : Ref sig .tc) (hb : b ∈ [main_v7, main_v9, main_v2, main_v4, main_arg4, main_arg5, main_arg7]) :
    W17 m ρ c (Proc.devRef .tc b) = W15 m ρ c (Proc.devRef .tc b) :=
  (W17_keep m ρ c b hb).trans (W16_keep m ρ c b hb)

/-- The aggregate, from the buffers at the pass's start. -/
theorem W18_v64' (c : Dev nD) : W18 m ρ c (Proc.devRef .tc main_v64)
    = aggrOf (gmArr (takeFill (W15 m ρ c (Proc.devRef .tc main_v54)) (W15 m ρ c (Proc.devRef .tc main_v2))) (W15 m ρ c (Proc.devRef .tc main_v7)))
        (W15 m ρ c (Proc.devRef .tc main_v4)) :=
  (W18_v64 m ρ c).trans (congrArg₂ aggrOf (W17_v56 m ρ c) (W17_keep7 m ρ c main_v4 (by decide)))

/-- The activations after this pass, from the buffers at the pass's start. -/
theorem W19_v69 (c : Dev nD) : W19 m ρ c (Proc.devRef .tc main_v69)
    = pass (W15 m ρ c (Proc.devRef .tc main_v7)) (W15 m ρ c (Proc.devRef .tc main_v9)) (W15 m ρ c (Proc.devRef .tc main_v2)) (W15 m ρ c (Proc.devRef .tc main_v4)) (W15 m ρ c (Proc.devRef .tc main_v54)) := by
  have e34 := W18_v64' m ρ c
  have ea := congrArg₂ aggrOf (W17_v56 m ρ c) (W17_keep7 m ρ c main_v4 (by decide))
  have e36 := (W18_v66 m ρ c).trans (congrArg (fun a => as11 (minS a)) ea)
  have e38 := (W18_v68 m ρ c).trans (congrArg (fun a => as11 (maxS a)) ea)
  have e9 : W18 m ρ c (Proc.devRef .tc main_v9) = W15 m ρ c (Proc.devRef .tc main_v9) :=
    (W18_keep m ρ c main_v9 (by decide)).trans (W17_keep7 m ρ c main_v9 (by decide))
  refine ((W19_arr m ρ c 4).trans (arr8 (V18 m ρ) c)).trans ?_
  unfold pass
  exact congr (congr (congr (congrArg k2_pay1 e36) e38) e34) e9

/-- What later passes read is untouched. -/
theorem W19_keep (c : Dev nD) (b : Ref sig .tc) (hb : b ∈ [main_v7, main_v9, main_v2, main_v4, main_arg4, main_arg5, main_arg7]) :
    W19 m ρ c (Proc.devRef .tc b) = W15 m ρ c (Proc.devRef .tc b) :=
  ((W19_keep18 m ρ c b hb).trans (W18_keep m ρ c b hb)).trans (W17_keep7 m ρ c b hb)

end Cert.KernelIdeal.Gen

end
-- ==== Proof.RegFc.lean ====
/-
  The last pallas_call (one grid point, every window its whole array): after it the result array is the body's
  payload — the matrix product plus the bias row — of the three input arrays.

  The grid has one point and every window's block index there is (0, 0), so a window's block is its whole array: an
  element (y0, y1) of the block sits in the array at (0·size + y0, 0·size + y1) = (y0, y1). Hence the body reads the three
  arrays themselves, what it writes back is its payload of them read through the output's block, and that one block
  covers every index of the result array.
-/
import proofs.«410575_j292057776280_1_alg».proof.Proof.Gen.KernelIdeal.Frame
import proofs.«410575_j292057776280_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Stage

variable {F : FTy → Type} [FloatOps F]
variable (V : (c : Dev nD) → (b : Ref sig .tc) → Buf (Elt F) ((c : Thread nD τ).loc b))

/-- The zero offsets of a whole rectangle, however spelt. -/
theorem fc9_hz : (![0, 0] : Fin 2 → Nat) = fun _ => 0 :=
  funext fun a => match a with | ⟨0, _⟩ => rfl | ⟨1, _⟩ => rfl

/-- The printed index maps, decided over the one-point grid: every window's block index is 0 on both axes. -/
theorem fc9_idx : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

/-- Window 0's block is its whole array (the 512 taken columns): block element (y0, y1) is array element (y0, y1). -/
theorem fc9_blk0 (c : Dev nD) (t : Fin cfg9.N) : iblk9 V c 0 t = V c main_v70 := by
  obtain ⟨e0, e1, -⟩ := fc9_idx t
  funext y
  show V c main_v70 (((cfg9.win 0).blk t).view.emb y) = V c main_v70 y
  refine congrArg (V c main_v70) ?_
  funext a; apply Fin.ext
  match a with
  | ⟨0, _⟩ => show win9_0.index t (0 : Fin 2) * 16 + 1 * (y 0).val = (y 0).val; omega
  | ⟨1, _⟩ => show win9_0.index t (1 : Fin 2) * 512 + 1 * (y 1).val = (y 1).val; omega

/-- Window 1's block is its whole array (the transposed weights). -/
theorem fc9_blk1 (c : Dev nD) (t : Fin cfg9.N) : iblk9 V c 1 t = V c main_v71 := by
  obtain ⟨-, -, e0, e1, -⟩ := fc9_idx t
  funext y
  show V c main_v71 (((cfg9.win 1).blk t).view.emb y) = V c main_v71 y
  refine congrArg (V c main_v71) ?_
  funext a; apply Fin.ext
  match a with
  | ⟨0, _⟩ => show win9_1.index t (0 : Fin 2) * 512 + 1 * (y 0).val = (y 0).val; omega
  | ⟨1, _⟩ => show win9_1.index t (1 : Fin 2) * 10 + 1 * (y 1).val = (y 1).val; omega

/-- Window 2's block is its whole array (the bias row). -/
theorem fc9_blk2 (c : Dev nD) (t : Fin cfg9.N) : iblk9 V c 2 t = V c main_v72 := by
  obtain ⟨-, -, -, -, e0, e1, -⟩ := fc9_idx t
  funext y
  show V c main_v72 (((cfg9.win 2).blk t).view.emb y) = V c main_v72 y
  refine congrArg (V c main_v72) ?_
  funext a; apply Fin.ext
  match a with
  | ⟨0, _⟩ => show win9_2.index t (0 : Fin 2) * 1 + 1 * (y 0).val = (y 0).val; omega
  | ⟨1, _⟩ => show win9_2.index t (1 : Fin 2) * 10 + 1 * (y 1).val = (y 1).val; omega

/-- The part of a whole-block contents the write-back moves is those contents read through the output's block: both are
    the contents at (j0, j1), the block sitting at offset (0, 0) of the array. -/
theorem fc9_cut_read (G : Vec F S16x10 .f32) (t : Fin cfg9.N) :
    (cfg9.win 3).cut (grid9.coords t) G = ((cfg9.win 3).blk t).view.read (Elt F) G := by
  obtain ⟨-, -, -, -, -, -, e0, e1⟩ := fc9_idx t
  funext j
  show G ((cfg9.win 3).xinj (grid9.coords t) j) = G (((cfg9.win 3).blk t).view.emb j)
  refine congrArg G ?_
  funext a; apply Fin.ext
  match a with
  | ⟨0, _⟩ => show (j 0).val = win9_3.index t (0 : Fin 2) * 16 + 1 * (j 0).val; omega
  | ⟨1, _⟩ => show (j 1).val = win9_3.index t (1 : Fin 2) * 10 + 1 * (j 1).val; omega

/-- WHAT THE POINT WRITES BACK: the payload of the three whole arrays, read through the output's block. -/
theorem fc9_flushed (c : Dev nD) (t : Fin cfg9.N) :
    (dat9 V c).flushed 3 t
      = ((cfg9.win 3).blk t).view.read (Elt F) (k9_pay1 (V c main_v70) (V c main_v71) (V c main_v72)) := by
  show (cfg9.win 3).cut (grid9.coords t) ((dat9 V c).after 3 t) = _
  rw [after9_3]
  unfold out9_3
  rw [View.canon_unit_zero fc9_hz]
  simp only [View.ld_unit_zero (S := S16x512) fc9_hz, View.ld_unit_zero (S := S512x10) fc9_hz,
    View.ld_unit_zero (S := S1x10) fc9_hz]
  rw [fc9_blk0, fc9_blk1, fc9_blk2]
  exact fc9_cut_read _ t

/-- Every index of the result array is in the one point's block, which is written back. -/
theorem fc9_cover (i : S16x10.Idx) :
    ∃ t : Fin cfg9.N, (cfg9.win 3).flush t = true ∧ i ∈ ((cfg9.win 3).blk t).view.set := by
  refine ⟨t9_0, flush9_3 t9_0, ?_⟩
  obtain ⟨-, -, -, -, -, -, e0, e1⟩ := fc9_idx t9_0
  show i ∈ ((View.whole main_v73).slice (win9_3.rect t9_0)).set
  rw [View.set_slice_whole, Rect.mem_set_unit]
  intro a
  match a with
  | ⟨0, _⟩ =>
    show win9_3.index t9_0 (0 : Fin 2) * 16 ≤ (i 0).val ∧ (i 0).val < win9_3.index t9_0 (0 : Fin 2) * 16 + 16
    have hi : (i 0).val < 16 := (i 0).isLt
    omega
  | ⟨1, _⟩ =>
    show win9_3.index t9_0 (1 : Fin 2) * 10 ≤ (i 1).val ∧ (i 1).val < win9_3.index t9_0 (1 : Fin 2) * 10 + 10
    have hi : (i 1).val < 10 := (i 1).isLt
    omega

/-- After the region the result array is the body's payload of the whole arrays as the region found them. -/
theorem arr9 (c : Dev nD) : (dat9 (F := F) V c).arrAt 3 cfg9.N = k9_pay1 (V c main_v70) (V c main_v71) (V c main_v72) := by
  exact (dat9 V c).arrAt_eq_of_cover 3 (k9_pay1 (V c main_v70) (V c main_v71) (V c main_v72))
    (fun t _ => fc9_flushed V c t) (fun i => fc9_cover i)

end Cert.KernelIdeal.Gen

end
-- ==== Proof.ChainTail.lean ====
/-
  THE FOLD'S LAST STEPS: the take of the 512 decision columns, the transposed weights and the bias row, and the last pallas_call.
-/
import proofs.«410575_j292057776280_1_alg».proof.Proof.Gen.KernelIdeal.Frame
import proofs.«410575_j292057776280_1_alg».proof.Proof.Stages
import proofs.«410575_j292057776280_1_alg».proof.Proof.RegFc
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo
open Cert.KernelIdeal.Stage

variable {F : FTy → Type} [FloatOps F]
variable (m : (ℓ : Loc nD τ sig) → Buf (Elt F) ℓ) (ρ : Dev nD → PrngReg)

/-- The transposed weights, from the weights after the fourth pass. -/
theorem W21_v71 (c : Dev nD) : W21 m ρ c (Proc.devRef .tc main_v71) = fcwT (W19 m ρ c (Proc.devRef .tc main_arg4)) := by
  show StableHlo.after hostOps9_1 (W20 m ρ c) (Proc.devRef .tc main_v71) = _
  after_results
  rfl

/-- The bias row. -/
theorem W21_v72 (c : Dev nD) : W21 m ρ c (Proc.devRef .tc main_v72) = fcbRow (W19 m ρ c (Proc.devRef .tc main_arg5)) := by
  show StableHlo.after hostOps9_1 (W20 m ρ c) (Proc.devRef .tc main_v72) = _
  after_results
  rfl

/-- The taken columns: the 23 operations of the take, read back, are the filled take of the activations after the
    fourth pass at the decision indices. -/
theorem W20_v70 (c : Dev nD) : W20 m ρ c (Proc.devRef .tc main_v70)
    = takeFill512 (W19 m ρ c (Proc.devRef .tc main_v69)) (W19 m ρ c (Proc.devRef .tc main_arg7)) := by
  show StableHlo.after hostOps9 (W19 m ρ c) (no_index (Proc.devRef .tc main_v70)) = _
  after_results_simp
  simp only [StableHlo.TRef.ofBuf, StableHlo.TRef.toBuf, cast_cast, cast_eq]
  unfold takeFill512 inRange512 gatherCols512 wrapCol512 wrap512
  rfl

/-- The two operations after the take leave the taken columns as they are. -/
theorem W21_v70 (c : Dev nD) : W21 m ρ c (Proc.devRef .tc main_v70)
    = takeFill512 (W19 m ρ c (Proc.devRef .tc main_v69)) (W19 m ρ c (Proc.devRef .tc main_arg7)) := by
  rw [← W20_v70 m ρ c]
  show StableHlo.after hostOps9_1 (W20 m ρ c) (Proc.devRef .tc main_v70) = _
  simp only [StableHlo.after_cons, StableHlo.after_nil]
  rw [StableHlo.reshape_result_ne, StableHlo.unary_result_ne]
  all_goals decide

/-- The result array, from the buffers after the fourth pass. -/
theorem W22_v73 (c : Dev nD) : W22 m ρ c (Proc.devRef .tc main_v73)
    = k9_pay1 (takeFill512 (W19 m ρ c (Proc.devRef .tc main_v69)) (W19 m ρ c (Proc.devRef .tc main_arg7))) (fcwT (W19 m ρ c (Proc.devRef .tc main_arg4))) (fcbRow (W19 m ρ c (Proc.devRef .tc main_arg5))) := by
  have h := W22_arr m ρ c 3
  rw [arr9 (V21 m ρ) c] at h
  rw [← W21_v70 m ρ c, ← W21_v71 m ρ c, ← W21_v72 m ρ c]
  exact h

end Cert.KernelIdeal.Gen

end
-- ==== Proof.ChainAll.lean ====
/-
  THE WHOLE FOLD: the result buffer at the last boundary is the program's function `finalK` of the launch memory's eight argument arrays — the head, the four passes and the tail composed.
-/
import proofs.«410575_j292057776280_1_alg».proof.Proof.Gen.KernelIdeal.Frame
import proofs.«410575_j292057776280_1_alg».proof.Proof.Stages
import proofs.«410575_j292057776280_1_alg».proof.Proof.ChainHead
import proofs.«410575_j292057776280_1_alg».proof.Proof.ChainPass1
import proofs.«410575_j292057776280_1_alg».proof.Proof.ChainPass2
import proofs.«410575_j292057776280_1_alg».proof.Proof.ChainPass3
import proofs.«410575_j292057776280_1_alg».proof.Proof.ChainPass4
import proofs.«410575_j292057776280_1_alg».proof.Proof.ChainTail
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo
open Cert.KernelIdeal.Stage

variable {F : FTy → Type} [FloatOps F]
variable (m : (ℓ : Loc nD τ sig) → Buf (Elt F) ℓ) (ρ : Dev nD → PrngReg)

/-- The weight row, the two index rows and the three arguments read at the end keep, through all four passes, what
    they held after the weight row's pallas_call. -/
theorem W19_to_W2 (c : Dev nD) :
    W19 m ρ c (Proc.devRef .tc main_v7) = W2 m ρ c (Proc.devRef .tc main_v7)
    ∧     W19 m ρ c (Proc.devRef .tc main_v2) = W2 m ρ c (Proc.devRef .tc main_v2)
    ∧     W19 m ρ c (Proc.devRef .tc main_v4) = W2 m ρ c (Proc.devRef .tc main_v4)
    ∧     W19 m ρ c (Proc.devRef .tc main_arg4) = W2 m ρ c (Proc.devRef .tc main_arg4)
    ∧     W19 m ρ c (Proc.devRef .tc main_arg5) = W2 m ρ c (Proc.devRef .tc main_arg5)
    ∧     W19 m ρ c (Proc.devRef .tc main_arg7) = W2 m ρ c (Proc.devRef .tc main_arg7) := by
  refine ⟨?_, ?_, ?_, ?_, ?_, ?_⟩
  · rw [W19_keep m ρ c main_v7 (by decide), W15_keep m ρ c main_v7 (by decide), W11_keep m ρ c main_v7 (by decide), W7_keep m ρ c main_v7 (by decide)]
  · rw [W19_keep m ρ c main_v2 (by decide), W15_keep m ρ c main_v2 (by decide), W11_keep m ρ c main_v2 (by decide), W7_keep m ρ c main_v2 (by decide)]
  · rw [W19_keep m ρ c main_v4 (by decide), W15_keep m ρ c main_v4 (by decide), W11_keep m ρ c main_v4 (by decide), W7_keep m ρ c main_v4 (by decide)]
  · rw [W19_keep m ρ c main_arg4 (by decide), W15_keep m ρ c main_arg4 (by decide), W11_keep m ρ c main_arg4 (by decide), W7_keep m ρ c main_arg4 (by decide)]
  · rw [W19_keep m ρ c main_arg5 (by decide), W15_keep m ρ c main_arg5 (by decide), W11_keep m ρ c main_arg5 (by decide), W7_keep m ρ c main_arg5 (by decide)]
  · rw [W19_keep m ρ c main_arg7 (by decide), W15_keep m ρ c main_arg7 (by decide), W11_keep m ρ c main_arg7 (by decide), W7_keep m ρ c main_arg7 (by decide)]

/-- The same from the second, third and fourth pass's start. -/
theorem W15_to_W2 (c : Dev nD) :
    W15 m ρ c (Proc.devRef .tc main_v7) = W2 m ρ c (Proc.devRef .tc main_v7)
    ∧     W15 m ρ c (Proc.devRef .tc main_v2) = W2 m ρ c (Proc.devRef .tc main_v2)
    ∧     W15 m ρ c (Proc.devRef .tc main_v4) = W2 m ρ c (Proc.devRef .tc main_v4) := by
  refine ⟨?_, ?_, ?_⟩
  · rw [W15_keep m ρ c main_v7 (by decide), W11_keep m ρ c main_v7 (by decide), W7_keep m ρ c main_v7 (by decide)]
  · rw [W15_keep m ρ c main_v2 (by decide), W11_keep m ρ c main_v2 (by decide), W7_keep m ρ c main_v2 (by decide)]
  · rw [W15_keep m ρ c main_v4 (by decide), W11_keep m ρ c main_v4 (by decide), W7_keep m ρ c main_v4 (by decide)]
theorem W11_to_W2 (c : Dev nD) :
    W11 m ρ c (Proc.devRef .tc main_v7) = W2 m ρ c (Proc.devRef .tc main_v7)
    ∧     W11 m ρ c (Proc.devRef .tc main_v2) = W2 m ρ c (Proc.devRef .tc main_v2)
    ∧     W11 m ρ c (Proc.devRef .tc main_v4) = W2 m ρ c (Proc.devRef .tc main_v4) := by
  refine ⟨?_, ?_, ?_⟩
  · rw [W11_keep m ρ c main_v7 (by decide), W7_keep m ρ c main_v7 (by decide)]
  · rw [W11_keep m ρ c main_v2 (by decide), W7_keep m ρ c main_v2 (by decide)]
  · rw [W11_keep m ρ c main_v4 (by decide), W7_keep m ρ c main_v4 (by decide)]
theorem W7_to_W2 (c : Dev nD) :
    W7 m ρ c (Proc.devRef .tc main_v7) = W2 m ρ c (Proc.devRef .tc main_v7)
    ∧     W7 m ρ c (Proc.devRef .tc main_v2) = W2 m ρ c (Proc.devRef .tc main_v2)
    ∧     W7 m ρ c (Proc.devRef .tc main_v4) = W2 m ρ c (Proc.devRef .tc main_v4) :=
  ⟨W7_keep m ρ c main_v7 (by decide), W7_keep m ρ c main_v2 (by decide), W7_keep m ρ c main_v4 (by decide)⟩

/-- The threshold row keeps what the first pass made. -/
theorem thr_kept (c : Dev nD) :
    W11 m ρ c (Proc.devRef .tc main_v9) = thrRow (m ((c : Thread nD τ).loc main_arg3)) ∧ W15 m ρ c (Proc.devRef .tc main_v9) = thrRow (m ((c : Thread nD τ).loc main_arg3)) ∧ W7 m ρ c (Proc.devRef .tc main_v9) = thrRow (m ((c : Thread nD τ).loc main_arg3)) := by
  have h7 : W7 m ρ c (Proc.devRef .tc main_v9) = thrRow (m ((c : Thread nD τ).loc main_arg3)) := by rw [W7_v9, W2_arg m ρ c main_arg3 (by decide)]
  refine ⟨?_, ?_, h7⟩
  · rw [W11_keep m ρ c main_v9 (by decide), h7]
  · rw [W15_keep m ρ c main_v9 (by decide), W11_keep m ρ c main_v9 (by decide), h7]

/-- The activations after the first pass. -/
theorem x1_eq (c : Dev nD) : W7 m ρ c (Proc.devRef .tc main_v24)
    = pass (wRow (row2M (m ((c : Thread nD τ).loc main_arg1))) (row2M (m ((c : Thread nD τ).loc main_arg2)))) (thrRow (m ((c : Thread nD τ).loc main_arg3))) (srcOf (m ((c : Thread nD τ).loc main_arg6))) (dstOf (m ((c : Thread nD τ).loc main_arg6))) (xb0 (m ((c : Thread nD τ).loc main_arg0))) := by
  rw [W7_v24, W2_v7, W2_arg m ρ c main_arg3 (by decide), W2_v2, W2_v4, W2_v0]
/-- After the second. -/
theorem x2_eq (c : Dev nD) : W11 m ρ c (Proc.devRef .tc main_v39)
    = pass (wRow (row2M (m ((c : Thread nD τ).loc main_arg1))) (row2M (m ((c : Thread nD τ).loc main_arg2)))) (thrRow (m ((c : Thread nD τ).loc main_arg3))) (srcOf (m ((c : Thread nD τ).loc main_arg6))) (dstOf (m ((c : Thread nD τ).loc main_arg6)))
        (pass (wRow (row2M (m ((c : Thread nD τ).loc main_arg1))) (row2M (m ((c : Thread nD τ).loc main_arg2)))) (thrRow (m ((c : Thread nD τ).loc main_arg3))) (srcOf (m ((c : Thread nD τ).loc main_arg6))) (dstOf (m ((c : Thread nD τ).loc main_arg6))) (xb0 (m ((c : Thread nD τ).loc main_arg0)))) := by
  obtain ⟨a, b, d⟩ := W7_to_W2 m ρ c
  rw [W11_v39, a, b, d, (thr_kept m ρ c).2.2, x1_eq, W2_v7, W2_v2, W2_v4]
/-- After the third. -/
theorem x3_eq (c : Dev nD) : W15 m ρ c (Proc.devRef .tc main_v54)
    = pass (wRow (row2M (m ((c : Thread nD τ).loc main_arg1))) (row2M (m ((c : Thread nD τ).loc main_arg2)))) (thrRow (m ((c : Thread nD τ).loc main_arg3))) (srcOf (m ((c : Thread nD τ).loc main_arg6))) (dstOf (m ((c : Thread nD τ).loc main_arg6)))
        (pass (wRow (row2M (m ((c : Thread nD τ).loc main_arg1))) (row2M (m ((c : Thread nD τ).loc main_arg2)))) (thrRow (m ((c : Thread nD τ).loc main_arg3))) (srcOf (m ((c : Thread nD τ).loc main_arg6))) (dstOf (m ((c : Thread nD τ).loc main_arg6)))
          (pass (wRow (row2M (m ((c : Thread nD τ).loc main_arg1))) (row2M (m ((c : Thread nD τ).loc main_arg2)))) (thrRow (m ((c : Thread nD τ).loc main_arg3))) (srcOf (m ((c : Thread nD τ).loc main_arg6))) (dstOf (m ((c : Thread nD τ).loc main_arg6))) (xb0 (m ((c : Thread nD τ).loc main_arg0))))) := by
  obtain ⟨a, b, d⟩ := W11_to_W2 m ρ c
  rw [W15_v54, a, b, d, (thr_kept m ρ c).1, x2_eq, W2_v7, W2_v2, W2_v4]
/-- After the fourth. -/
theorem x4_eq (c : Dev nD) : W19 m ρ c (Proc.devRef .tc main_v69)
    = pass (wRow (row2M (m ((c : Thread nD τ).loc main_arg1))) (row2M (m ((c : Thread nD τ).loc main_arg2)))) (thrRow (m ((c : Thread nD τ).loc main_arg3))) (srcOf (m ((c : Thread nD τ).loc main_arg6))) (dstOf (m ((c : Thread nD τ).loc main_arg6)))
        (pass (wRow (row2M (m ((c : Thread nD τ).loc main_arg1))) (row2M (m ((c : Thread nD τ).loc main_arg2)))) (thrRow (m ((c : Thread nD τ).loc main_arg3))) (srcOf (m ((c : Thread nD τ).loc main_arg6))) (dstOf (m ((c : Thread nD τ).loc main_arg6)))
          (pass (wRow (row2M (m ((c : Thread nD τ).loc main_arg1))) (row2M (m ((c : Thread nD τ).loc main_arg2)))) (thrRow (m ((c : Thread nD τ).loc main_arg3))) (srcOf (m ((c : Thread nD τ).loc main_arg6))) (dstOf (m ((c : Thread nD τ).loc main_arg6)))
            (pass (wRow (row2M (m ((c : Thread nD τ).loc main_arg1))) (row2M (m ((c : Thread nD τ).loc main_arg2)))) (thrRow (m ((c : Thread nD τ).loc main_arg3))) (srcOf (m ((c : Thread nD τ).loc main_arg6))) (dstOf (m ((c : Thread nD τ).loc main_arg6))) (xb0 (m ((c : Thread nD τ).loc main_arg0)))))) := by
  obtain ⟨a, b, d⟩ := W15_to_W2 m ρ c
  rw [W19_v69, a, b, d, (thr_kept m ρ c).2.1, x3_eq, W2_v7, W2_v2, W2_v4]

/-- The result buffer at the last boundary, as a function of the arguments as launched. -/
theorem W22_result (c : Dev nD) : W22 m ρ c (Proc.devRef .tc main_v73)
    = finalK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨-, -, -, h4, h5, h7⟩ := W19_to_W2 m ρ c
  rw [W22_v73, x4_eq, h7, h4, h5, W2_arg m ρ c main_arg7 (by decide), W2_arg m ρ c main_arg4 (by decide), W2_arg m ρ c main_arg5 (by decide)]
  rfl

end Cert.KernelIdeal.Gen

end
-- ==== Proof.PreDecode.lean ====
/-
  WHAT THE PRECONDITION SAYS OF THE INDEX ARRAYS. Beside the finiteness of the float inputs the precondition is the
  conjunction of two reductions by `and`: over the 2000000 entries of row 0 of the index array, and over the 512
  decision indices, of `-100000 ≤ entry` and `entry < 100000` (signed). It being all ones gives both bounds at
  every entry.
-/
import proofs.«410575_j292057776280_1_alg».proof.Defs
import proofs.«410575_j292057776280_1_alg».proof.Proof.Gen.Pre_finite_inputs
import proofs.«410575_j292057776280_1_alg».proof.Proof.Gen.KernelIdeal
import proofs.«410575_j292057776280_1_alg».proof.Proof.Stages
import Idealize.ShloMosaic.Lib.ReduceAll
import Idealize.ShloMosaic.Lib.StableHlo.Predicate

noncomputable section

namespace Cert.Proof.PreRead

open Idealize.ShloMosaic Idealize.ShloMosaic.TcCoe Idealize.SL.Sem
open Idealize.ShloMosaic.ValueIdx (ix0 ix1 ix2)
open Cert.KernelIdeal Cert.KernelIdeal.Stage

/-- The word the lower bound is printed as reads, signed, as -100000. -/
private theorem toInt_lo : (4294867296#32 : BitVec 32).toInt = -100000 := by decide
/-- The word of the upper bound reads as 100000. -/
private theorem toInt_hi : (100000#32 : BitVec 32).toInt = 100000 := by decide

/-- Under the precondition every entry of row 0 of the index array lies in [-100000, 100000). -/
theorem src_in_range (m : (ℓ : Loc Cert.KernelIdeal.nD Cert.KernelIdeal.τ Cert.KernelIdeal.sig) → Buf (Elt Ideal) ℓ)
    (h : Cert.Pre_KernelIdeal m) (c : Dev Cert.KernelIdeal.nD) (e : Fin 2000000) :
    -100000 ≤ (srcOf (m ((c.tc : Thread Cert.KernelIdeal.nD Cert.KernelIdeal.τ).loc Cert.KernelIdeal.main_arg6)) (ix1 e)).toInt
      ∧ (srcOf (m ((c.tc : Thread Cert.KernelIdeal.nD Cert.KernelIdeal.τ).loc Cert.KernelIdeal.main_arg6)) (ix1 e)).toInt < 100000 := by
  haveI : Subsingleton Cert.Pre_finite_inputs.S_.Idx := ⟨fun a b => funext fun d => d.elim0⟩
  have h0 := congrFun (h c) ix0
  dsimp only [Cert.Pre_finite_inputs.fn, Cert.Pre_finite_inputs.fn_part1, Cert.Pre_finite_inputs.fn_part2] at h0
  -- the conjunction's last two members are the two reductions; the first of them is over row 0
  obtain ⟨h1, -⟩ := IntOp.andi_eq_one.1 h0
  obtain ⟨-, h2⟩ := IntOp.andi_eq_one.1 h1
  obtain ⟨h4, h5⟩ := IntOp.andi_eq_one.1 (Host.reduce_andi_all _ _ _ _ _ h2 (ix1 e))
  have h6 := IntOp.cmpi_sge.1 h4
  have h7 := IntOp.cmpi_slt.1 h5
  change (4294867296#32 : BitVec 32).toInt ≤ _ at h6
  change _ < (100000#32 : BitVec 32).toInt at h7
  rw [toInt_lo] at h6
  rw [toInt_hi] at h7
  exact ⟨h6, h7⟩

/-- Under the precondition every decision index lies in [-100000, 100000). -/
theorem di_in_range (m : (ℓ : Loc Cert.KernelIdeal.nD Cert.KernelIdeal.τ Cert.KernelIdeal.sig) → Buf (Elt Ideal) ℓ)
    (h : Cert.Pre_KernelIdeal m) (c : Dev Cert.KernelIdeal.nD) (e : Fin 512) :
    -100000 ≤ ((m ((c.tc : Thread Cert.KernelIdeal.nD Cert.KernelIdeal.τ).loc Cert.KernelIdeal.main_arg7) : IVec S512 32) (ix1 e)).toInt
      ∧ ((m ((c.tc : Thread Cert.KernelIdeal.nD Cert.KernelIdeal.τ).loc Cert.KernelIdeal.main_arg7) : IVec S512 32) (ix1 e)).toInt < 100000 := by
  haveI : Subsingleton Cert.Pre_finite_inputs.S_.Idx := ⟨fun a b => funext fun d => d.elim0⟩
  have h0 := congrFun (h c) ix0
  dsimp only [Cert.Pre_finite_inputs.fn, Cert.Pre_finite_inputs.fn_part1, Cert.Pre_finite_inputs.fn_part2] at h0
  -- the conjunction's last member is the reduction over the decision indices
  obtain ⟨-, h2⟩ := IntOp.andi_eq_one.1 h0
  obtain ⟨h4, h5⟩ := IntOp.andi_eq_one.1 (Host.reduce_andi_all _ _ _ _ _ h2 (ix1 e))
  have h6 := IntOp.cmpi_sge.1 h4
  have h7 := IntOp.cmpi_slt.1 h5
  change (4294867296#32 : BitVec 32).toInt ≤ _ at h6
  change _ < (100000#32 : BitVec 32).toInt at h7
  rw [toInt_lo] at h6
  rw [toInt_hi] at h7
  exact ⟨h6, h7⟩

end Cert.Proof.PreRead

end
-- ==== Proof.LibTakeFill.lean ====
/-
  A TAKE WITH OUT-OF-RANGE ENTRIES FILLED. `jnp.take(table, idx)` in its default mode first wraps a negative index the
  way NumPy does (`w = idx + N` where `idx < 0`, else `w = idx`, `N` the table's extent), then keeps the gathered entry
  where `0 ≤ w ≤ N - 1` and writes a fill value elsewhere. The in-range test is printed over the [n × 1] column of wrapped
  indices: the reduction by `and` along the second axis of `(col ≥ lo) & (col ≤ hi)`.

  * `wrap_in_range`: an index in `[-N, N)` wraps into `[0, N - 1]`;
  * `wrap_of_nonneg`: a non-negative index is left as it is;
  * `foldl_andi_of_all_one`: a left fold by `and` from 1 over `i1` words that are all 1 is 1;
  * `fill_mask_eq_one`: the printed in-range test is 1 at a row whose wrapped index lies between the bounds.

  Every statement holds at any number of rows `n` and any table extent below 2³⁰.
-/
import Idealize.ShloMosaic.Lib.ReduceAll
import Idealize.ShloMosaic.Lib.StableHlo.Predicate
import Idealize.ShloMosaic.Lib.ValueIdx

namespace Cert.Lib.TakeFill

open Idealize.ShloMosaic
open Idealize.ShloMosaic.StableHlo.Predicate (ixP)
open Idealize.ShloMosaic.ValueIdx (ix1)

/-- An integer in the signed 32-bit range is its own balanced remainder modulo 2³². -/
private theorem bmod_self {m : Int} (h₁ : -2 ^ 31 ≤ m) (h₂ : m < 2 ^ 31) : m.bmod (2 ^ 32) = m :=
  Int.bmod_eq_of_le (by omega) (by omega)

/-- The extent of a table below 2³⁰, as a 32-bit word, reads as itself. -/
private theorem toInt_extent (N : Nat) (hN : N < 2 ^ 31) : (BitVec.ofNat 32 N).toInt = (N : Int) := by
  rw [BitVec.toInt_ofNat']
  exact bmod_self (by omega) (by omega)

/-- THE WRAP LANDS IN RANGE. For a table of extent `N` (positive, below 2³⁰) an index `x` with `-N ≤ x < N`, wrapped
    the NumPy way (`x + N` where `x < 0`, else `x`), lies in `[0, N - 1]`: a negative `x` has `0 ≤ x + N ≤ N - 1` and the
    sum does not leave the word; a non-negative `x` is below `N` already. -/
theorem wrap_in_range (N : Nat) (hN : 0 < N) (hN' : N < 2 ^ 30) (x : BitVec 32) (hlo : -(N : Int) ≤ x.toInt)
    (hhi : x.toInt < (N : Int)) :
    0 ≤ (Scalar.select (IntOp.cmpi .slt x 0#32) (IntOp.addi x (BitVec.ofNat 32 N)) x).toInt ∧
      (Scalar.select (IntOp.cmpi .slt x 0#32) (IntOp.addi x (BitVec.ofNat 32 N)) x).toInt ≤ (N : Int) - 1 := by
  have h0 : (0#32).toInt = 0 := rfl
  by_cases h : x.toInt < 0
  · have hc : IntOp.cmpi .slt x 0#32 = (1 : BitVec 1) := IntOp.cmpi_slt.2 (by rw [h0]; exact h)
    have hn : (BitVec.ofNat 32 N).toInt = (N : Int) := toInt_extent N (by omega)
    have hs : (IntOp.addi x (BitVec.ofNat 32 N)).toInt = x.toInt + (N : Int) := by
      rw [IntOp.addi, BitVec.toInt_add, hn]
      exact bmod_self (by omega) (by omega)
    rw [Scalar.select, if_pos hc, hs]
    omega
  · have hc : ¬ IntOp.cmpi .slt x 0#32 = (1 : BitVec 1) := fun e => h (by have := IntOp.cmpi_slt.1 e; rwa [h0] at this)
    rw [Scalar.select, if_neg hc]
    omega

/-- A NON-NEGATIVE INDEX IS NOT WRAPPED: the comparison `x < 0` fails, so the selection keeps `x`. -/
theorem wrap_of_nonneg (N : Nat) (x : BitVec 32) (h : 0 ≤ x.toInt) :
    Scalar.select (IntOp.cmpi .slt x 0#32) (IntOp.addi x (BitVec.ofNat 32 N)) x = x := by
  have h0 : (0#32).toInt = 0 := rfl
  have hc : ¬ IntOp.cmpi .slt x 0#32 = (1 : BitVec 1) := fun e => by
    have := IntOp.cmpi_slt.1 e
    rw [h0] at this
    omega
  rw [Scalar.select, if_neg hc]

/-- A left fold by `and` from 1 over `i1` words that are all 1 is 1 (the converse of reading such a fold back). -/
theorem foldl_andi_of_all_one {ι : Type} (f : ι → BitVec 1) :
    ∀ l : List ι, (∀ i ∈ l, f i = 1#1) → l.foldl (fun r i => IntOp.andi r (f i)) 1#1 = 1#1
  | [], _ => rfl
  | a :: l, h => by
    have ha : IntOp.andi 1#1 (f a) = 1#1 := IntOp.andi_eq_one.2 ⟨rfl, h a List.mem_cons_self⟩
    rw [List.foldl_cons, ha]
    exact foldl_andi_of_all_one f l fun i hi => h i (List.mem_cons_of_mem _ hi)

/-- THE IN-RANGE TEST AT A ROW. The reduction by `and` along the second axis of `(col ≥ lo) & (col ≤ hi)` over an
    [n × 1] column, from an initial value whose element is 1, is 1 at row `p` as soon as the column's entry of that row
    lies between the two bounds' entries there: the only index of the column that reduces into row `p` is (`p`, 0), and
    both comparisons hold at it. -/
theorem fill_mask_eq_one {n : Nat} {u : Shape} (hred : (⟨2, ![n, 1]⟩ : Shape).ReducesTo [1] ⟨1, ![n]⟩)
    (hu : 0 < u.numel) (init : u.Idx → BitVec 1) (hinit : init (Shape.Idx.first hu) = 1#1)
    (col lo hi : IVec ⟨2, ![n, 1]⟩ 32) (p : Fin n)
    (hx : (lo (ixP p)).toInt ≤ (col (ixP p)).toInt ∧ (col (ixP p)).toInt ≤ (hi (ixP p)).toInt) :
    Host.reduce IntOp.andi (andi (cmpi .sge col lo) (cmpi .sle col hi)) init hred hu (ix1 p) = 1#1 := by
  rw [Host.reduce_eq_foldl, hinit]
  refine foldl_andi_of_all_one _ _ fun i hmem => ?_
  -- an index that reduces into row p is (p, 0)
  have hd : hred.drop i = ix1 p := of_decide_eq_true (List.mem_filter.1 hmem).2
  have hv : (hred.drop i 0 : Nat) = i 0 := Shape.ReducesTo.drop_apply_val hred i 0
  have hr : (i 0 : Nat) = p := by rw [← hv, hd]; rfl
  have hip : i = ixP p := by
    funext b
    match b with
    | ⟨0, _⟩ => exact Fin.ext hr
    | ⟨1, _⟩ => exact Subsingleton.elim (α := Fin 1) _ _
  subst hip
  exact IntOp.andi_eq_one.2 ⟨IntOp.cmpi_sge.2 hx.1, IntOp.cmpi_sle.2 hx.2⟩

end Cert.Lib.TakeFill
-- ==== Proof.TakeFill.lean ====
/-
  A FILLED TAKE IS THE PLAIN GATHER WHEN EVERY INDEX IS IN RANGE. `take(xb, idx)` over the columns of a [16 × 100000]
  array keeps the gathered column where the wrapped index lies in [0, 99999] and writes the fill word elsewhere; with
  every index in [-100000, 100000) the wrap lands in range at every column, the in-range mask is all ones, and the
  selection is the gather itself. Stated for the 2000000 edge columns and for the 512 decision columns.
-/
import proofs.«410575_j292057776280_1_alg».proof.Proof.Stages
import proofs.«410575_j292057776280_1_alg».proof.Proof.LibTakeFill

noncomputable section

namespace Cert.KernelIdeal.Stage

open Idealize.ShloMosaic Idealize.ShloMosaic.TcCoe Cert.KernelIdeal
open Idealize.ShloMosaic.ValueIdx (ix1 ix2)
open Idealize.ShloMosaic.StableHlo.Predicate (ixP)
open Cert.KernelIdeal.Facts₀ Cert.KernelIdeal.Facts

variable {F : FTy → Type} [FloatOps F]

/-- A row of `m` entries laid along the second axis of an [n × m] rectangle (constant down each column) reads, at
    (a, b), the row at `b`. -/
private theorem bcast_axis1 {α : Type} {n m : Nat} (h : (⟨1, ![m]⟩ : Shape).BroadcastsInDim ⟨2, ![n, m]⟩ ![1])
    (v : (⟨1, ![m]⟩ : Shape).Idx → α) (a : Fin n) (b : Fin m) :
    broadcastInDim ⟨2, ![n, m]⟩ ![1] h v (ix2 a b) = v (ix1 b) := by
  unfold broadcastInDim
  refine congrArg v (funext fun d => ?_)
  match d with
  | ⟨0, _⟩ =>
    apply Fin.ext
    have hb := b.isLt
    split
    · next h1 => change m = 1 at h1; show (0 : Nat) = b.val; omega
    · rfl

/-- The wrapped index of column `p`, as the column of start indices holds it: the entry `idx p` plus `N` where
    negative, `idx p` itself otherwise. -/
private theorem wrapCol_apply (idx : IVec S2000000 32) (p : Fin 2000000) :
    wrapCol idx (ixP p)
      = Scalar.select (IntOp.cmpi .slt (idx (ix1 p)) 0#32) (IntOp.addi (idx (ix1 p)) (BitVec.ofNat 32 100000)) (idx (ix1 p)) := by
  have hp : (Shape.Idx.ofFin p : S2000000.Idx) = ix1 p := funext fun d => match d with | ⟨0, _⟩ => rfl
  unfold wrapCol
  rw [StableHlo.Predicate.bcast_col1, hp]
  rfl

/-- With every entry in [-100000, 100000) the in-range mask is 1 at every column. -/
private theorem inRange_eq_one (idx : IVec S2000000 32) (p : Fin 2000000)
    (h : -100000 ≤ (idx (ix1 p)).toInt ∧ (idx (ix1 p)).toInt < 100000) :
    inRange (wrapCol idx) (ix1 p) = 1#1 := by
  have hw := Cert.Lib.TakeFill.wrap_in_range 100000 (by norm_num) (by norm_num) (idx (ix1 p)) (by have := h.1; omega)
    (by have := h.2; omega)
  rw [← wrapCol_apply idx p] at hw
  unfold inRange
  refine Cert.Lib.TakeFill.fill_mask_eq_one _ _ _ rfl _ _ _ p ⟨?_, ?_⟩
  · show (0#32).toInt ≤ _
    have h0 : (0#32).toInt = 0 := rfl
    rw [h0]; exact hw.1
  · show _ ≤ (99999#32).toInt
    have h9 : (99999#32).toInt = 99999 := by decide
    rw [h9]; have := hw.2; omega

/-- The wrapped decision index of column `p`, as the column of start indices holds it. -/
private theorem wrapCol512_apply (idx : IVec S512 32) (p : Fin 512) :
    wrapCol512 idx (ixP p)
      = Scalar.select (IntOp.cmpi .slt (idx (ix1 p)) 0#32) (IntOp.addi (idx (ix1 p)) (BitVec.ofNat 32 100000)) (idx (ix1 p)) := by
  have hp : (Shape.Idx.ofFin p : S512.Idx) = ix1 p := funext fun d => match d with | ⟨0, _⟩ => rfl
  unfold wrapCol512
  rw [StableHlo.Predicate.bcast_col1, hp]
  rfl

/-- With every decision index in [-100000, 100000) the in-range mask is 1 at every one of the 512 columns. -/
private theorem inRange512_eq_one (idx : IVec S512 32) (p : Fin 512)
    (h : -100000 ≤ (idx (ix1 p)).toInt ∧ (idx (ix1 p)).toInt < 100000) :
    inRange512 (wrapCol512 idx) (ix1 p) = 1#1 := by
  have hw := Cert.Lib.TakeFill.wrap_in_range 100000 (by norm_num) (by norm_num) (idx (ix1 p)) (by have := h.1; omega)
    (by have := h.2; omega)
  rw [← wrapCol512_apply idx p] at hw
  unfold inRange512
  refine Cert.Lib.TakeFill.fill_mask_eq_one _ _ _ rfl _ _ _ p ⟨?_, ?_⟩
  · show (0#32).toInt ≤ _
    have h0 : (0#32).toInt = 0 := rfl
    rw [h0]; exact hw.1
  · show _ ≤ (99999#32).toInt
    have h9 : (99999#32).toInt = 99999 := by decide
    rw [h9]; have := hw.2; omega

/-- With every edge index in [-100000, 100000) the filled take is the gather at the wrapped indices. -/
theorem takeFill_eq (xb : FVec F S16x100000 .f32) (idx : IVec S2000000 32)
    (h : ∀ e : Fin 2000000, -100000 ≤ (idx (ix1 e)).toInt ∧ (idx (ix1 e)).toInt < 100000) :
    takeFill xb idx = gatherCols xb (wrapCol idx) := by
  funext i
  obtain ⟨a, b, rfl⟩ : ∃ a b, i = ix2 a b := ⟨i 0, i 1, ValueIdx.eq_ix2 i⟩
  unfold takeFill
  show Scalar.select (broadcastInDim S16x2000000 ![1] bcast_S2000000_S16x2000000_1 (inRange (wrapCol idx)) (ix2 a b)) _ _ = _
  rw [bcast_axis1, inRange_eq_one idx b (h b)]
  exact ValueIdx.select_one _ _

/-- With every decision index in [-100000, 100000) the filled take of the 512 columns is the gather at the wrapped indices. -/
theorem takeFill512_eq (xb : FVec F S16x100000 .f32) (idx : IVec S512 32)
    (h : ∀ e : Fin 512, -100000 ≤ (idx (ix1 e)).toInt ∧ (idx (ix1 e)).toInt < 100000) :
    takeFill512 xb idx = gatherCols512 xb (wrapCol512 idx) := by
  funext i
  obtain ⟨a, b, rfl⟩ : ∃ a b, i = ix2 a b := ⟨i 0, i 1, ValueIdx.eq_ix2 i⟩
  unfold takeFill512
  show Scalar.select (broadcastInDim S16x512 ![1] bcast_S512_S16x512_1 (inRange512 (wrapCol512 idx)) (ix2 a b)) _ _ = _
  rw [bcast_axis1, inRange512_eq_one idx b (h b)]
  exact ValueIdx.select_one _ _

end Cert.KernelIdeal.Stage

end
-- ==== Proof.BridgeUpd.lean ====
/-
  THE UPDATE, over the extended reals. From an aggregate `a`, with m and M its least and greatest entries, the
  kernel's update body computes at (b, n)   1 / (1 + exp(0 − ((a(b,n) − m)/(M − m) − |thr|(n))))   and the
  reference   1 / (1 + exp(−((a(b,n) − m)/(M − m) − |thr|(n)))) : on the extended reals `0 − z = −z`, and every
  other operation is the same one on both sides (the kernel reads m and M out of [1 × 1] arrays, the reference
  broadcasts the scalars).
-/
import proofs.«410575_j292057776280_1_alg».proof.Proof.Gen.ReferenceIdeal
import proofs.«410575_j292057776280_1_alg».proof.Proof.Stages
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.ReferenceIdeal.RefValue

open Idealize.ShloMosaic Idealize.ShloMosaic.TcCoe
open Idealize.ShloMosaic.ValueIdx
open Cert.ReferenceIdeal Cert.ReferenceIdeal.Gen

section AtAnIndex
variable {s : Shape} {φ : FTy}

/-- The exponential of an array, read at an index, is the exponential of the entry. -/
theorem exp_apply (x : FVec Ideal s φ) (i : s.Idx) : exp x i = Ideal.exp (x i) := rfl
/-- The host's quotient of two arrays, read at an index, is the quotient of the entries. -/
theorem hostDivf_apply (x y : FVec Ideal s φ) (i : s.Idx) : Host.divf x y i = Ideal.div (x i) (y i) := rfl
/-- The host's exponential of an array, read at an index, is the exponential of the entry. -/
theorem hostExp_apply (x : FVec Ideal s φ) (i : s.Idx) : Host.exp x i = Ideal.exp (x i) := rfl
/-- The host's negation of an array, read at an index, is the negative of the entry. -/
theorem hostNegf_apply (x : FVec Ideal s φ) (i : s.Idx) : Host.negf x i = -(x i) := rfl

/-- A scalar broadcast to any shape reads the scalar's one entry at every index. -/
theorem bcast_scalar_apply {α : Type} (t : Shape) (dims : Fin S_.rank → Fin t.rank) (h : S_.BroadcastsInDim t dims)
    (x : S_.Idx → α) (j : t.Idx) : broadcastInDim t dims h x j = x ix0 := by
  unfold broadcastInDim
  exact congrArg x (eq_ix0 _)

end AtAnIndex

/-- A scalar viewed as a [1 × 1] array and read at its one position is the scalar's one entry. -/
theorem extractAt_as11 (x : FVec Ideal Cert.KernelIdeal.S_ .f32) :
    extractAt ![0, 0] (Cert.KernelIdeal.Stage.as11 x) Cert.KernelIdeal.Gen.inpos_S1x1_p0_0 = x ix0 := by
  unfold extractAt Cert.KernelIdeal.Stage.as11 shapeCast
  exact congrArg x (eq_ix0 _)

/-- A row of 100000 entries broadcast to [1 × 100000] and then over the 16 rows reads, at (b, n), the row's entry n. -/
theorem bcast_row_apply {α : Type} (v : S100000.Idx → α) (b : Fin 16) (n : Fin 100000) :
    broadcastInDim S16x100000 ![0, 1] bcast_S1x100000_S16x100000_0_1
        (broadcastInDim S1x100000 ![1] bcast_S100000_S1x100000_1 v) (ix2 b n)
      = v (ix1 n) := by
  rw [broadcastInDim_apply _ _ _ (ix2 b n) (ix2 (0 : Fin 1) n) (fun c => match c with | ⟨0, _⟩ => rfl | ⟨1, _⟩ => rfl)]
  exact broadcastInDim_apply _ _ _ _ (ix1 n) (fun c => match c with | ⟨0, _⟩ => rfl)

/-- The threshold row at (0, n) is the absolute value of threshold n. -/
theorem thrRow_apply (t : FVec Ideal S100000 .f32) (n : Fin 100000) :
    Cert.KernelIdeal.Stage.thrRow t (ix2 (0 : Fin 1) n) = Host.absf t (ix1 n) := by
  unfold Cert.KernelIdeal.Stage.thrRow
  exact shapeCast_a_1a_apply _ _ _ _

/-- The kernel's update payload of an aggregate, its least and greatest entries as [1 × 1] arrays and the threshold row
    is the reference's update of the same aggregate and the flat absolute thresholds. -/
theorem upd_eq (a : FVec Ideal S16x100000 .f32) (t : FVec Ideal S100000 .f32) :
    Cert.KernelIdeal.Gen.k2_pay1 (F := Ideal) (Cert.KernelIdeal.Stage.as11 (Cert.KernelIdeal.Stage.minS a))
      (Cert.KernelIdeal.Stage.as11 (Cert.KernelIdeal.Stage.maxS a)) a (Cert.KernelIdeal.Stage.thrRow t)
    = Host.divf (broadcastInDim S16x100000 ![] bcast_S_S16x100000 (constant S_ .f32 0x3F800000#32))
        (addf (broadcastInDim S16x100000 ![] bcast_S_S16x100000 (constant S_ .f32 0x3F800000#32))
          (Host.exp (Host.negf (subf
            (Host.divf
              (subf a (broadcastInDim S16x100000 ![] bcast_S_S16x100000
                (Host.reduce FloatOps.minimumf a (constant S_ .f32 0x7F800000#32) reducesTo_S16x100000_S_d0_1 h_S_)))
              (broadcastInDim S16x100000 ![] bcast_S_S16x100000
                (subf (Host.reduce FloatOps.maximumf a (constant S_ .f32 0xFF800000#32) reducesTo_S16x100000_S_d0_1 h_S_)
                  (Host.reduce FloatOps.minimumf a (constant S_ .f32 0x7F800000#32) reducesTo_S16x100000_S_d0_1 h_S_))))
            (broadcastInDim S16x100000 ![0, 1] bcast_S1x100000_S16x100000_0_1
              (broadcastInDim S1x100000 ![1] bcast_S100000_S1x100000_1 (Host.absf t))))))) := by
  funext j
  obtain ⟨b, n, rfl⟩ : ∃ (b : Fin 16) (n : Fin 100000), j = ix2 b n := ⟨j 0, j 1, eq_ix2 j⟩
  unfold Cert.KernelIdeal.Gen.k2_pay1
  -- the kernel's side: the casts to the same shape go, m and M are read out of their [1 × 1] arrays
  rw [shapeCast_self, shapeCast_self, extractAt_as11, extractAt_as11]
  -- the kernel's side at (b, n), operation by operation from the outside in
  rw [divf_apply, addf_apply, exp_apply, subf_apply, subf_apply, divf_apply, subf_apply]
  -- the reference's side at (b, n), likewise
  rw [hostDivf_apply, addf_apply, hostExp_apply, hostNegf_apply, subf_apply, hostDivf_apply, subf_apply]
  -- the reference's broadcast scalars (the constant 1, m, M − m) and its broadcast threshold row
  rw [bcast_scalar_apply, bcast_scalar_apply, bcast_scalar_apply, subf_apply, bcast_row_apply]
  -- the kernel's broadcast scalars (the constants 1 and 0, m, M − m) and its broadcast threshold row
  rw [broadcast_apply, broadcast_apply, broadcast_apply, broadcast_apply]
  rw [broadcastTo_1b_ab_apply, thrRow_apply, Ideal.scalar_subf_def, constant_apply, Ideal.ofBits_def, Ideal.ofBits_def]
  -- the one law: on the extended reals 0 − z = −z
  rw [Ideal.ofBits_zero_f32, zero_sub]
  -- m and M are the same reductions of `a` on both sides
  unfold Cert.KernelIdeal.Stage.minS Cert.KernelIdeal.Stage.maxS
  rfl

end Cert.ReferenceIdeal.RefValue

end
-- ==== Proof.BridgeMsg.lean ====
/-
  THE MESSAGES, over the extended reals. At row b and edge e the kernel's message pallas_call multiplies the taken
  column entry by the weight row's entry under that column, `ew(e) · tanh(mult(e))`; the reference multiplies the
  gathered entry by the flat weights broadcast over the 16 rows. With every index in range the filled take is the plain
  gather at the wrapped indices, so the two message arrays are equal entry by entry.
-/
import proofs.«410575_j292057776280_1_alg».proof.Proof.Gen.ReferenceIdeal
import proofs.«410575_j292057776280_1_alg».proof.Proof.Stages
import proofs.«410575_j292057776280_1_alg».proof.Proof.TakeFill
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.ReferenceIdeal.RefValue

open Idealize.ShloMosaic Idealize.ShloMosaic.TcCoe
open Idealize.ShloMosaic.ValueIdx
open Cert.ReferenceIdeal Cert.ReferenceIdeal.Gen

/-- A flat array as a [1 × n] row reads, at (0, e), the flat array at `e`; so the weight row under column `e` is
    `ew(e) · tanh(mult(e))`. -/
private theorem wRow_apply (ew mult : FVec Ideal S2000000 .f32) (e : Fin 2000000) :
    Cert.KernelIdeal.Stage.wRow (Cert.KernelIdeal.Stage.row2M ew) (Cert.KernelIdeal.Stage.row2M mult) (ix2 (0 : Fin 1) e)
      = FloatOps.mulf (ew (ix1 e)) (FloatOps.tanh (mult (ix1 e))) := by
  unfold Cert.KernelIdeal.Stage.wRow Cert.KernelIdeal.Stage.row2M
  show FloatOps.mulf (shapeCast _ ew _ (ix2 (0 : Fin 1) e)) (FloatOps.tanh (shapeCast _ mult _ (ix2 (0 : Fin 1) e))) = _
  rw [shapeCast_a_1a_apply, shapeCast_a_1a_apply]

/-- A flat array laid as one row and that row copied down the 16 rows reads, at (b, e), the flat array at `e`. -/
private theorem bcast_rows_apply (v : FVec Ideal S2000000 .f32) (b : Fin 16) (e : Fin 2000000) :
    broadcastInDim S16x2000000 ![0, 1] bcast_S1x2000000_S16x2000000_0_1
        (broadcastInDim S1x2000000 ![1] bcast_S2000000_S1x2000000_1 v) (ix2 b e) = v (ix1 e) := by
  have hp : (Shape.Idx.ofFin e : S2000000.Idx) = ix1 e := funext fun d => match d with | ⟨0, _⟩ => rfl
  show broadcastInDim _ _ _ _ (StableHlo.Predicate.ij b e) = _
  rw [StableHlo.Predicate.bcast_of_row, StableHlo.Predicate.bcast_row1, hp]

/-- The kernel's message array (the filled take times the weight row under each column) is the reference's (the plain
    gather at the wrapped indices times the flat weights broadcast over the rows), the indices being in range. -/
theorem msg_eq (xb : FVec Ideal S16x100000 .f32) (ew mult : FVec Ideal S2000000 .f32) (src : IVec S2000000 32)
    (hsrc : ∀ e : Fin 2000000, -100000 ≤ (src (ix1 e)).toInt ∧ (src (ix1 e)).toInt < 100000) :
    Cert.KernelIdeal.Stage.gmArr (F := Ideal) (Cert.KernelIdeal.Stage.takeFill xb src)
      (Cert.KernelIdeal.Stage.wRow (Cert.KernelIdeal.Stage.row2M ew) (Cert.KernelIdeal.Stage.row2M mult))
    = mulf (Host.gather gather_S16x100000_S2000000x1_S16x2000000_0_1_n_n_1_1_161 xb
          (broadcastInDim S2000000x1 ![0] bcast_S2000000_S2000000x1_0
            (select (cmpi .slt src (broadcastInDim S2000000 ![] bcast_S_S2000000 (constantI S_ 32 0#32)))
              (addi src (broadcastInDim S2000000 ![] bcast_S_S2000000 (constantI S_ 32 100000#32))) src)))
        (broadcastInDim S16x2000000 ![0, 1] bcast_S1x2000000_S16x2000000_0_1
          (broadcastInDim S1x2000000 ![1] bcast_S2000000_S1x2000000_1 (mulf ew (Host.tanh mult)))) := by
  funext i
  obtain ⟨b, e, rfl⟩ : ∃ b e, i = ix2 b e := ⟨i 0, i 1, eq_ix2 i⟩
  rw [Cert.KernelIdeal.Stage.takeFill_eq xb src hsrc]
  show FloatOps.mulf (Cert.KernelIdeal.Stage.gatherCols xb (Cert.KernelIdeal.Stage.wrapCol src) (ix2 b e))
      (Cert.KernelIdeal.Stage.wRow (Cert.KernelIdeal.Stage.row2M ew) (Cert.KernelIdeal.Stage.row2M mult) (ix2 (0 : Fin 1) e))
    = FloatOps.mulf _ (broadcastInDim S16x2000000 ![0, 1] bcast_S1x2000000_S16x2000000_0_1
        (broadcastInDim S1x2000000 ![1] bcast_S2000000_S1x2000000_1 (mulf ew (Host.tanh mult))) (ix2 b e))
  rw [wRow_apply, bcast_rows_apply]
  rfl

end Cert.ReferenceIdeal.RefValue

end
-- ==== Proof.BridgeFc.lean ====
/-
  THE DECISION LAYER, over the extended reals. The kernel's last body rounds both operands to bf16 (the identity on
  extended reals), multiplies them into a zero accumulator and adds the bias row broadcast over the 16 rows; the
  reference takes the `dot_general` of the same two arrays and adds the bias broadcast in two steps. Entry (b, j) of
  either is  Σ_k xd(b, k) · wT(k, j) + bias(j).
-/
import proofs.«410575_j292057776280_1_alg».proof.Proof.Gen.ReferenceIdeal
import proofs.«410575_j292057776280_1_alg».proof.Proof.Stages
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.ReferenceIdeal.RefValue

open Idealize.ShloMosaic Idealize.ShloMosaic.TcCoe
open Idealize.ShloMosaic.ValueIdx
open Cert.ReferenceIdeal Cert.ReferenceIdeal.Gen

/-- The kernel's last payload of the taken columns, the transposed weights and the bias row is the reference's
    `dot_general` of the same columns and transposed weights plus the broadcast bias. -/
theorem fc_eq (xd : FVec Ideal S16x512 .f32) (fcw : FVec Ideal S10x512 .f32) (fcb : FVec Ideal S10 .f32) :
    Cert.KernelIdeal.Gen.k9_pay1 (F := Ideal) xd (Cert.KernelIdeal.Stage.fcwT fcw) (Cert.KernelIdeal.Stage.fcbRow fcb)
    = addf (Host.dotGeneral dot_S16x512_S512x10_S16x10_1_0_0_1_n_n none xd (transpose S512x10 [1, 0] fcw transposes_S10x512_S512x10_1_0))
        (broadcastInDim S16x10 ![0, 1] bcast_S1x10_S16x10_0_1 (broadcastInDim S1x10 ![1] bcast_S10_S1x10_1 fcb)) := by
  funext j
  obtain ⟨b, q, rfl⟩ : ∃ (b : Fin 16) (q : Fin 10), j = ix2 b q := ⟨j 0, j 1, eq_ix2 j⟩
  unfold Cert.KernelIdeal.Gen.k9_pay1
  dsimp only
  rw [addf_apply, addf_apply]
  refine congrArg₂ (· + ·) ?_ ?_
  · -- the product: both are the sum over the 512 contracted positions of xd(b, k) · wT(k, q)
    rw [shapeCast_self, shapeCast_self]
    simp only [Host.dotGeneral]
    exact (Ideal.matmul_constant_zero_apply Cert.KernelIdeal.dot_S16x512_S512x10_S16x10_1_0_0_1_n_n none _ _ (ix2 b q)).trans
      (Ideal.dotGeneral_apply dot_S16x512_S512x10_S16x10_1_0_0_1_n_n none _ xd
        (transpose S512x10 [1, 0] fcw transposes_S10x512_S512x10_1_0) (ix2 b q)).symm
  · -- the bias: either broadcast reads bias(q) at (b, q)
    rw [broadcastTo_1b_ab_apply, shapeCast_self]
    unfold Cert.KernelIdeal.Stage.fcbRow
    rw [shapeCast_a_1a_apply]
    show _ = broadcastInDim _ _ _ _ (StableHlo.Predicate.ij b q)
    rw [StableHlo.Predicate.bcast_of_row, StableHlo.Predicate.bcast_row1]
    exact congrArg fcb (funext fun d => by match d with | ⟨0, _⟩ => rfl)

end Cert.ReferenceIdeal.RefValue

end
-- ==== Proof.Bridge.lean ====
/-
  THE REFERENCE'S RESULT IS THE KERNEL PROGRAM'S FUNCTION of the same eight arrays, over the extended reals, when every
  gather index is in range. Pass by pass the two programs do the same arithmetic: the reference multiplies the gathered
  columns by `ew · tanh(mult)` broadcast over the 16 rows where the kernel's message pallas_call reads the weight row
  under each column; both scatter-add the same messages at the same wrapped columns into zeros; the reference's
  `1 / (1 + exp(−z))` with `z = (aggr − min)/(max − min) − |thr|` is the update pallas_call's `1 / (1 + exp(0 − z))`
  (on the extended reals `0 − z = −z`); and the last matrix product into a zero accumulator plus the bias row is the
  reference's `dot_general` plus the broadcast bias. The kernel's filled take is the reference's plain gather because
  the indices are in range.
-/
import proofs.«410575_j292057776280_1_alg».proof.Proof.Gen.ReferenceIdeal.Run
import proofs.«410575_j292057776280_1_alg».proof.Proof.Stages
import proofs.«410575_j292057776280_1_alg».proof.Proof.TakeFill
import proofs.«410575_j292057776280_1_alg».proof.Proof.BridgeUpd
import proofs.«410575_j292057776280_1_alg».proof.Proof.BridgeMsg
import proofs.«410575_j292057776280_1_alg».proof.Proof.BridgeFc
import Idealize.ShloMosaic.PureOps.Ideal.Laws
import Idealize.ShloMosaic.Lib.ValueIdx
import Idealize.ShloMosaic.Lib.Pipeline.Value

set_option maxRecDepth 16384

noncomputable section

namespace Cert.ReferenceIdeal.RefValue

open Idealize.ShloMosaic Idealize.ShloMosaic.TcCoe Idealize.SL.Sem Idealize.ShloMosaic.StableHlo
open Idealize.ShloMosaic.ValueIdx (ix0 ix1 ix2)
open Cert.ReferenceIdeal Cert.ReferenceIdeal.Gen Cert.ReferenceIdeal.Value

section Steps

variable (ew mult : FVec Ideal S2000000 .f32) (t : FVec Ideal S100000 .f32) (src dst : IVec S2000000 32)

/-- The reference's aggregate of activations `xb`: the gathered columns (at the wrapped `src`) times the flat weights
    `ew · tanh(mult)` broadcast over the rows, scatter-added at the wrapped columns `dst` into zeros. -/
def aggrRef (xb : FVec Ideal S16x100000 .f32) : FVec Ideal S16x100000 .f32 :=
  Host.scatterAdd scatter_S16x100000_S2000000x1_S16x2000000_0_1_1_1
    (broadcastInDim S16x100000 ![] bcast_S_S16x100000 (constant S_ .f32 0x00000000#32))
    (broadcastInDim S2000000x1 ![0] bcast_S2000000_S2000000x1_0
      (select (cmpi .slt dst (broadcastInDim S2000000 ![] bcast_S_S2000000 (constantI S_ 32 0#32)))
        (addi dst (broadcastInDim S2000000 ![] bcast_S_S2000000 (constantI S_ 32 100000#32))) dst))
    (mulf (Host.gather gather_S16x100000_S2000000x1_S16x2000000_0_1_n_n_1_1_161 xb
          (broadcastInDim S2000000x1 ![0] bcast_S2000000_S2000000x1_0
            (select (cmpi .slt src (broadcastInDim S2000000 ![] bcast_S_S2000000 (constantI S_ 32 0#32)))
              (addi src (broadcastInDim S2000000 ![] bcast_S_S2000000 (constantI S_ 32 100000#32))) src)))
        (broadcastInDim S16x2000000 ![0, 1] bcast_S1x2000000_S16x2000000_0_1
          (broadcastInDim S1x2000000 ![1] bcast_S2000000_S1x2000000_1 (mulf ew (Host.tanh mult)))))

/-- The reference's update of an aggregate `a`: `1 / (1 + exp(−((a − min a)/(max a − min a) − |t|)))`. -/
def updRef (a : FVec Ideal S16x100000 .f32) : FVec Ideal S16x100000 .f32 :=
  Host.divf (broadcastInDim S16x100000 ![] bcast_S_S16x100000 (constant S_ .f32 0x3F800000#32))
    (addf (broadcastInDim S16x100000 ![] bcast_S_S16x100000 (constant S_ .f32 0x3F800000#32))
      (Host.exp (Host.negf (subf
        (Host.divf
          (subf a (broadcastInDim S16x100000 ![] bcast_S_S16x100000
            (Host.reduce FloatOps.minimumf a (constant S_ .f32 0x7F800000#32) reducesTo_S16x100000_S_d0_1 h_S_)))
          (broadcastInDim S16x100000 ![] bcast_S_S16x100000
            (subf (Host.reduce FloatOps.maximumf a (constant S_ .f32 0xFF800000#32) reducesTo_S16x100000_S_d0_1 h_S_)
              (Host.reduce FloatOps.minimumf a (constant S_ .f32 0x7F800000#32) reducesTo_S16x100000_S_d0_1 h_S_))))
        (broadcastInDim S16x100000 ![0, 1] bcast_S1x100000_S16x100000_0_1
          (broadcastInDim S1x100000 ![1] bcast_S100000_S1x100000_1 (Host.absf t)))))))

/-- The kernel's aggregate of `xb` (scatter-add of the message array) is the reference's, the gather indices in range:
    the messages agree, and the zeros and the wrapped destination columns are the same terms. -/
theorem aggrOf_eq_aggrRef (xb : FVec Ideal S16x100000 .f32)
    (hsrc : ∀ e : Fin 2000000, -100000 ≤ (src (ix1 e)).toInt ∧ (src (ix1 e)).toInt < 100000) :
    Cert.KernelIdeal.Stage.aggrOf (F := Ideal)
      (Cert.KernelIdeal.Stage.gmArr (Cert.KernelIdeal.Stage.takeFill xb src)
        (Cert.KernelIdeal.Stage.wRow (Cert.KernelIdeal.Stage.row2M ew) (Cert.KernelIdeal.Stage.row2M mult))) dst
    = aggrRef ew mult src dst xb := by
  rw [msg_eq xb ew mult src hsrc]
  rfl

/-- One pass of the kernel program is the reference's update of the reference's aggregate. -/
theorem pass_eq_updRef (xb : FVec Ideal S16x100000 .f32)
    (hsrc : ∀ e : Fin 2000000, -100000 ≤ (src (ix1 e)).toInt ∧ (src (ix1 e)).toInt < 100000) :
    Cert.KernelIdeal.Stage.pass (F := Ideal)
      (Cert.KernelIdeal.Stage.wRow (Cert.KernelIdeal.Stage.row2M ew) (Cert.KernelIdeal.Stage.row2M mult))
      (Cert.KernelIdeal.Stage.thrRow t) src dst xb
    = updRef t (aggrRef ew mult src dst xb) := by
  unfold Cert.KernelIdeal.Stage.pass
  rw [aggrOf_eq_aggrRef ew mult src dst xb hsrc]
  exact upd_eq _ t

end Steps

section Reference

variable (V0 : Valuation τ sig (Elt Ideal))

/-- The reference's first aggregate is its aggregate of the launched activations. -/
theorem res25_eq : res_main_v25 V0
    = aggrRef (V0 (Proc.devRef .tc main_arg1)) (V0 (Proc.devRef .tc main_arg2))
        (Cert.KernelIdeal.Stage.srcOf (V0 (Proc.devRef .tc main_arg6))) (Cert.KernelIdeal.Stage.dstOf (V0 (Proc.devRef .tc main_arg6)))
        (Cert.KernelIdeal.Stage.xb0 (V0 (Proc.devRef .tc main_arg0))) := rfl

/-- Its second aggregate is its aggregate of the update of the first. -/
theorem res59_eq : res_main_v59 V0
    = aggrRef (V0 (Proc.devRef .tc main_arg1)) (V0 (Proc.devRef .tc main_arg2))
        (Cert.KernelIdeal.Stage.srcOf (V0 (Proc.devRef .tc main_arg6))) (Cert.KernelIdeal.Stage.dstOf (V0 (Proc.devRef .tc main_arg6)))
        (updRef (V0 (Proc.devRef .tc main_arg3)) (res_main_v25 V0)) := rfl

/-- Its third aggregate is its aggregate of the update of the second. -/
theorem res93_eq : res_main_v93 V0
    = aggrRef (V0 (Proc.devRef .tc main_arg1)) (V0 (Proc.devRef .tc main_arg2))
        (Cert.KernelIdeal.Stage.srcOf (V0 (Proc.devRef .tc main_arg6))) (Cert.KernelIdeal.Stage.dstOf (V0 (Proc.devRef .tc main_arg6)))
        (updRef (V0 (Proc.devRef .tc main_arg3)) (res_main_v59 V0)) := rfl

/-- Its fourth aggregate is its aggregate of the update of the third. -/
theorem res127_eq : res_main_v127 V0
    = aggrRef (V0 (Proc.devRef .tc main_arg1)) (V0 (Proc.devRef .tc main_arg2))
        (Cert.KernelIdeal.Stage.srcOf (V0 (Proc.devRef .tc main_arg6))) (Cert.KernelIdeal.Stage.dstOf (V0 (Proc.devRef .tc main_arg6)))
        (updRef (V0 (Proc.devRef .tc main_arg3)) (res_main_v93 V0)) := rfl

end Reference

/-- The reference's result buffer after its operations (`val4_main_v155` gives it as the composed term), at the extended reals, is the kernel program's function `finalK` of the argument
    arrays, given that row 0 of the index array and the decision indices lie in [-100000, 100000). -/
theorem result_eq (V0 : Valuation τ sig (Elt Ideal))
    (hsrc : ∀ e : Fin 2000000, -100000 ≤ (Cert.KernelIdeal.Stage.srcOf (V0 (Proc.devRef .tc main_arg6)) (ix1 e)).toInt
      ∧ (Cert.KernelIdeal.Stage.srcOf (V0 (Proc.devRef .tc main_arg6)) (ix1 e)).toInt < 100000)
    (hdi : ∀ e : Fin 512, -100000 ≤ ((V0 (Proc.devRef .tc main_arg7) : IVec S512 32) (ix1 e)).toInt
      ∧ ((V0 (Proc.devRef .tc main_arg7) : IVec S512 32) (ix1 e)).toInt < 100000) :
    val4 V0 (no_index (Proc.devRef .tc main_v155))
    = Cert.KernelIdeal.Stage.finalK (F := Ideal) (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5)) (V0 (Proc.devRef .tc main_arg6)) (V0 (Proc.devRef .tc main_arg7)) := by
  rw [val4_main_v155]
  -- the reference's last update is its update of its fourth aggregate; the aggregates one from another
  show addf (Host.dotGeneral dot_S16x512_S512x10_S16x10_1_0_0_1_n_n none
      (Host.gather gather_S16x100000_S512x1_S16x512_0_1_n_n_1_1_161
        (updRef (V0 (Proc.devRef .tc main_arg3)) (res_main_v127 V0)) _) _) _ = _
  rw [res127_eq, res93_eq, res59_eq, res25_eq]
  -- the kernel program's four passes, the take of the decision columns and the decision layer
  unfold Cert.KernelIdeal.Stage.finalK
  rw [pass_eq_updRef _ _ _ _ _ _ hsrc, pass_eq_updRef _ _ _ _ _ _ hsrc, pass_eq_updRef _ _ _ _ _ _ hsrc, pass_eq_updRef _ _ _ _ _ _ hsrc,
    Cert.KernelIdeal.Stage.takeFill512_eq _ _ hdi, fc_eq]
  rfl

end Cert.ReferenceIdeal.RefValue

end
-- ==== Proof.lean ====
/-
  The certificate: the kernel's program — a weight row, four message-passing updates of a [16 × 100000] array of
  activations and a final decision layer, ten pallas_calls among host gathers and scatter-adds — against the plain jnp
  reference, over the extended reals, under the precondition that the float inputs are finite and that the gather
  indices (row 0 of the index array, the decision indices) lie in the range of the axis they index.

  The three frames: the two kernel programs' are the generated frames; the reference's is its generated run with the
  result dropped. The idealization rewrote nothing, so `preserves` is trivial. The value claim: the kernel's run names
  its result buffer at the last segment boundary's contents (`run_value`), that buffer is the function `finalK` of the
  eight argument arrays (`W22_result`: the fold walked through its twenty-two segments), and the reference's result
  term is the same function of the same arrays (`result_eq`), the index bounds read off the precondition.
-/
import proofs.«410575_j292057776280_1_alg».proof.Defs
import proofs.«410575_j292057776280_1_alg».proof.Proof.Gen.Kernel
import proofs.«410575_j292057776280_1_alg».proof.Proof.Gen.Kernel.Frame
import proofs.«410575_j292057776280_1_alg».proof.Proof.Gen.KernelIdeal
import proofs.«410575_j292057776280_1_alg».proof.Proof.Gen.KernelIdeal.Frame
import proofs.«410575_j292057776280_1_alg».proof.Proof.Gen.ReferenceIdeal
import proofs.«410575_j292057776280_1_alg».proof.Proof.Gen.Pre_finite_inputs
import proofs.«410575_j292057776280_1_alg».proof.Proof.Gen.ReferenceIdeal.Run
import proofs.«410575_j292057776280_1_alg».proof.Proof.RunValue
import proofs.«410575_j292057776280_1_alg».proof.Proof.ChainAll
import proofs.«410575_j292057776280_1_alg».proof.Proof.PreDecode
import proofs.«410575_j292057776280_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo
open Idealize.ShloMosaic.ValueIdx (ix1)

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, from memories that agree on the arguments, with the same [16 × 10] result: the kernel's result
    buffer holds `finalK` of its arguments, and the reference's result term is `finalK` of its own — equal arguments. -/
theorem algebraic : Cert.algebraic_KernelIdeal_ReferenceIdeal := by
  intro m ρ m' ρ' hpre hagree
  refine ⟨fun c => Cert.KernelIdeal.Gen.W22 (F := Ideal) m ρ c (Proc.devRef .tc Cert.KernelIdeal.main_v73),
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  show _ = Cert.KernelIdeal.Gen.W22 (F := Ideal) m ρ c (Proc.devRef .tc Cert.KernelIdeal.main_v73)
  rw [Cert.KernelIdeal.Gen.W22_result (F := Ideal) m ρ c]
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  have e6 : launchContents m' c (Proc.devRef .tc Cert.ReferenceIdeal.main_arg6) = m ((c.tc : Thread Cert.KernelIdeal.nD Cert.KernelIdeal.τ).loc Cert.KernelIdeal.main_arg6) := h6
  have e7 : launchContents m' c (Proc.devRef .tc Cert.ReferenceIdeal.main_arg7) = m ((c.tc : Thread Cert.KernelIdeal.nD Cert.KernelIdeal.τ).loc Cert.KernelIdeal.main_arg7) := h7
  refine ((Cert.ReferenceIdeal.Value.val4_main_v155 (F := Ideal) (launchContents m' c)).symm.trans
    (Cert.ReferenceIdeal.RefValue.result_eq (launchContents m' c) ?_ ?_)).trans ?_
  · intro e
    rw [e6]
    exact Cert.Proof.PreRead.src_in_range m hpre c e
  · intro e
    rw [e7]
    exact Cert.Proof.PreRead.di_in_range m hpre c e
  · rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
